-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v38)) (v1 : (c : Dev Cert.KernelIdeal.nD) → Buf (Elt Ideal) ((c.tc : Thread Cert.KernelIdeal.nD Cert.KernelIdeal.τ).loc Cert.KernelIdeal.main_v28)) (v2 : (c : Dev Cert.KernelIdeal.nD) → Buf (Elt Ideal) ((c.tc : Thread Cert.KernelIdeal.nD Cert.KernelIdeal.τ).loc Cert.KernelIdeal.main_v30)) (v3 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_v28) = v1 c
          ∧ r.2.mem ((c.tc : Thread Cert.KernelIdeal.nD Cert.KernelIdeal.τ).loc Cert.KernelIdeal.main_v30) = v2 c
          ∧ r.2.mem ((c.tc : Thread Cert.KernelIdeal.nD Cert.KernelIdeal.τ).loc Cert.KernelIdeal.main_v32) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_v58) = v1 c
          ∧ r.2.mem ((c.tc : Thread Cert.ReferenceIdeal.nD Cert.ReferenceIdeal.τ).loc Cert.ReferenceIdeal.main_v60) = v2 c
          ∧ r.2.mem ((c.tc : Thread Cert.ReferenceIdeal.nD Cert.ReferenceIdeal.τ).loc Cert.ReferenceIdeal.main_v62) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x32x64x64 : Shape := ⟨4, ![128, 32, 64, 64]⟩
abbrev S128x64x64x64 : Shape := ⟨4, ![128, 64, 64, 64]⟩
abbrev S128x4 : Shape := ⟨2, ![128, 4]⟩
abbrev S128x64 : Shape := ⟨2, ![128, 64]⟩
abbrev S128x2048 : Shape := ⟨2, ![128, 2048]⟩
abbrev S65536x4 : Shape := ⟨2, ![65536, 4]⟩
abbrev S_ : Shape := ⟨0, ![]⟩

class Facts : Prop where
  bcast_S_S128x32x64x64 : S_.BroadcastsInDim S128x32x64x64 (![] : Fin 0 → Fin S128x32x64x64.rank)
  reducesTo_S128x32x64x64_S_d0_1_2_3 : S128x32x64x64.ReducesTo [0, 1, 2, 3] S_
  h_S_ : 0 < S_.numel
  bcast_S_S128x64x64x64 : S_.BroadcastsInDim S128x64x64x64 (![] : Fin 0 → Fin S128x64x64x64.rank)
  reducesTo_S128x64x64x64_S_d0_1_2_3 : S128x64x64x64.ReducesTo [0, 1, 2, 3] S_
  bcast_S_S128x4 : S_.BroadcastsInDim S128x4 (![] : Fin 0 → Fin S128x4.rank)
  reducesTo_S128x4_S_d0_1 : S128x4.ReducesTo [0, 1] S_
  bcast_S_S65536x4 : S_.BroadcastsInDim S65536x4 (![] : Fin 0 → Fin S65536x4.rank)
  reducesTo_S65536x4_S_d0_1 : S65536x4.ReducesTo [0, 1] S_

variable [Facts]

def fn_part1 {F : FTy → Type} [FloatOps F] (main_v13 : IVec S_ 1) (main_v16 : IVec S65536x4 1) : IVec S_ 1 :=
  let main_c_5 : IVec S_ 1 := constantI S_ 1 1#1
  let main_v17 : IVec S_ 1 := (fun x v => Host.reduce IntOp.andi x v reducesTo_S65536x4_S_d0_1 h_S_) main_v16 main_c_5
  let main_v18 : IVec S_ 1 := andi main_v13 main_v17
  main_v18

def fn {F : FTy → Type} [FloatOps F] (main_arg0 : FVec F S128x32x64x64 .f32) (main_arg1 : FVec F S128x64x64x64 .f32) (main_arg2 : FVec F S128x4 .f32) (main_arg3 : IVec S128x64 32) (main_arg4 : IVec S128x2048 32) (main_arg5 : FVec F S65536x4 .f32) : IVec S_ 1 :=
  let main_v0 : FVec F S128x32x64x64 .f32 := Host.absf main_arg0
  let main_cst : FVec F S_ .f32 := constant S_ .f32 0x7F800000#32
  let main_v1 : FVec F S128x32x64x64 .f32 := broadcastInDim S128x32x64x64 ![] bcast_S_S128x32x64x64 main_cst
  let main_v2 : IVec S128x32x64x64 1 := cmpf .olt main_v0 main_v1
  let main_c : IVec S_ 1 := constantI S_ 1 1#1
  let main_v3 : IVec S_ 1 := (fun x v => Host.reduce IntOp.andi x v reducesTo_S128x32x64x64_S_d0_1_2_3 h_S_) main_v2 main_c
  let main_v4 : FVec F S128x64x64x64 .f32 := Host.absf main_arg1
  let main_cst_0 : FVec F S_ .f32 := constant S_ .f32 0x7F800000#32
  let main_v5 : FVec F S128x64x64x64 .f32 := broadcastInDim S128x64x64x64 ![] bcast_S_S128x64x64x64 main_cst_0
  let main_v6 : IVec S128x64x64x64 1 := cmpf .olt main_v4 main_v5
  let main_c_1 : IVec S_ 1 := constantI S_ 1 1#1
  let main_v7 : IVec S_ 1 := (fun x v => Host.reduce IntOp.andi x v reducesTo_S128x64x64x64_S_d0_1_2_3 h_S_) main_v6 main_c_1
  let main_v8 : IVec S_ 1 := andi main_v3 main_v7
  let main_v9 : FVec F S128x4 .f32 := Host.absf main_arg2
  let main_cst_2 : FVec F S_ .f32 := constant S_ .f32 0x7F800000#32
  let main_v10 : FVec F S128x4 .f32 := broadcastInDim S128x4 ![] bcast_S_S128x4 main_cst_2
  let main_v11 : IVec S128x4 1 := cmpf .olt main_v9 main_v10
  let main_c_3 : IVec S_ 1 := constantI S_ 1 1#1
  let main_v12 : IVec S_ 1 := (fun x v => Host.reduce IntOp.andi x v reducesTo_S128x4_S_d0_1 h_S_) main_v11 main_c_3
  let main_v13 : IVec S_ 1 := andi main_v8 main_v12
  let main_v14 : FVec F S65536x4 .f32 := Host.absf main_arg5
  let main_cst_4 : FVec F S_ .f32 := constant S_ .f32 0x7F800000#32
  let main_v15 : FVec F S65536x4 .f32 := broadcastInDim S65536x4 ![] bcast_S_S65536x4 main_cst_4
  let main_v16 : IVec S65536x4 1 := cmpf .olt main_v14 main_v15
  fn_part1 (F := F) main_v13 main_v16
-- ==== Kernel.lean ====
abbrev S128x32x64x64 : Shape := ⟨4, ![128, 32, 64, 64]⟩
abbrev S128x64x64x64 : Shape := ⟨4, ![128, 64, 64, 64]⟩
abbrev S128x4 : Shape := ⟨2, ![128, 4]⟩
abbrev S128x64 : Shape := ⟨2, ![128, 64]⟩
abbrev S128x2048 : Shape := ⟨2, ![128, 2048]⟩
abbrev S65536x4 : Shape := ⟨2, ![65536, 4]⟩
abbrev S128x2x65536 : Shape := ⟨3, ![128, 2, 65536]⟩
abbrev S128x65536x2 : Shape := ⟨3, ![128, 65536, 2]⟩
abbrev S128x2048x1 : Shape := ⟨3, ![128, 2048, 1]⟩
abbrev S_ : Shape := ⟨0, ![]⟩
abbrev S1 : Shape := ⟨1, ![1]⟩
abbrev S1x1x1 : Shape := ⟨3, ![1, 1, 1]⟩
abbrev S128x2048x2 : Shape := ⟨3, ![128, 2048, 2]⟩
abbrev S128x64x1 : Shape := ⟨3, ![128, 64, 1]⟩
abbrev S128x64x2 : Shape := ⟨3, ![128, 64, 2]⟩
abbrev S128x2x2048 : Shape := ⟨3, ![128, 2, 2048]⟩
abbrev S128x2x64 : Shape := ⟨3, ![128, 2, 64]⟩
abbrev S128x4x65536 : Shape := ⟨3, ![128, 4, 65536]⟩
abbrev S128x1x64 : Shape := ⟨3, ![128, 1, 64]⟩
abbrev S128x4x64 : Shape := ⟨3, ![128, 4, 64]⟩
abbrev S128x4x64x1 : Shape := ⟨4, ![128, 4, 64, 1]⟩
abbrev S1x1x1x1 : Shape := ⟨4, ![1, 1, 1, 1]⟩
abbrev S128x64x4 : Shape := ⟨3, ![128, 64, 4]⟩
abbrev S128x3 : Shape := ⟨2, ![128, 3]⟩
abbrev S64x2x2048 : Shape := ⟨3, ![64, 2, 2048]⟩
abbrev S64x2x64 : Shape := ⟨3, ![64, 2, 64]⟩
abbrev S64x4x64 : Shape := ⟨3, ![64, 4, 64]⟩
abbrev S64x4 : Shape := ⟨2, ![64, 4]⟩
abbrev S64x3 : Shape := ⟨2, ![64, 3]⟩
abbrev S64x1x2048 : Shape := ⟨3, ![64, 1, 2048]⟩
abbrev S64x2048 : Shape := ⟨2, ![64, 2048]⟩
abbrev S64 : Shape := ⟨1, ![64]⟩
abbrev S64x1 : Shape := ⟨2, ![64, 1]⟩
abbrev S64x1x64 : Shape := ⟨3, ![64, 1, 64]⟩
abbrev S64x64 : Shape := ⟨2, ![64, 64]⟩
abbrev S128x1 : Shape := ⟨2, ![128, 1]⟩
abbrev S128 : Shape := ⟨1, ![128]⟩

abbrev nBuf : Space → Nat
  | .hbm => 143
  | .vmem => 12
  | .smem => 0
  | _ => 0

abbrev hbmTy0_0 (i : Nat) : BufTy := match i % 128 with
  | 0 => ⟨S128x32x64x64, .f32⟩
  | 1 => ⟨S128x64x64x64, .f32⟩
  | 2 => ⟨S128x4, .f32⟩
  | 3 => ⟨S128x64, .i32⟩
  | 4 => ⟨S128x2048, .i32⟩
  | 5 => ⟨S65536x4, .f32⟩
  | 6 => ⟨S128x2x65536, .f32⟩
  | 7 => ⟨S128x65536x2, .f32⟩
  | 8 => ⟨S128x2048x1, .i32⟩
  | 9 => ⟨S_, .i32⟩
  | 10 => ⟨S128x2048x1, .i32⟩
  | 11 => ⟨S128x2048x1, .i1⟩
  | 12 => ⟨S_, .i32⟩
  | 13 => ⟨S128x2048x1, .i32⟩
  | 14 => ⟨S128x2048x1, .i32⟩
  | 15 => ⟨S128x2048x1, .i32⟩
  | 16 => ⟨S1, .i32⟩
  | 17 => ⟨S_, .i32⟩
  | 18 => ⟨S128x2048x1, .i32⟩
  | 19 => ⟨S128x2048x1, .i1⟩
  | 20 => ⟨S1x1x1, .i32⟩
  | 21 => ⟨S128x2048x1, .i32⟩
  | 22 => ⟨S128x2048x1, .i1⟩
  | 23 => ⟨S128x2048x1, .i1⟩
  | 24 => ⟨S_, .i1⟩
  | 25 => ⟨S128x2048, .i1⟩
  | 26 => ⟨S128x2048x2, .f32⟩
  | 27 => ⟨S128x2048x2, .i1⟩
  | 28 => ⟨S_, .f32⟩
  | 29 => ⟨S128x2048x2, .f32⟩
  | 30 => ⟨S128x2048x2, .f32⟩
  | 31 => ⟨S128x64x1, .i32⟩
  | 32 => ⟨S_, .i32⟩
  | 33 => ⟨S128x64x1, .i32⟩
  | 34 => ⟨S128x64x1, .i1⟩
  | 35 => ⟨S_, .i32⟩
  | 36 => ⟨S128x64x1, .i32⟩
  | 37 => ⟨S128x64x1, .i32⟩
  | 38 => ⟨S128x64x1, .i32⟩
  | 39 => ⟨S1, .i32⟩
  | 40 => ⟨S_, .i32⟩
  | 41 => ⟨S128x64x1, .i32⟩
  | 42 => ⟨S128x64x1, .i1⟩
  | 43 => ⟨S1x1x1, .i32⟩
  | 44 => ⟨S128x64x1, .i32⟩
  | 45 => ⟨S128x64x1, .i1⟩
  | 46 => ⟨S128x64x1, .i1⟩
  | 47 => ⟨S_, .i1⟩
  | 48 => ⟨S128x64, .i1⟩
  | 49 => ⟨S128x64x2, .f32⟩
  | 50 => ⟨S128x64x2, .i1⟩
  | 51 => ⟨S_, .f32⟩
  | 52 => ⟨S128x64x2, .f32⟩
  | 53 => ⟨S128x64x2, .f32⟩
  | 54 => ⟨S128x2x2048, .f32⟩
  | 55 => ⟨S128x2x64, .f32⟩
  | 56 => ⟨S128x4x65536, .f32⟩
  | 57 => ⟨S128x1x64, .i32⟩
  | 58 => ⟨S128x4x64, .i32⟩
  | 59 => ⟨S_, .i32⟩
  | 60 => ⟨S128x4x64, .i32⟩
  | 61 => ⟨S128x4x64, .i1⟩
  | 62 => ⟨S_, .i32⟩
  | 63 => ⟨S128x4x64, .i32⟩
  | 64 => ⟨S128x4x64, .i32⟩
  | 65 => ⟨S128x4x64, .i32⟩
  | 66 => ⟨S128x4x64x1, .i32⟩
  | 67 => ⟨S1, .i32⟩
  | 68 => ⟨S_, .i32⟩
  | 69 => ⟨S128x4x64x1, .i32⟩
  | 70 => ⟨S128x4x64x1, .i1⟩
  | 71 => ⟨S1x1x1x1, .i32⟩
  | 72 => ⟨S128x4x64x1, .i32⟩
  | 73 => ⟨S128x4x64x1, .i1⟩
  | 74 => ⟨S128x4x64x1, .i1⟩
  | 75 => ⟨S_, .i1⟩
  | 76 => ⟨S128x4x64, .i1⟩
  | 77 => ⟨S128x4x64, .f32⟩
  | 78 => ⟨S_, .f32⟩
  | 79 => ⟨S128x4x64, .f32⟩
  | 80 => ⟨S128x4x64, .f32⟩
  | 81 => ⟨S_, .i32⟩
  | 82 => ⟨S128x64, .i32⟩
  | 83 => ⟨S128x64, .i1⟩
  | 84 => ⟨S_, .i32⟩
  | 85 => ⟨S128x64, .i32⟩
  | 86 => ⟨S128x64, .i32⟩
  | 87 => ⟨S128x64, .i32⟩
  | 88 => ⟨S128x64x1, .i32⟩
  | 89 => ⟨S1, .i32⟩
  | 90 => ⟨S_, .i32⟩
  | 91 => ⟨S128x64x1, .i32⟩
  | 92 => ⟨S128x64x1, .i1⟩
  | 93 => ⟨S1x1x1, .i32⟩
  | 94 => ⟨S128x64x1, .i32⟩
  | 95 => ⟨S128x64x1, .i1⟩
  | 96 => ⟨S128x64x1, .i1⟩
  | 97 => ⟨S_, .i1⟩
  | 98 => ⟨S128x64, .i1⟩
  | 99 => ⟨S128x64x4, .f32⟩
  | 100 => ⟨S128x64x4, .i1⟩
  | 101 => ⟨S_, .f32⟩
  | 102 => ⟨S128x64x4, .f32⟩
  | 103 => ⟨S128x64x4, .f32⟩
  | 104 => ⟨S128x4x64, .f32⟩
  | 105 => ⟨S128x3, .f32⟩
  | 106 => ⟨S128x1, .f32⟩
  | 107 => ⟨S128, .f32⟩
  | 108 => ⟨S_, .f32⟩
  | 109 => ⟨S128, .f32⟩
  | 110 => ⟨S128, .f32⟩
  | 111 => ⟨S128x1, .f32⟩
  | 112 => ⟨S128, .f32⟩
  | 113 => ⟨S_, .f32⟩
  | 114 => ⟨S128, .f32⟩
  | 115 => ⟨S128, .f32⟩
  | 116 => ⟨S128x1, .f32⟩
  | 117 => ⟨S128, .f32⟩
  | 118 => ⟨S_, .f32⟩
  | 119 => ⟨S128, .f32⟩
  | 120 => ⟨S128, .f32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S128x32x64x64, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | _ => ⟨S128x32x64x64, .f32⟩

abbrev hbmTy (i : Nat) : BufTy := match i / 128 with
  | 0 => hbmTy0_0 i
  | 1 => hbmTy0_1 i
  | _ => ⟨S128x32x64x64, .f32⟩

abbrev bufTy : (tb : Table) → Fin (tcTables nBuf tb) → BufTy
  | .hbm, ⟨i, _⟩ => hbmTy i
  | .local _ .vmem, ⟨0, _⟩ => ⟨S64x2x2048, .f32⟩
  | .local _ .vmem, ⟨1, _⟩ => ⟨S64x2x2048, .f32⟩
  | .local _ .vmem, ⟨2, _⟩ => ⟨S64x2x64, .f32⟩
  | .local _ .vmem, ⟨3, _⟩ => ⟨S64x2x64, .f32⟩
  | .local _ .vmem, ⟨4, _⟩ => ⟨S64x4x64, .f32⟩
  | .local _ .vmem, ⟨5, _⟩ => ⟨S64x4x64, .f32⟩
  | .local _ .vmem, ⟨6, _⟩ => ⟨S64x4x64, .f32⟩
  | .local _ .vmem, ⟨7, _⟩ => ⟨S64x4x64, .f32⟩
  | .local _ .vmem, ⟨8, _⟩ => ⟨S64x4, .f32⟩
  | .local _ .vmem, ⟨9, _⟩ => ⟨S64x4, .f32⟩
  | .local _ .vmem, ⟨10, _⟩ => ⟨S64x3, .f32⟩
  | .local _ .vmem, ⟨11, _⟩ => ⟨S64x3, .f32⟩
  | _, _ => ⟨S128x32x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_c_1 : Ref sig .tc := ⟨.hbm, 16, rfl⟩
abbrev main_call0_c_2 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_c_3 : Ref sig .tc := ⟨.hbm, 24, rfl⟩
abbrev main_call0_v11 : Ref sig .tc := ⟨.hbm, 25, rfl⟩
abbrev main_call0_v12 : Ref sig .tc := ⟨.hbm, 26, rfl⟩
abbrev main_call0_v13 : Ref sig .tc := ⟨.hbm, 27, rfl⟩
abbrev main_call0_cst : Ref sig .tc := ⟨.hbm, 28, rfl⟩
abbrev main_call0_v14 : Ref sig .tc := ⟨.hbm, 29, rfl⟩
abbrev main_v3 : Ref sig .tc := ⟨.hbm, 30, rfl⟩
abbrev main_v4 : Ref sig .tc := ⟨.hbm, 31, rfl⟩
abbrev main_call1_c : Ref sig .tc := ⟨.hbm, 32, rfl⟩
abbrev main_call1_v0 : Ref sig .tc := ⟨.hbm, 33, rfl⟩
abbrev main_call1_v1 : Ref sig .tc := ⟨.hbm, 34, rfl⟩
abbrev main_call1_c_0 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_c_1 : Ref sig .tc := ⟨.hbm, 39, rfl⟩
abbrev main_call1_c_2 : Ref sig .tc := ⟨.hbm, 40, rfl⟩
abbrev main_call1_v5 : Ref sig .tc := ⟨.hbm, 41, rfl⟩
abbrev main_call1_v6 : Ref sig .tc := ⟨.hbm, 42, rfl⟩
abbrev main_call1_v7 : Ref sig .tc := ⟨.hbm, 43, rfl⟩
abbrev main_call1_v8 : Ref sig .tc := ⟨.hbm, 44, rfl⟩
abbrev main_call1_v9 : Ref sig .tc := ⟨.hbm, 45, rfl⟩
abbrev main_call1_v10 : Ref sig .tc := ⟨.hbm, 46, rfl⟩
abbrev main_call1_c_3 : Ref sig .tc := ⟨.hbm, 47, rfl⟩
abbrev main_call1_v11 : Ref sig .tc := ⟨.hbm, 48, rfl⟩
abbrev main_call1_v12 : Ref sig .tc := ⟨.hbm, 49, rfl⟩
abbrev main_call1_v13 : Ref sig .tc := ⟨.hbm, 50, rfl⟩
abbrev main_call1_cst : Ref sig .tc := ⟨.hbm, 51, rfl⟩
abbrev main_call1_v14 : Ref sig .tc := ⟨.hbm, 52, rfl⟩
abbrev main_v5 : Ref sig .tc := ⟨.hbm, 53, rfl⟩
abbrev main_v6 : Ref sig .tc := ⟨.hbm, 54, rfl⟩
abbrev main_v7 : Ref sig .tc := ⟨.hbm, 55, rfl⟩
abbrev main_v8 : Ref sig .tc := ⟨.hbm, 56, rfl⟩
abbrev main_v9 : Ref sig .tc := ⟨.hbm, 57, rfl⟩
abbrev main_v10 : Ref sig .tc := ⟨.hbm, 58, rfl⟩
abbrev main_call2_c : Ref sig .tc := ⟨.hbm, 59, rfl⟩
abbrev main_call2_v0 : Ref sig .tc := ⟨.hbm, 60, rfl⟩
abbrev main_call2_v1 : Ref sig .tc := ⟨.hbm, 61, rfl⟩
abbrev main_call2_c_0 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_v5 : Ref sig .tc := ⟨.hbm, 66, rfl⟩
abbrev main_call2_c_1 : Ref sig .tc := ⟨.hbm, 67, rfl⟩
abbrev main_call2_c_2 : Ref sig .tc := ⟨.hbm, 68, rfl⟩
abbrev main_call2_v6 : Ref sig .tc := ⟨.hbm, 69, rfl⟩
abbrev main_call2_v7 : Ref sig .tc := ⟨.hbm, 70, rfl⟩
abbrev main_call2_v8 : Ref sig .tc := ⟨.hbm, 71, rfl⟩
abbrev main_call2_v9 : Ref sig .tc := ⟨.hbm, 72, rfl⟩
abbrev main_call2_v10 : Ref sig .tc := ⟨.hbm, 73, rfl⟩
abbrev main_call2_v11 : Ref sig .tc := ⟨.hbm, 74, rfl⟩
abbrev main_call2_c_3 : Ref sig .tc := ⟨.hbm, 75, rfl⟩
abbrev main_call2_v12 : Ref sig .tc := ⟨.hbm, 76, rfl⟩
abbrev main_call2_v13 : Ref sig .tc := ⟨.hbm, 77, rfl⟩
abbrev main_call2_cst : Ref sig .tc := ⟨.hbm, 78, rfl⟩
abbrev main_call2_v14 : Ref sig .tc := ⟨.hbm, 79, rfl⟩
abbrev main_v11 : Ref sig .tc := ⟨.hbm, 80, rfl⟩
abbrev main_call3_c : Ref sig .tc := ⟨.hbm, 81, rfl⟩
abbrev main_call3_v0 : Ref sig .tc := ⟨.hbm, 82, rfl⟩
abbrev main_call3_v1 : Ref sig .tc := ⟨.hbm, 83, rfl⟩
abbrev main_call3_c_0 : Ref sig .tc := ⟨.hbm, 84, rfl⟩
abbrev main_call3_v2 : Ref sig .tc := ⟨.hbm, 85, rfl⟩
abbrev main_call3_v3 : Ref sig .tc := ⟨.hbm, 86, rfl⟩
abbrev main_call3_v4 : Ref sig .tc := ⟨.hbm, 87, rfl⟩
abbrev main_call3_v5 : Ref sig .tc := ⟨.hbm, 88, rfl⟩
abbrev main_call3_c_1 : Ref sig .tc := ⟨.hbm, 89, rfl⟩
abbrev main_call3_c_2 : Ref sig .tc := ⟨.hbm, 90, rfl⟩
abbrev main_call3_v6 : Ref sig .tc := ⟨.hbm, 91, rfl⟩
abbrev main_call3_v7 : Ref sig .tc := ⟨.hbm, 92, rfl⟩
abbrev main_call3_v8 : Ref sig .tc := ⟨.hbm, 93, rfl⟩
abbrev main_call3_v9 : Ref sig .tc := ⟨.hbm, 94, rfl⟩
abbrev main_call3_v10 : Ref sig .tc := ⟨.hbm, 95, rfl⟩
abbrev main_call3_v11 : Ref sig .tc := ⟨.hbm, 96, rfl⟩
abbrev main_call3_c_3 : Ref sig .tc := ⟨.hbm, 97, rfl⟩
abbrev main_call3_v12 : Ref sig .tc := ⟨.hbm, 98, rfl⟩
abbrev main_call3_v13 : Ref sig .tc := ⟨.hbm, 99, rfl⟩
abbrev main_call3_v14 : Ref sig .tc := ⟨.hbm, 100, rfl⟩
abbrev main_call3_cst : Ref sig .tc := ⟨.hbm, 101, rfl⟩
abbrev main_call3_v15 : Ref sig .tc := ⟨.hbm, 102, rfl⟩
abbrev main_v12 : Ref sig .tc := ⟨.hbm, 103, rfl⟩
abbrev main_v13 : Ref sig .tc := ⟨.hbm, 104, rfl⟩
abbrev main_v14 : Ref sig .tc := ⟨.hbm, 105, rfl⟩
abbrev main_v15 : Ref sig .tc := ⟨.hbm, 106, rfl⟩
abbrev main_v16 : Ref sig .tc := ⟨.hbm, 107, rfl⟩
abbrev main_cst : Ref sig .tc := ⟨.hbm, 108, rfl⟩
abbrev main_v17 : Ref sig .tc := ⟨.hbm, 109, rfl⟩
abbrev main_v18 : Ref sig .tc := ⟨.hbm, 110, rfl⟩
abbrev main_v19 : Ref sig .tc := ⟨.hbm, 111, rfl⟩
abbrev main_v20 : Ref sig .tc := ⟨.hbm, 112, rfl⟩
abbrev main_cst_0 : Ref sig .tc := ⟨.hbm, 113, rfl⟩
abbrev main_v21 : Ref sig .tc := ⟨.hbm, 114, rfl⟩
abbrev main_v22 : Ref sig .tc := ⟨.hbm, 115, rfl⟩
abbrev main_v23 : Ref sig .tc := ⟨.hbm, 116, rfl⟩
abbrev main_v24 : Ref sig .tc := ⟨.hbm, 117, rfl⟩
abbrev main_cst_1 : Ref sig .tc := ⟨.hbm, 118, rfl⟩
abbrev main_v25 : Ref sig .tc := ⟨.hbm, 119, rfl⟩
abbrev main_v26 : Ref sig .tc := ⟨.hbm, 120, rfl⟩
abbrev main_cst_2 : Ref sig .tc := ⟨.hbm, 121, rfl⟩
abbrev main_v27 : Ref sig .tc := ⟨.hbm, 122, rfl⟩
abbrev main_cst_3 : Ref sig .tc := ⟨.hbm, 123, rfl⟩
abbrev main_v28 : Ref sig .tc := ⟨.hbm, 124, rfl⟩
abbrev main_cst_4 : Ref sig .tc := ⟨.hbm, 125, rfl⟩
abbrev main_v29 : Ref sig .tc := ⟨.hbm, 126, rfl⟩
abbrev main_cst_5 : Ref sig .tc := ⟨.hbm, 127, rfl⟩
abbrev main_v30 : Ref sig .tc := ⟨.hbm, 128, rfl⟩
abbrev main_cst_6 : Ref sig .tc := ⟨.hbm, 129, rfl⟩
abbrev main_v31 : Ref sig .tc := ⟨.hbm, 130, rfl⟩
abbrev main_cst_7 : Ref sig .tc := ⟨.hbm, 131, rfl⟩
abbrev main_v32 : Ref sig .tc := ⟨.hbm, 132, rfl⟩
abbrev main_cst_8 : Ref sig .tc := ⟨.hbm, 133, rfl⟩
abbrev main_v33 : Ref sig .tc := ⟨.hbm, 134, rfl⟩
abbrev main_cst_9 : Ref sig .tc := ⟨.hbm, 135, rfl⟩
abbrev main_v34 : Ref sig .tc := ⟨.hbm, 136, rfl⟩
abbrev main_v35 : Ref sig .tc := ⟨.hbm, 137, rfl⟩
abbrev main_cst_10 : Ref sig .tc := ⟨.hbm, 138, rfl⟩
abbrev main_v36 : Ref sig .tc := ⟨.hbm, 139, rfl⟩
abbrev main_cst_11 : Ref sig .tc := ⟨.hbm, 140, rfl⟩
abbrev main_v37 : Ref sig .tc := ⟨.hbm, 141, rfl⟩
abbrev main_v38 : Ref sig .tc := ⟨.hbm, 142, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x2x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x4x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x4x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x4 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x3 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S128x32x64x64_S128x2x65536 : S128x32x64x64.ShapeCasts S128x2x65536
  transposes_S128x2x65536_S128x65536x2_0_2_1 : S128x2x65536.Transposes [0, 2, 1] S128x65536x2
  bcast_S128x2048_S128x2048x1_0_1 : S128x2048.BroadcastsInDim S128x2048x1 (![0, 1] : Fin 2 → Fin S128x2048x1.rank)
  bcast_S_S128x2048x1 : S_.BroadcastsInDim S128x2048x1 (![] : Fin 0 → Fin S128x2048x1.rank)
  bcast_S1_S1x1x1_2 : S1.BroadcastsInDim S1x1x1 (![2] : Fin 1 → Fin S1x1x1.rank)
  bcast_S1x1x1_S128x2048x1_0_1_2 : S1x1x1.BroadcastsInDim S128x2048x1 (![0, 1, 2] : Fin 3 → Fin S128x2048x1.rank)
  reducesTo_S128x2048x1_S128x2048_d2 : S128x2048x1.ReducesTo [2] S128x2048
  h_S_ : 0 < S_.numel
  bcast_S128x2048_S128x2048x2_0_1 : S128x2048.BroadcastsInDim S128x2048x2 (![0, 1] : Fin 2 → Fin S128x2048x2.rank)
  bcast_S_S128x2048x2 : S_.BroadcastsInDim S128x2048x2 (![] : Fin 0 → Fin S128x2048x2.rank)
  bcast_S128x64_S128x64x1_0_1 : S128x64.BroadcastsInDim S128x64x1 (![0, 1] : Fin 2 → Fin S128x64x1.rank)
  bcast_S_S128x64x1 : S_.BroadcastsInDim S128x64x1 (![] : Fin 0 → Fin S128x64x1.rank)
  bcast_S1x1x1_S128x64x1_0_1_2 : S1x1x1.BroadcastsInDim S128x64x1 (![0, 1, 2] : Fin 3 → Fin S128x64x1.rank)
  reducesTo_S128x64x1_S128x64_d2 : S128x64x1.ReducesTo [2] S128x64
  bcast_S128x64_S128x64x2_0_1 : S128x64.BroadcastsInDim S128x64x2 (![0, 1] : Fin 2 → Fin S128x64x2.rank)
  bcast_S_S128x64x2 : S_.BroadcastsInDim S128x64x2 (![] : Fin 0 → Fin S128x64x2.rank)
  transposes_S128x2048x2_S128x2x2048_0_2_1 : S128x2048x2.Transposes [0, 2, 1] S128x2x2048
  transposes_S128x64x2_S128x2x64_0_2_1 : S128x64x2.Transposes [0, 2, 1] S128x2x64
  shapeCasts_S128x64x64x64_S128x4x65536 : S128x64x64x64.ShapeCasts S128x4x65536
  bcast_S128x64_S128x1x64_0_2 : S128x64.BroadcastsInDim S128x1x64 (![0, 2] : Fin 2 → Fin S128x1x64.rank)
  bcast_S128x1x64_S128x4x64_0_1_2 : S128x1x64.BroadcastsInDim S128x4x64 (![0, 1, 2] : Fin 3 → Fin S128x4x64.rank)
  bcast_S_S128x4x64 : S_.BroadcastsInDim S128x4x64 (![] : Fin 0 → Fin S128x4x64.rank)
  shapeCasts_S128x4x64_S128x4x64x1 : S128x4x64.ShapeCasts S128x4x64x1
  bcast_S_S128x4x64x1 : S_.BroadcastsInDim S128x4x64x1 (![] : Fin 0 → Fin S128x4x64x1.rank)
  bcast_S1_S1x1x1x1_3 : S1.BroadcastsInDim S1x1x1x1 (![3] : Fin 1 → Fin S1x1x1x1.rank)
  bcast_S1x1x1x1_S128x4x64x1_0_1_2_3 : S1x1x1x1.BroadcastsInDim S128x4x64x1 (![0, 1, 2, 3] : Fin 4 → Fin S128x4x64x1.rank)
  reducesTo_S128x4x64x1_S128x4x64_d3 : S128x4x64x1.ReducesTo [3] S128x4x64
  bcast_S_S128x64 : S_.BroadcastsInDim S128x64 (![] : Fin 0 → Fin S128x64.rank)
  bcast_S128x64_S128x64x4_0_1 : S128x64.BroadcastsInDim S128x64x4 (![0, 1] : Fin 2 → Fin S128x64x4.rank)
  bcast_S_S128x64x4 : S_.BroadcastsInDim S128x64x4 (![] : Fin 0 → Fin S128x64x4.rank)
  transposes_S128x64x4_S128x4x64_0_2_1 : S128x64x4.Transposes [0, 2, 1] S128x4x64
  inb_S64x2x2048_S64x1x2048_0_0_0 : ∀ a, (![0, 0, 0] : Fin 3 → Nat) a + S64x1x2048.size a ≤ S64x2x2048.size a
  h_S64x1x2048 : 0 < S64x1x2048.numel
  shapeCasts_S64x1x2048_S64x2048 : S64x1x2048.ShapeCasts S64x2048
  inb_S64x2x2048_S64x1x2048_0_1_0 : ∀ a, (![0, 1, 0] : Fin 3 → Nat) a + S64x1x2048.size a ≤ S64x2x2048.size a
  reduces_S64x2048_S64 : S64x2048.Reduces [1] S64
  shapeCasts_S64_S64x1 : S64.ShapeCasts S64x1
  inb_S64x2x64_S64x1x64_0_0_0 : ∀ a, (![0, 0, 0] : Fin 3 → Nat) a + S64x1x64.size a ≤ S64x2x64.size a
  h_S64x1x64 : 0 < S64x1x64.numel
  shapeCasts_S64x1x64_S64x64 : S64x1x64.ShapeCasts S64x64
  inb_S64x2x64_S64x1x64_0_1_0 : ∀ a, (![0, 1, 0] : Fin 3 → Nat) a + S64x1x64.size a ≤ S64x2x64.size a
  reduces_S64x64_S64 : S64x64.Reduces [1] S64
  inb_S64x4x64_S64x1x64_0_0_0 : ∀ a, (![0, 0, 0] : Fin 3 → Nat) a + S64x1x64.size a ≤ S64x4x64.size a
  inb_S64x4x64_S64x1x64_0_1_0 : ∀ a, (![0, 1, 0] : Fin 3 → Nat) a + S64x1x64.size a ≤ S64x4x64.size a
  inb_S64x4x64_S64x1x64_0_2_0 : ∀ a, (![0, 2, 0] : Fin 3 → Nat) a + S64x1x64.size a ≤ S64x4x64.size a
  inb_S64x4x64_S64x1x64_0_3_0 : ∀ a, (![0, 3, 0] : Fin 3 → Nat) a + S64x1x64.size a ≤ S64x4x64.size a
  inb_S64x4_S64x1_0_0 : ∀ a, (![0, 0] : Fin 2 → Nat) a + S64x1.size a ≤ S64x4.size a
  h_S64x1 : 0 < S64x1.numel
  inb_S64x4_S64x1_0_1 : ∀ a, (![0, 1] : Fin 2 → Nat) a + S64x1.size a ≤ S64x4.size a
  inb_S64x4_S64x1_0_2 : ∀ a, (![0, 2] : Fin 2 → Nat) a + S64x1.size a ≤ S64x4.size a
  inb_S64x4_S64x1_0_3 : ∀ a, (![0, 3] : Fin 2 → Nat) a + S64x1.size a ≤ S64x4.size a
  broadcasts_S64x1_S64x64 : S64x1.Broadcasts S64x64
  concatenates_S64x1_S64x1_S64x1_S64x3_d1 : Shape.Concatenates [S64x1, S64x1, S64x1] S64x3 1
  inb_S64x3_S64x3_0_0 : ∀ a, (![0, 0] : Fin 2 → Nat) a + S64x3.size a ≤ S64x3.size a
  h_S64x3 : 0 < S64x3.numel
  slices_S128x3_S128x1_0_0 : S128x3.Slices ![0, 0] S128x1
  shapeCasts_S128x1_S128 : S128x1.ShapeCasts S128
  bcast_S_S128 : S_.BroadcastsInDim S128 (![] : Fin 0 → Fin S128.rank)
  slices_S128x3_S128x1_0_1 : S128x3.Slices ![0, 1] S128x1
  slices_S128x3_S128x1_0_2 : S128x3.Slices ![0, 2] S128x1
  reducesTo_S128_S_d0 : S128.ReducesTo [0] S_
  gather_S128x65536x2_S128x2048x1_S128x2048x2_2_1_0_0_1_2_112_wf : GatherDims.WF S128x65536x2 S128x2048x1 S128x2048x2 [2] [1] [0] [1] [0] 2 ![1, 1, 2]
  gather_S128x65536x2_S128x64x1_S128x64x2_2_1_0_0_1_2_112_wf : GatherDims.WF S128x65536x2 S128x64x1 S128x64x2 [2] [1] [0] [1] [0] 2 ![1, 1, 2]
  gather_S128x4x65536_S128x4x64x1_S128x4x64_n_2_01_01_2_3_111_wf : GatherDims.WF S128x4x65536 S128x4x64x1 S128x4x64 [] [2] [0, 1] [2] [0, 1] 3 ![1, 1, 1]
  gather_S65536x4_S128x64x1_S128x64x4_2_0_n_n_0_2_14_wf : GatherDims.WF S65536x4 S128x64x1 S128x64x4 [2] [0] [] [0] [] 2 ![1, 4]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x2x2048.size a ≤ S128x2x2048.size a
  hwx0_0 : ∀ i : grid0.Coords, EltTy.bits .f32 = 32 ∨ (Rect.block (s := S128x2x2048) S64x2x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x2x64.size a ≤ S128x2x64.size a
  hwx0_1 : ∀ i : grid0.Coords, EltTy.bits .f32 = 32 ∨ (Rect.block (s := S128x2x64) S64x2x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x4x64.size a ≤ S128x4x64.size a
  hwx0_2 : ∀ i : grid0.Coords, EltTy.bits .f32 = 32 ∨ (Rect.block (s := S128x4x64) S64x4x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x4x64.size a ≤ S128x4x64.size a
  hwx0_3 : ∀ i : grid0.Coords, EltTy.bits .f32 = 32 ∨ (Rect.block (s := S128x4x64) S64x4x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S64x4.size a ≤ S128x4.size a
  hwx0_4 : ∀ i : grid0.Coords, EltTy.bits .f32 = 32 ∨ (Rect.block (s := S128x4) S64x4.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S64x3.size a ≤ S128x3.size a
  hwx0_5 : ∀ i : grid0.Coords, EltTy.bits .f32 = 32 ∨ (Rect.block (s := S128x3) S64x3.size (cc0_transform_5 i) (hinb0_5 i)).WholeWords (EltTy.packing .f32)

variable [Facts₀]

def gather_S128x65536x2_S128x2048x1_S128x2048x2_2_1_0_0_1_2_112 : GatherDims S128x65536x2 S128x2048x1 S128x2048x2 where
  offsetDims := [2]
  collapsedSliceDims := [1]
  operandBatchingDims := [0]
  startIndicesBatchingDims := [0]
  startIndexMap := [1]
  indexVectorDim := 2
  sliceSizes := ![1, 1, 2]
  wf := gather_S128x65536x2_S128x2048x1_S128x2048x2_2_1_0_0_1_2_112_wf
def gather_S128x65536x2_S128x64x1_S128x64x2_2_1_0_0_1_2_112 : GatherDims S128x65536x2 S128x64x1 S128x64x2 where
  offsetDims := [2]
  collapsedSliceDims := [1]
  operandBatchingDims := [0]
  startIndicesBatchingDims := [0]
  startIndexMap := [1]
  indexVectorDim := 2
  sliceSizes := ![1, 1, 2]
  wf := gather_S128x65536x2_S128x64x1_S128x64x2_2_1_0_0_1_2_112_wf
def gather_S128x4x65536_S128x4x64x1_S128x4x64_n_2_01_01_2_3_111 : GatherDims S128x4x65536 S128x4x64x1 S128x4x64 where
  offsetDims := []
  collapsedSliceDims := [2]
  operandBatchingDims := [0, 1]
  startIndicesBatchingDims := [0, 1]
  startIndexMap := [2]
  indexVectorDim := 3
  sliceSizes := ![1, 1, 1]
  wf := gather_S128x4x65536_S128x4x64x1_S128x4x64_n_2_01_01_2_3_111_wf
def gather_S65536x4_S128x64x1_S128x64x4_2_0_n_n_0_2_14 : GatherDims S65536x4 S128x64x1 S128x64x4 where
  offsetDims := [2]
  collapsedSliceDims := [0]
  operandBatchingDims := []
  startIndicesBatchingDims := []
  startIndexMap := [0]
  indexVectorDim := 2
  sliceSizes := ![1, 4]
  wf := gather_S65536x4_S128x64x1_S128x64x4_2_0_n_n_0_2_14_wf

abbrev win0_0 : Pipeline.Window sig grid0 :=
  Pipeline.Window.ofSpec (Memref.whole main_v6) S64x2x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S64x2x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S64x4x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S64x4x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S64x4.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v14) S64x3.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S128x32x64x64 : Shape := ⟨4, ![128, 32, 64, 64]⟩
abbrev S128x64x64x64 : Shape := ⟨4, ![128, 64, 64, 64]⟩
abbrev S128x4 : Shape := ⟨2, ![128, 4]⟩
abbrev S128x64 : Shape := ⟨2, ![128, 64]⟩
abbrev S128x2048 : Shape := ⟨2, ![128, 2048]⟩
abbrev S65536x4 : Shape := ⟨2, ![65536, 4]⟩
abbrev S128x2x65536 : Shape := ⟨3, ![128, 2, 65536]⟩
abbrev S128x65536x2 : Shape := ⟨3, ![128, 65536, 2]⟩
abbrev S128x4x65536 : Shape := ⟨3, ![128, 4, 65536]⟩
abbrev S128x65536x4 : Shape := ⟨3, ![128, 65536, 4]⟩
abbrev S128x2048x1 : Shape := ⟨3, ![128, 2048, 1]⟩
abbrev S_ : Shape := ⟨0, ![]⟩
abbrev S1 : Shape := ⟨1, ![1]⟩
abbrev S1x1x1 : Shape := ⟨3, ![1, 1, 1]⟩
abbrev S128x2048x2 : Shape := ⟨3, ![128, 2048, 2]⟩
abbrev S128 : Shape := ⟨1, ![128]⟩
abbrev S128x64x1 : Shape := ⟨3, ![128, 64, 1]⟩
abbrev S128x64x2 : Shape := ⟨3, ![128, 64, 2]⟩
abbrev S128x64x4 : Shape := ⟨3, ![128, 64, 4]⟩
abbrev S128x1x4 : Shape := ⟨3, ![128, 1, 4]⟩
abbrev S128x1x2 : Shape := ⟨3, ![128, 1, 2]⟩

abbrev nBuf : Space → Nat
  | .hbm => 187
  | .vmem => 0
  | .smem => 0
  | _ => 0

abbrev hbmTy0_0 (i : Nat) : BufTy := match i % 128 with
  | 0 => ⟨S128x32x64x64, .f32⟩
  | 1 => ⟨S128x64x64x64, .f32⟩
  | 2 => ⟨S128x4, .f32⟩
  | 3 => ⟨S128x64, .i32⟩
  | 4 => ⟨S128x2048, .i32⟩
  | 5 => ⟨S65536x4, .f32⟩
  | 6 => ⟨S128x2x65536, .f32⟩
  | 7 => ⟨S128x65536x2, .f32⟩
  | 8 => ⟨S128x4x65536, .f32⟩
  | 9 => ⟨S128x65536x4, .f32⟩
  | 10 => ⟨S128x2048x1, .i32⟩
  | 11 => ⟨S_, .i32⟩
  | 12 => ⟨S128x2048x1, .i32⟩
  | 13 => ⟨S128x2048x1, .i1⟩
  | 14 => ⟨S_, .i32⟩
  | 15 => ⟨S128x2048x1, .i32⟩
  | 16 => ⟨S128x2048x1, .i32⟩
  | 17 => ⟨S128x2048x1, .i32⟩
  | 18 => ⟨S1, .i32⟩
  | 19 => ⟨S_, .i32⟩
  | 20 => ⟨S128x2048x1, .i32⟩
  | 21 => ⟨S128x2048x1, .i1⟩
  | 22 => ⟨S1x1x1, .i32⟩
  | 23 => ⟨S128x2048x1, .i32⟩
  | 24 => ⟨S128x2048x1, .i1⟩
  | 25 => ⟨S128x2048x1, .i1⟩
  | 26 => ⟨S_, .i1⟩
  | 27 => ⟨S128x2048, .i1⟩
  | 28 => ⟨S128x2048x2, .f32⟩
  | 29 => ⟨S128x2048x2, .i1⟩
  | 30 => ⟨S_, .f32⟩
  | 31 => ⟨S128x2048x2, .f32⟩
  | 32 => ⟨S128x2048x2, .f32⟩
  | 33 => ⟨S_, .f32⟩
  | 34 => ⟨S128x2048, .f32⟩
  | 35 => ⟨S_, .f32⟩
  | 36 => ⟨S128x2048, .f32⟩
  | 37 => ⟨S128x2048, .f32⟩
  | 38 => ⟨S128x2048x1, .f32⟩
  | 39 => ⟨S128x2048x2, .f32⟩
  | 40 => ⟨S128x2048x2, .f32⟩
  | 41 => ⟨S128x2048x2, .f32⟩
  | 42 => ⟨S_, .f32⟩
  | 43 => ⟨S128x2048, .f32⟩
  | 44 => ⟨S128x2048x1, .f32⟩
  | 45 => ⟨S128x2048x1, .f32⟩
  | 46 => ⟨S128x2048x2, .f32⟩
  | 47 => ⟨S128x2048x2, .f32⟩
  | 48 => ⟨S128x2048x1, .f32⟩
  | 49 => ⟨S128x2048, .f32⟩
  | 50 => ⟨S128x2048, .f32⟩
  | 51 => ⟨S_, .f32⟩
  | 52 => ⟨S128, .f32⟩
  | 53 => ⟨S_, .f32⟩
  | 54 => ⟨S128, .f32⟩
  | 55 => ⟨S128, .f32⟩
  | 56 => ⟨S128x64x1, .i32⟩
  | 57 => ⟨S_, .i32⟩
  | 58 => ⟨S128x64x1, .i32⟩
  | 59 => ⟨S128x64x1, .i1⟩
  | 60 => ⟨S_, .i32⟩
  | 61 => ⟨S128x64x1, .i32⟩
  | 62 => ⟨S128x64x1, .i32⟩
  | 63 => ⟨S128x64x1, .i32⟩
  | 64 => ⟨S1, .i32⟩
  | 65 => ⟨S_, .i32⟩
  | 66 => ⟨S128x64x1, .i32⟩
  | 67 => ⟨S128x64x1, .i1⟩
  | 68 => ⟨S1x1x1, .i32⟩
  | 69 => ⟨S128x64x1, .i32⟩
  | 70 => ⟨S128x64x1, .i1⟩
  | 71 => ⟨S128x64x1, .i1⟩
  | 72 => ⟨S_, .i1⟩
  | 73 => ⟨S128x64, .i1⟩
  | 74 => ⟨S128x64x2, .f32⟩
  | 75 => ⟨S128x64x2, .i1⟩
  | 76 => ⟨S_, .f32⟩
  | 77 => ⟨S128x64x2, .f32⟩
  | 78 => ⟨S128x64x2, .f32⟩
  | 79 => ⟨S_, .f32⟩
  | 80 => ⟨S128x64, .f32⟩
  | 81 => ⟨S_, .f32⟩
  | 82 => ⟨S128x64, .f32⟩
  | 83 => ⟨S128x64, .f32⟩
  | 84 => ⟨S128x64x1, .f32⟩
  | 85 => ⟨S128x64x2, .f32⟩
  | 86 => ⟨S128x64x2, .f32⟩
  | 87 => ⟨S128x64x2, .f32⟩
  | 88 => ⟨S_, .f32⟩
  | 89 => ⟨S128x64, .f32⟩
  | 90 => ⟨S128x64x1, .f32⟩
  | 91 => ⟨S128x64x1, .f32⟩
  | 92 => ⟨S128x64x2, .f32⟩
  | 93 => ⟨S128x64x2, .f32⟩
  | 94 => ⟨S128x64x1, .f32⟩
  | 95 => ⟨S128x64, .f32⟩
  | 96 => ⟨S128x64, .f32⟩
  | 97 => ⟨S_, .f32⟩
  | 98 => ⟨S128, .f32⟩
  | 99 => ⟨S_, .f32⟩
  | 100 => ⟨S128, .f32⟩
  | 101 => ⟨S128, .f32⟩
  | 102 => ⟨S128x64x1, .i32⟩
  | 103 => ⟨S_, .i32⟩
  | 104 => ⟨S128x64x1, .i32⟩
  | 105 => ⟨S128x64x1, .i1⟩
  | 106 => ⟨S_, .i32⟩
  | 107 => ⟨S128x64x1, .i32⟩
  | 108 => ⟨S128x64x1, .i32⟩
  | 109 => ⟨S128x64x1, .i32⟩
  | 110 => ⟨S1, .i32⟩
  | 111 => ⟨S_, .i32⟩
  | 112 => ⟨S128x64x1, .i32⟩
  | 113 => ⟨S128x64x1, .i1⟩
  | 114 => ⟨S1x1x1, .i32⟩
  | 115 => ⟨S128x64x1, .i32⟩
  | 116 => ⟨S128x64x1, .i1⟩
  | 117 => ⟨S128x64x1, .i1⟩
  | 118 => ⟨S_, .i1⟩
  | 119 => ⟨S128x64, .i1⟩
  | 120 => ⟨S128x64x4, .f32⟩
  | 121 => ⟨S128x64x4, .i1⟩
  | 122 => ⟨S_, .f32⟩
  | 123 => ⟨S128x64x4, .f32⟩
  | 124 => ⟨S128x64x4, .f32⟩
  | 125 => ⟨S_, .i32⟩
  | 126 => ⟨S128x64, .i32⟩
  | 127 => ⟨S128x64, .i1⟩
  | _ => ⟨S128x32x64x64, .f32⟩

abbrev hbmTy0_1 (i : Nat) : BufTy := match i % 128 with
  | 0 => ⟨S_, .i32⟩
  | 1 => ⟨S128x64, .i32⟩
  | 2 => ⟨S128x64, .i32⟩
  | 3 => ⟨S128x64, .i32⟩
  | 4 => ⟨S128x64x1, .i32⟩
  | 5 => ⟨S128x64x4, .f32⟩
  | 6 => ⟨S128x1x4, .f32⟩
  | 7 => ⟨S128x1x2, .f32⟩
  | 8 => ⟨S128x64x2, .f32⟩
  | 9 => ⟨S128x64x2, .f32⟩
  | 10 => ⟨S128x64x2, .f32⟩
  | 11 => ⟨S128x64x2, .f32⟩
  | 12 => ⟨S128x64x2, .f32⟩
  | 13 => ⟨S128x1x2, .f32⟩
  | 14 => ⟨S128x64x2, .f32⟩
  | 15 => ⟨S128x64x2, .f32⟩
  | 16 => ⟨S128x64x2, .f32⟩
  | 17 => ⟨S128x64x2, .f32⟩
  | 18 => ⟨S128x64x4, .f32⟩
  | 19 => ⟨S128x64x4, .f32⟩
  | 20 => ⟨S128x64x4, .f32⟩
  | 21 => ⟨S_, .f32⟩
  | 22 => ⟨S128x64x4, .f32⟩
  | 23 => ⟨S128x64x4, .i1⟩
  | 24 => ⟨S_, .f32⟩
  | 25 => ⟨S128x64x4, .f32⟩
  | 26 => ⟨S128x64x4, .f32⟩
  | 27 => ⟨S128x64x4, .f32⟩
  | 28 => ⟨S_, .f32⟩
  | 29 => ⟨S128x64x4, .f32⟩
  | 30 => ⟨S128x64x4, .f32⟩
  | 31 => ⟨S128x64x4, .f32⟩
  | 32 => ⟨S_, .f32⟩
  | 33 => ⟨S128, .f32⟩
  | 34 => ⟨S_, .f32⟩
  | 35 => ⟨S128, .f32⟩
  | 36 => ⟨S128, .f32⟩
  | 37 => ⟨S_, .f32⟩
  | 38 => ⟨S_, .f32⟩
  | 39 => ⟨S_, .f32⟩
  | 40 => ⟨S_, .f32⟩
  | 41 => ⟨S_, .f32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | 48 => ⟨S_, .f32⟩
  | 49 => ⟨S_, .f32⟩
  | 50 => ⟨S_, .f32⟩
  | 51 => ⟨S_, .f32⟩
  | 52 => ⟨S_, .f32⟩
  | 53 => ⟨S_, .f32⟩
  | 54 => ⟨S_, .f32⟩
  | 55 => ⟨S_, .f32⟩
  | 56 => ⟨S_, .f32⟩
  | 57 => ⟨S_, .f32⟩
  | 58 => ⟨S_, .f32⟩
  | _ => ⟨S128x32x64x64, .f32⟩

abbrev hbmTy (i : Nat) : BufTy := match i / 128 with
  | 0 => hbmTy0_0 i
  | 1 => hbmTy0_1 i
  | _ => ⟨S128x32x64x64, .f32⟩

abbrev bufTy : (tb : Table) → Fin (tcTables nBuf tb) → BufTy
  | .hbm, ⟨i, _⟩ => hbmTy i
  | _, _ => ⟨S128x32x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_c_1 : Ref sig .tc := ⟨.hbm, 18, rfl⟩
abbrev main_call0_c_2 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_c_3 : Ref sig .tc := ⟨.hbm, 26, rfl⟩
abbrev main_call0_v11 : Ref sig .tc := ⟨.hbm, 27, rfl⟩
abbrev main_call0_v12 : Ref sig .tc := ⟨.hbm, 28, rfl⟩
abbrev main_call0_v13 : Ref sig .tc := ⟨.hbm, 29, rfl⟩
abbrev main_call0_cst : Ref sig .tc := ⟨.hbm, 30, rfl⟩
abbrev main_call0_v14 : Ref sig .tc := ⟨.hbm, 31, rfl⟩
abbrev main_v5 : Ref sig .tc := ⟨.hbm, 32, rfl⟩
abbrev main_call1_cst : Ref sig .tc := ⟨.hbm, 33, rfl⟩
abbrev main_call1_v0 : Ref sig .tc := ⟨.hbm, 34, rfl⟩
abbrev main_call1_cst_0 : Ref sig .tc := ⟨.hbm, 35, rfl⟩
abbrev main_call1_v1 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_v6 : Ref sig .tc := ⟨.hbm, 41, rfl⟩
abbrev main_call1_cst_1 : Ref sig .tc := ⟨.hbm, 42, rfl⟩
abbrev main_call1_v7 : Ref sig .tc := ⟨.hbm, 43, rfl⟩
abbrev main_call1_v8 : Ref sig .tc := ⟨.hbm, 44, rfl⟩
abbrev main_call1_v9 : Ref sig .tc := ⟨.hbm, 45, rfl⟩
abbrev main_call1_v10 : Ref sig .tc := ⟨.hbm, 46, rfl⟩
abbrev main_v6 : Ref sig .tc := ⟨.hbm, 47, rfl⟩
abbrev main_v7 : Ref sig .tc := ⟨.hbm, 48, rfl⟩
abbrev main_v8 : Ref sig .tc := ⟨.hbm, 49, rfl⟩
abbrev main_v9 : Ref sig .tc := ⟨.hbm, 50, rfl⟩
abbrev main_cst : Ref sig .tc := ⟨.hbm, 51, rfl⟩
abbrev main_v10 : Ref sig .tc := ⟨.hbm, 52, rfl⟩
abbrev main_cst_0 : Ref sig .tc := ⟨.hbm, 53, rfl⟩
abbrev main_v11 : Ref sig .tc := ⟨.hbm, 54, rfl⟩
abbrev main_v12 : Ref sig .tc := ⟨.hbm, 55, rfl⟩
abbrev main_v13 : Ref sig .tc := ⟨.hbm, 56, rfl⟩
abbrev main_call2_c : Ref sig .tc := ⟨.hbm, 57, rfl⟩
abbrev main_call2_v0 : Ref sig .tc := ⟨.hbm, 58, rfl⟩
abbrev main_call2_v1 : Ref sig .tc := ⟨.hbm, 59, rfl⟩
abbrev main_call2_c_0 : Ref sig .tc := ⟨.hbm, 60, rfl⟩
abbrev main_call2_v2 : Ref sig .tc := ⟨.hbm, 61, rfl⟩
abbrev main_call2_v3 : Ref sig .tc := ⟨.hbm, 62, rfl⟩
abbrev main_call2_v4 : Ref sig .tc := ⟨.hbm, 63, rfl⟩
abbrev main_call2_c_1 : Ref sig .tc := ⟨.hbm, 64, rfl⟩
abbrev main_call2_c_2 : Ref sig .tc := ⟨.hbm, 65, rfl⟩
abbrev main_call2_v5 : Ref sig .tc := ⟨.hbm, 66, rfl⟩
abbrev main_call2_v6 : Ref sig .tc := ⟨.hbm, 67, rfl⟩
abbrev main_call2_v7 : Ref sig .tc := ⟨.hbm, 68, rfl⟩
abbrev main_call2_v8 : Ref sig .tc := ⟨.hbm, 69, rfl⟩
abbrev main_call2_v9 : Ref sig .tc := ⟨.hbm, 70, rfl⟩
abbrev main_call2_v10 : Ref sig .tc := ⟨.hbm, 71, rfl⟩
abbrev main_call2_c_3 : Ref sig .tc := ⟨.hbm, 72, rfl⟩
abbrev main_call2_v11 : Ref sig .tc := ⟨.hbm, 73, rfl⟩
abbrev main_call2_v12 : Ref sig .tc := ⟨.hbm, 74, rfl⟩
abbrev main_call2_v13 : Ref sig .tc := ⟨.hbm, 75, rfl⟩
abbrev main_call2_cst : Ref sig .tc := ⟨.hbm, 76, rfl⟩
abbrev main_call2_v14 : Ref sig .tc := ⟨.hbm, 77, rfl⟩
abbrev main_v14 : Ref sig .tc := ⟨.hbm, 78, rfl⟩
abbrev main_call3_cst : Ref sig .tc := ⟨.hbm, 79, rfl⟩
abbrev main_call3_v0 : Ref sig .tc := ⟨.hbm, 80, rfl⟩
abbrev main_call3_cst_0 : Ref sig .tc := ⟨.hbm, 81, rfl⟩
abbrev main_call3_v1 : Ref sig .tc := ⟨.hbm, 82, rfl⟩
abbrev main_call3_v2 : Ref sig .tc := ⟨.hbm, 83, rfl⟩
abbrev main_call3_v3 : Ref sig .tc := ⟨.hbm, 84, rfl⟩
abbrev main_call3_v4 : Ref sig .tc := ⟨.hbm, 85, rfl⟩
abbrev main_call3_v5 : Ref sig .tc := ⟨.hbm, 86, rfl⟩
abbrev main_call3_v6 : Ref sig .tc := ⟨.hbm, 87, rfl⟩
abbrev main_call3_cst_1 : Ref sig .tc := ⟨.hbm, 88, rfl⟩
abbrev main_call3_v7 : Ref sig .tc := ⟨.hbm, 89, rfl⟩
abbrev main_call3_v8 : Ref sig .tc := ⟨.hbm, 90, rfl⟩
abbrev main_call3_v9 : Ref sig .tc := ⟨.hbm, 91, rfl⟩
abbrev main_call3_v10 : Ref sig .tc := ⟨.hbm, 92, rfl⟩
abbrev main_v15 : Ref sig .tc := ⟨.hbm, 93, rfl⟩
abbrev main_v16 : Ref sig .tc := ⟨.hbm, 94, rfl⟩
abbrev main_v17 : Ref sig .tc := ⟨.hbm, 95, rfl⟩
abbrev main_v18 : Ref sig .tc := ⟨.hbm, 96, rfl⟩
abbrev main_cst_1 : Ref sig .tc := ⟨.hbm, 97, rfl⟩
abbrev main_v19 : Ref sig .tc := ⟨.hbm, 98, rfl⟩
abbrev main_cst_2 : Ref sig .tc := ⟨.hbm, 99, rfl⟩
abbrev main_v20 : Ref sig .tc := ⟨.hbm, 100, rfl⟩
abbrev main_v21 : Ref sig .tc := ⟨.hbm, 101, rfl⟩
abbrev main_v22 : Ref sig .tc := ⟨.hbm, 102, rfl⟩
abbrev main_call4_c : Ref sig .tc := ⟨.hbm, 103, rfl⟩
abbrev main_call4_v0 : Ref sig .tc := ⟨.hbm, 104, rfl⟩
abbrev main_call4_v1 : Ref sig .tc := ⟨.hbm, 105, rfl⟩
abbrev main_call4_c_0 : Ref sig .tc := ⟨.hbm, 106, rfl⟩
abbrev main_call4_v2 : Ref sig .tc := ⟨.hbm, 107, rfl⟩
abbrev main_call4_v3 : Ref sig .tc := ⟨.hbm, 108, rfl⟩
abbrev main_call4_v4 : Ref sig .tc := ⟨.hbm, 109, rfl⟩
abbrev main_call4_c_1 : Ref sig .tc := ⟨.hbm, 110, rfl⟩
abbrev main_call4_c_2 : Ref sig .tc := ⟨.hbm, 111, rfl⟩
abbrev main_call4_v5 : Ref sig .tc := ⟨.hbm, 112, rfl⟩
abbrev main_call4_v6 : Ref sig .tc := ⟨.hbm, 113, rfl⟩
abbrev main_call4_v7 : Ref sig .tc := ⟨.hbm, 114, rfl⟩
abbrev main_call4_v8 : Ref sig .tc := ⟨.hbm, 115, rfl⟩
abbrev main_call4_v9 : Ref sig .tc := ⟨.hbm, 116, rfl⟩
abbrev main_call4_v10 : Ref sig .tc := ⟨.hbm, 117, rfl⟩
abbrev main_call4_c_3 : Ref sig .tc := ⟨.hbm, 118, rfl⟩
abbrev main_call4_v11 : Ref sig .tc := ⟨.hbm, 119, rfl⟩
abbrev main_call4_v12 : Ref sig .tc := ⟨.hbm, 120, rfl⟩
abbrev main_call4_v13 : Ref sig .tc := ⟨.hbm, 121, rfl⟩
abbrev main_call4_cst : Ref sig .tc := ⟨.hbm, 122, rfl⟩
abbrev main_call4_v14 : Ref sig .tc := ⟨.hbm, 123, rfl⟩
abbrev main_v23 : Ref sig .tc := ⟨.hbm, 124, rfl⟩
abbrev main_c : Ref sig .tc := ⟨.hbm, 125, rfl⟩
abbrev main_v24 : Ref sig .tc := ⟨.hbm, 126, rfl⟩
abbrev main_v25 : Ref sig .tc := ⟨.hbm, 127, rfl⟩
abbrev main_c_3 : Ref sig .tc := ⟨.hbm, 128, rfl⟩
abbrev main_v26 : Ref sig .tc := ⟨.hbm, 129, rfl⟩
abbrev main_v27 : Ref sig .tc := ⟨.hbm, 130, rfl⟩
abbrev main_v28 : Ref sig .tc := ⟨.hbm, 131, rfl⟩
abbrev main_v29 : Ref sig .tc := ⟨.hbm, 132, rfl⟩
abbrev main_v30 : Ref sig .tc := ⟨.hbm, 133, rfl⟩
abbrev main_v31 : Ref sig .tc := ⟨.hbm, 134, rfl⟩
abbrev main_v32 : Ref sig .tc := ⟨.hbm, 135, rfl⟩
abbrev main_v33 : Ref sig .tc := ⟨.hbm, 136, rfl⟩
abbrev main_v34 : Ref sig .tc := ⟨.hbm, 137, rfl⟩
abbrev main_v35 : Ref sig .tc := ⟨.hbm, 138, rfl⟩
abbrev main_v36 : Ref sig .tc := ⟨.hbm, 139, rfl⟩
abbrev main_v37 : Ref sig .tc := ⟨.hbm, 140, rfl⟩
abbrev main_v38 : Ref sig .tc := ⟨.hbm, 141, rfl⟩
abbrev main_v39 : Ref sig .tc := ⟨.hbm, 142, rfl⟩
abbrev main_v40 : Ref sig .tc := ⟨.hbm, 143, rfl⟩
abbrev main_v41 : Ref sig .tc := ⟨.hbm, 144, rfl⟩
abbrev main_v42 : Ref sig .tc := ⟨.hbm, 145, rfl⟩
abbrev main_v43 : Ref sig .tc := ⟨.hbm, 146, rfl⟩
abbrev main_v44 : Ref sig .tc := ⟨.hbm, 147, rfl⟩
abbrev main_v45 : Ref sig .tc := ⟨.hbm, 148, rfl⟩
abbrev main_cst_4 : Ref sig .tc := ⟨.hbm, 149, rfl⟩
abbrev main_v46 : Ref sig .tc := ⟨.hbm, 150, rfl⟩
abbrev main_v47 : Ref sig .tc := ⟨.hbm, 151, rfl⟩
abbrev main_cst_5 : Ref sig .tc := ⟨.hbm, 152, rfl⟩
abbrev main_v48 : Ref sig .tc := ⟨.hbm, 153, rfl⟩
abbrev main_v49 : Ref sig .tc := ⟨.hbm, 154, rfl⟩
abbrev main_v50 : Ref sig .tc := ⟨.hbm, 155, rfl⟩
abbrev main_cst_6 : Ref sig .tc := ⟨.hbm, 156, rfl⟩
abbrev main_v51 : Ref sig .tc := ⟨.hbm, 157, rfl⟩
abbrev main_v52 : Ref sig .tc := ⟨.hbm, 158, rfl⟩
abbrev main_v53 : Ref sig .tc := ⟨.hbm, 159, rfl⟩
abbrev main_cst_7 : Ref sig .tc := ⟨.hbm, 160, rfl⟩
abbrev main_v54 : Ref sig .tc := ⟨.hbm, 161, rfl⟩
abbrev main_cst_8 : Ref sig .tc := ⟨.hbm, 162, rfl⟩
abbrev main_v55 : Ref sig .tc := ⟨.hbm, 163, rfl⟩
abbrev main_v56 : Ref sig .tc := ⟨.hbm, 164, rfl⟩
abbrev main_cst_9 : Ref sig .tc := ⟨.hbm, 165, rfl⟩
abbrev main_v57 : Ref sig .tc := ⟨.hbm, 166, rfl⟩
abbrev main_cst_10 : Ref sig .tc := ⟨.hbm, 167, rfl⟩
abbrev main_v58 : Ref sig .tc := ⟨.hbm, 168, rfl⟩
abbrev main_cst_11 : Ref sig .tc := ⟨.hbm, 169, rfl⟩
abbrev main_v59 : Ref sig .tc := ⟨.hbm, 170, rfl⟩
abbrev main_cst_12 : Ref sig .tc := ⟨.hbm, 171, rfl⟩
abbrev main_v60 : Ref sig .tc := ⟨.hbm, 172, rfl⟩
abbrev main_cst_13 : Ref sig .tc := ⟨.hbm, 173, rfl⟩
abbrev main_v61 : Ref sig .tc := ⟨.hbm, 174, rfl⟩
abbrev main_cst_14 : Ref sig .tc := ⟨.hbm, 175, rfl⟩
abbrev main_v62 : Ref sig .tc := ⟨.hbm, 176, rfl⟩
abbrev main_cst_15 : Ref sig .tc := ⟨.hbm, 177, rfl⟩
abbrev main_v63 : Ref sig .tc := ⟨.hbm, 178, rfl⟩
abbrev main_cst_16 : Ref sig .tc := ⟨.hbm, 179, rfl⟩
abbrev main_v64 : Ref sig .tc := ⟨.hbm, 180, rfl⟩
abbrev main_v65 : Ref sig .tc := ⟨.hbm, 181, rfl⟩
abbrev main_cst_17 : Ref sig .tc := ⟨.hbm, 182, rfl⟩
abbrev main_v66 : Ref sig .tc := ⟨.hbm, 183, rfl⟩
abbrev main_cst_18 : Ref sig .tc := ⟨.hbm, 184, rfl⟩
abbrev main_v67 : Ref sig .tc := ⟨.hbm, 185, rfl⟩
abbrev main_v68 : Ref sig .tc := ⟨.hbm, 186, rfl⟩

abbrev nD : Nat := 1
abbrev τ : Topo := Topo.v7x

variable {F : FTy → Type} [FloatOps F]

class Facts₀ : Prop where
  shapeCasts_S128x32x64x64_S128x2x65536 : S128x32x64x64.ShapeCasts S128x2x65536
  transposes_S128x2x65536_S128x65536x2_0_2_1 : S128x2x65536.Transposes [0, 2, 1] S128x65536x2
  shapeCasts_S128x64x64x64_S128x4x65536 : S128x64x64x64.ShapeCasts S128x4x65536
  transposes_S128x4x65536_S128x65536x4_0_2_1 : S128x4x65536.Transposes [0, 2, 1] S128x65536x4
  bcast_S128x2048_S128x2048x1_0_1 : S128x2048.BroadcastsInDim S128x2048x1 (![0, 1] : Fin 2 → Fin S128x2048x1.rank)
  bcast_S_S128x2048x1 : S_.BroadcastsInDim S128x2048x1 (![] : Fin 0 → Fin S128x2048x1.rank)
  bcast_S1_S1x1x1_2 : S1.BroadcastsInDim S1x1x1 (![2] : Fin 1 → Fin S1x1x1.rank)
  bcast_S1x1x1_S128x2048x1_0_1_2 : S1x1x1.BroadcastsInDim S128x2048x1 (![0, 1, 2] : Fin 3 → Fin S128x2048x1.rank)
  reducesTo_S128x2048x1_S128x2048_d2 : S128x2048x1.ReducesTo [2] S128x2048
  h_S_ : 0 < S_.numel
  bcast_S128x2048_S128x2048x2_0_1 : S128x2048.BroadcastsInDim S128x2048x2 (![0, 1] : Fin 2 → Fin S128x2048x2.rank)
  bcast_S_S128x2048x2 : S_.BroadcastsInDim S128x2048x2 (![] : Fin 0 → Fin S128x2048x2.rank)
  reducesTo_S128x2048x2_S128x2048_d2 : S128x2048x2.ReducesTo [2] S128x2048
  bcast_S_S128x2048 : S_.BroadcastsInDim S128x2048 (![] : Fin 0 → Fin S128x2048.rank)
  bcast_S128x2048x1_S128x2048x2_0_1_2 : S128x2048x1.BroadcastsInDim S128x2048x2 (![0, 1, 2] : Fin 3 → Fin S128x2048x2.rank)
  slices_S128x2048x2_S128x2048x1_0_0_0 : S128x2048x2.Slices ![0, 0, 0] S128x2048x1
  shapeCasts_S128x2048x1_S128x2048 : S128x2048x1.ShapeCasts S128x2048
  reducesTo_S128x2048_S128_d1 : S128x2048.ReducesTo [1] S128
  bcast_S_S128 : S_.BroadcastsInDim S128 (![] : Fin 0 → Fin S128.rank)
  bcast_S128x64_S128x64x1_0_1 : S128x64.BroadcastsInDim S128x64x1 (![0, 1] : Fin 2 → Fin S128x64x1.rank)
  bcast_S_S128x64x1 : S_.BroadcastsInDim S128x64x1 (![] : Fin 0 → Fin S128x64x1.rank)
  bcast_S1x1x1_S128x64x1_0_1_2 : S1x1x1.BroadcastsInDim S128x64x1 (![0, 1, 2] : Fin 3 → Fin S128x64x1.rank)
  reducesTo_S128x64x1_S128x64_d2 : S128x64x1.ReducesTo [2] S128x64
  bcast_S128x64_S128x64x2_0_1 : S128x64.BroadcastsInDim S128x64x2 (![0, 1] : Fin 2 → Fin S128x64x2.rank)
  bcast_S_S128x64x2 : S_.BroadcastsInDim S128x64x2 (![] : Fin 0 → Fin S128x64x2.rank)
  reducesTo_S128x64x2_S128x64_d2 : S128x64x2.ReducesTo [2] S128x64
  bcast_S_S128x64 : S_.BroadcastsInDim S128x64 (![] : Fin 0 → Fin S128x64.rank)
  bcast_S128x64x1_S128x64x2_0_1_2 : S128x64x1.BroadcastsInDim S128x64x2 (![0, 1, 2] : Fin 3 → Fin S128x64x2.rank)
  slices_S128x64x2_S128x64x1_0_0_1 : S128x64x2.Slices ![0, 0, 1] S128x64x1
  shapeCasts_S128x64x1_S128x64 : S128x64x1.ShapeCasts S128x64
  reducesTo_S128x64_S128_d1 : S128x64.ReducesTo [1] S128
  bcast_S128x64_S128x64x4_0_1 : S128x64.BroadcastsInDim S128x64x4 (![0, 1] : Fin 2 → Fin S128x64x4.rank)
  bcast_S_S128x64x4 : S_.BroadcastsInDim S128x64x4 (![] : Fin 0 → Fin S128x64x4.rank)
  bcast_S128x4_S128x1x4_0_2 : S128x4.BroadcastsInDim S128x1x4 (![0, 2] : Fin 2 → Fin S128x1x4.rank)
  slices_S128x1x4_S128x1x2_0_0_0 : S128x1x4.Slices ![0, 0, 0] S128x1x2
  slices_S128x64x4_S128x64x2_0_0_0 : S128x64x4.Slices ![0, 0, 0] S128x64x2
  bcast_S128x1x2_S128x64x2_0_1_2 : S128x1x2.BroadcastsInDim S128x64x2 (![0, 1, 2] : Fin 3 → Fin S128x64x2.rank)
  slices_S128x64x4_S128x64x2_0_0_2 : S128x64x4.Slices ![0, 0, 2] S128x64x2
  slices_S128x1x4_S128x1x2_0_0_2 : S128x1x4.Slices ![0, 0, 2] S128x1x2
  concatenates_S128x64x2_S128x64x2_S128x64x4_d2 : Shape.Concatenates [S128x64x2, S128x64x2] S128x64x4 2
  reducesTo_S128x64x4_S128_d1_2 : S128x64x4.ReducesTo [1, 2] S128
  reducesTo_S128_S_d0 : S128.ReducesTo [0] S_
  gather_S128x65536x2_S128x2048x1_S128x2048x2_2_1_0_0_1_2_112_wf : GatherDims.WF S128x65536x2 S128x2048x1 S128x2048x2 [2] [1] [0] [1] [0] 2 ![1, 1, 2]
  gather_S128x65536x2_S128x64x1_S128x64x2_2_1_0_0_1_2_112_wf : GatherDims.WF S128x65536x2 S128x64x1 S128x64x2 [2] [1] [0] [1] [0] 2 ![1, 1, 2]
  gather_S128x65536x4_S128x64x1_S128x64x4_2_1_0_0_1_2_114_wf : GatherDims.WF S128x65536x4 S128x64x1 S128x64x4 [2] [1] [0] [1] [0] 2 ![1, 1, 4]
  gather_S65536x4_S128x64x1_S128x64x4_2_0_n_n_0_2_14_wf : GatherDims.WF S65536x4 S128x64x1 S128x64x4 [2] [0] [] [0] [] 2 ![1, 4]

variable [Facts₀]

def gather_S128x65536x2_S128x2048x1_S128x2048x2_2_1_0_0_1_2_112 : GatherDims S128x65536x2 S128x2048x1 S128x2048x2 where
  offsetDims := [2]
  collapsedSliceDims := [1]
  operandBatchingDims := [0]
  startIndicesBatchingDims := [0]
  startIndexMap := [1]
  indexVectorDim := 2
  sliceSizes := ![1, 1, 2]
  wf := gather_S128x65536x2_S128x2048x1_S128x2048x2_2_1_0_0_1_2_112_wf
def gather_S128x65536x2_S128x64x1_S128x64x2_2_1_0_0_1_2_112 : GatherDims S128x65536x2 S128x64x1 S128x64x2 where
  offsetDims := [2]
  collapsedSliceDims := [1]
  operandBatchingDims := [0]
  startIndicesBatchingDims := [0]
  startIndexMap := [1]
  indexVectorDim := 2
  sliceSizes := ![1, 1, 2]
  wf := gather_S128x65536x2_S128x64x1_S128x64x2_2_1_0_0_1_2_112_wf
def gather_S128x65536x4_S128x64x1_S128x64x4_2_1_0_0_1_2_114 : GatherDims S128x65536x4 S128x64x1 S128x64x4 where
  offsetDims := [2]
  collapsedSliceDims := [1]
  operandBatchingDims := [0]
  startIndicesBatchingDims := [0]
  startIndexMap := [1]
  indexVectorDim := 2
  sliceSizes := ![1, 1, 4]
  wf := gather_S128x65536x4_S128x64x1_S128x64x4_2_1_0_0_1_2_114_wf
def gather_S65536x4_S128x64x1_S128x64x4_2_0_n_n_0_2_14 : GatherDims S65536x4 S128x64x1 S128x64x4 where
  offsetDims := [2]
  collapsedSliceDims := [0]
  operandBatchingDims := []
  startIndicesBatchingDims := []
  startIndexMap := [0]
  indexVectorDim := 2
  sliceSizes := ![1, 4]
  wf := gather_S65536x4_S128x64x1_S128x64x4_2_0_n_n_0_2_14_wf

class Facts : Prop extends Facts₀ where

variable [Facts]
-- ==== Proof.Spec.lean ====
/-
  The loss this certificate is about, as plain functions of the argument arrays over the extended reals.

  A sample b has 2048 negative and 64 positive anchor indices into 65536 anchors. An index below zero counts from
  the end (65536 is added); an index that is then outside [0, 65535] reads the fill value, a NaN pattern, which at the
  ideal instance is the bottom element. For a negative anchor the loss term is minus the log-probability of class 0
  under the softmax of its two class logits; for a positive anchor minus that of class 1, plus the smooth-L1 distance
  between its four predicted box offsets and the offsets of the sample's ground-truth box from the anchor's box
  (centre differences over the anchor's size, logs of the size ratios). Each kind is averaged over the sample's anchors
  (and the four coordinates) and then over the 128 samples.
-/
import Idealize.ShloMosaic.PureOps.Ideal
import Idealize.ShloMosaic.Lib.ValueIdx

noncomputable section

namespace Cert.TrackLoss

open Idealize.ShloMosaic Idealize.ShloMosaic.ValueIdx

/-! ## Scalars -/

/-- The log-probability, under the softmax of the pair of logits (a, b), of the class whose logit is t: the logit
    shifted by the pair's maximum, minus the log of the sum of the two shifted exponentials. -/
def logProb (t a b : EReal) : EReal :=
  (t - max a b) - Ideal.log (Ideal.exp (a - max a b) + Ideal.exp (b - max a b))

/-- The absolute value as the operations compute it. -/
abbrev absE (d : EReal) : EReal := FloatOps.absf (F := Ideal) (φ := .f32) d

/-- Smooth L1: half the square where the absolute value is below one, the absolute value less one half elsewhere. -/
def smoothL1 (d : EReal) : EReal :=
  Scalar.select (FloatOps.cmpf (F := Ideal) (φ := .f32) .olt (absE d) (Ideal.ofBits .f32 0x3F800000#32))
    (Ideal.ofBits .f32 0x3F000000#32 * d * d) (absE d - Ideal.ofBits .f32 0x3F000000#32)

/-- A centre offset: the ground truth's centre coordinate less the anchor's, over the anchor's size. -/
def tgtCentre (g a s : EReal) : EReal := Ideal.div (g - a) s

/-- A size offset: the log of the ground truth's size over the anchor's. -/
def tgtSize (g s : EReal) : EReal := Ideal.log (Ideal.div g s)

/-- The smooth-L1 distance of the four predicted offsets l from the offsets of the ground-truth box g (centre x,
    centre y, width, height) from the anchor box a, summed over the four coordinates from the left. -/
def boxTerm (l g a : Fin 4 → EReal) : EReal :=
  smoothL1 (l 0 - tgtCentre (g 0) (a 0) (a 2)) + smoothL1 (l 1 - tgtCentre (g 1) (a 1) (a 3))
    + smoothL1 (l 2 - tgtSize (g 2) (a 2)) + smoothL1 (l 3 - tgtSize (g 3) (a 3))

/-! ## Anchor indices -/

/-- An index below zero counts from the end: 65536 is added to it. -/
def wrapIdx (v : BitVec 32) : BitVec 32 := Scalar.select (IntOp.cmpi .slt v 0#32) (IntOp.addi v 65536#32) v

/-- Whether the wrapped index lies in [0, 65535]. -/
def inRange (v : BitVec 32) : BitVec 1 :=
  IntOp.andi (IntOp.cmpi .sge (wrapIdx v) 0#32) (IntOp.cmpi .sle (wrapIdx v) 65535#32)

/-- The row a gather reads at the index: the wrapped index read signed and clamped into [0, 65535]. -/
def rowOf (v : BitVec 32) : Fin 65536 := ⟨min (wrapIdx v).toInt.toNat (65536 - 1), by omega⟩

/-- The fill value of an out-of-range read: a NaN pattern. -/
abbrev fillVal : EReal := Ideal.ofBits .f32 0x7FC00000#32

/-- A gathered value where the index is in range, the fill value elsewhere. -/
def masked (v : BitVec 32) (x : EReal) : EReal := Scalar.select (IntOp.andi 1#1 (inRange v)) x fillVal

/-! ## The gathered arrays -/

section Arrays

variable (cls : (⟨3, ![128, 65536, 2]⟩ : Shape).Idx → EReal) (locv : (⟨3, ![128, 4, 65536]⟩ : Shape).Idx → EReal)
  (gts : (⟨2, ![128, 4]⟩ : Shape).Idx → EReal) (pos : (⟨2, ![128, 64]⟩ : Shape).Idx → BitVec 32)
  (neg : (⟨2, ![128, 2048]⟩ : Shape).Idx → BitVec 32) (anch : (⟨2, ![65536, 4]⟩ : Shape).Idx → EReal)

/-- Class logit c of sample b's n-th negative anchor. -/
def negLogit (b : Fin 128) (n : Fin 2048) (c : Fin 2) : EReal :=
  masked (neg (ix2 b n)) (cls (ix3 b (rowOf (neg (ix2 b n))) c))

/-- Class logit c of sample b's p-th positive anchor. -/
def posLogit (b : Fin 128) (p : Fin 64) (c : Fin 2) : EReal :=
  masked (pos (ix2 b p)) (cls (ix3 b (rowOf (pos (ix2 b p))) c))

/-- Predicted box offset k of sample b's p-th positive anchor. -/
def posLoc (b : Fin 128) (k : Fin 4) (p : Fin 64) : EReal :=
  masked (pos (ix2 b p)) (locv (ix3 b k (rowOf (pos (ix2 b p)))))

/-- Coordinate k of the box of sample b's p-th positive anchor, read at the clamped row whatever the index. -/
def anchBox (b : Fin 128) (p : Fin 64) (k : Fin 4) : EReal := anch (ix2 (rowOf (pos (ix2 b p))) k)

/-- The same with the fill value where the index is out of range. -/
def anchBoxMasked (b : Fin 128) (p : Fin 64) (k : Fin 4) : EReal := masked (pos (ix2 b p)) (anchBox pos anch b p k)

/-- The n-th negative anchor's term of sample b. -/
def negTerm (b : Fin 128) (n : Fin 2048) : EReal :=
  -(logProb (negLogit cls neg b n 0) (negLogit cls neg b n 0) (negLogit cls neg b n 1))

/-- The p-th positive anchor's classification term of sample b. -/
def posTerm (b : Fin 128) (p : Fin 64) : EReal :=
  -(logProb (posLogit cls pos b p 1) (posLogit cls pos b p 0) (posLogit cls pos b p 1))

/-- The p-th positive anchor's box term of sample b. -/
def locTerm (b : Fin 128) (p : Fin 64) : EReal :=
  boxTerm (fun k => posLoc locv pos b k p) (fun k => gts (ix2 b k)) (fun k => anchBox pos anch b p k)

/-- The same with the anchor's box read through the range mask. -/
def locTermMasked (b : Fin 128) (p : Fin 64) : EReal :=
  boxTerm (fun k => posLoc locv pos b k p) (fun k => gts (ix2 b k)) (fun k => anchBoxMasked pos anch b p k)

/-- Sample b's three sums. -/
def negRow (b : Fin 128) : EReal := ∑ n : Fin 2048, negTerm cls neg b n
def posRow (b : Fin 128) : EReal := ∑ p : Fin 64, posTerm cls pos b p
def locRow (b : Fin 128) : EReal := ∑ p : Fin 64, locTerm locv gts pos anch b p

end Arrays

end Cert.TrackLoss

end
-- ==== Proof.KernelBody.lean ====
/-
  What the kernel body leaves in its output block, entry by entry, over the extended reals.

  The body reads the two class-logit rows of the negative anchors' block [64, 2, 2048] and of the positive anchors'
  block [64, 2, 64], the four rows of the positive anchors' predicted box offsets and of their boxes (both [64, 4, 64]),
  and the four columns of the ground-truth boxes [64, 4]; it stores ONE [64, 3] value over the whole output block.
  At row r that value is
    column 0:  ∑ over the 2048 negative anchors of minus the log-probability of class 0,
    column 1:  ∑ over the 64 positive anchors of minus the log-probability of class 1,
    column 2:  ∑ over the 64 positive anchors of the smooth-L1 distance between the four predicted offsets and the
               offsets of the ground-truth box from the anchor's box, the four terms added from the left,
  each log-probability written through the pair's maximum (`logProb`), "minus" written as zero less the value
  (on the extended reals `0 - x = -x`), and the constants one and one half kept as the words the body writes.

  The road: a load through a unit rectangle reads the block at the rectangle's offset plus the index; a cast that
  drops the unit axis, the cast of a row sum to a column, the broadcast of a column over the lanes and the
  concatenation of three columns each read one operand element; the lane sum is a `Fin`-indexed sum; everything else is
  pointwise and holds by unfolding.
-/
import proofs.«409514_j31688268710033_3_alg».proof.Proof.Gen.KernelIdeal.Frame
import proofs.«409514_j31688268710033_3_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Body

open Cert.KernelIdeal Cert.KernelIdeal.Gen Cert.TrackLoss Idealize.ShloMosaic Idealize.ShloMosaic.ValueIdx

/-! ## Layout operations at an index given by coordinates

The body reads one row of an axis of size 2 or 4 (a unit rectangle whose middle offset is the row), casts the
unit axis away, sums over the lanes keeping a unit column, broadcasts a column over the lanes and puts three
columns side by side. Each is read here at an index written by its coordinates. -/

section Layout
variable {α : Type}

/-- A load through the unit rectangle that is row `k` of the middle axis reads, at `(r, 0, n)`, the block at `(r, k, n)`. -/
theorem ld_mid3 {A B C : ℕ} {Val : EltTy → Type} {e : EltTy} (X : (⟨3, ![A, B, C]⟩ : Shape).Idx → Val e) (k : ℕ)
    (inb : ∀ a, (![0, k, 0] : Fin 3 → ℕ) a + (⟨3, ![A, 1, C]⟩ : Shape).size a ≤ (⟨3, ![A, B, C]⟩ : Shape).size a)
    (kk : Fin B) (hk : kk.val = k) (r : Fin A) (u : Fin 1) (n : Fin C) :
    View.ld X (Rect.unit (s := ⟨3, ![A, B, C]⟩) ![0, k, 0] (⟨3, ![A, 1, C]⟩ : Shape).size inb) (ix3 r u n)
      = X (ix3 r kk n) := by
  show X _ = X _
  refine congrArg X (funext fun a => Fin.ext ?_)
  match a with
  | ⟨0, _⟩ => show 0 + 1 * r.val = r.val; omega
  | ⟨1, _⟩ => show k + 1 * u.val = kk.val; omega
  | ⟨2, _⟩ => show 0 + 1 * n.val = n.val; omega

/-- A load through the unit rectangle that is column `k` of a matrix reads, at `(r, 0)`, the block at `(r, k)`. -/
theorem ld_col2 {A B : ℕ} {Val : EltTy → Type} {e : EltTy} (X : (⟨2, ![A, B]⟩ : Shape).Idx → Val e) (k : ℕ)
    (inb : ∀ a, (![0, k] : Fin 2 → ℕ) a + (⟨2, ![A, 1]⟩ : Shape).size a ≤ (⟨2, ![A, B]⟩ : Shape).size a)
    (kk : Fin B) (hk : kk.val = k) (r : Fin A) (u : Fin 1) :
    View.ld X (Rect.unit (s := ⟨2, ![A, B]⟩) ![0, k] (⟨2, ![A, 1]⟩ : Shape).size inb) (ix2 r u) = X (ix2 r kk) := by
  show X _ = X _
  refine congrArg X (funext fun a => Fin.ext ?_)
  match a with
  | ⟨0, _⟩ => show 0 + 1 * r.val = r.val; omega
  | ⟨1, _⟩ => show k + 1 * u.val = kk.val; omega

/-- An `[a, 1, b]` array cast to `[a, b]` reads, at `(i, j)`, the operand at `(i, 0, j)`. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum over the lanes of an `[a, b]` array, at row `i`, is the sum over `k` of the array at `(i, k)`. -/
theorem rowSum_apply {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (i : Fin a) :
    multiReduction .add [1] ⟨1, ![a]⟩ v acc h hφ hacc (ix1 i) = ∑ k : Fin b, v (ix2 i k) := by
  refine (Ideal.multiReduction_add_single v acc h hφ hacc (ix1 i)).trans ?_
  refine Finset.sum_congr rfl fun k _ => congrArg v (funext fun ax => Fin.ext ?_)
  match ax with
  | ⟨0, _⟩ => rfl
  | ⟨1, _⟩ => rfl

end Layout

/-! ## Three columns side by side -/

section Columns
variable {α : Type}

/-- Three columns `[a, 1]` concatenated into `[a, 3]`: column `0` of the result is the first piece. -/
theorem concat3_col0 {a : ℕ} (y0 y1 y2 : (⟨2, ![a, 1]⟩ : Shape).Idx → α)
    (h : Shape.Concatenates [⟨2, ![a, 1]⟩, ⟨2, ![a, 1]⟩, ⟨2, ![a, 1]⟩] ⟨2, ![a, 3]⟩ 1) (i : Fin a) :
    concatenate ⟨2, ![a, 3]⟩ 1 [⟨⟨2, ![a, 1]⟩, y0⟩, ⟨⟨2, ![a, 1]⟩, y1⟩, ⟨⟨2, ![a, 1]⟩, y2⟩] h (ix2 i (0 : Fin 3))
      = y0 (ix2 i (0 : Fin 1)) :=
  concatenate_apply_piece (t := ⟨2, ![a, 3]⟩) 1 [⟨⟨2, ![a, 1]⟩, y0⟩, ⟨⟨2, ![a, 1]⟩, y1⟩, ⟨⟨2, ![a, 1]⟩, y2⟩] h (ix2 i (0 : Fin 3)) 0 (Nat.zero_lt_succ _) ⟨2, ![a, 1]⟩ y0 rfl rfl 0 rfl
    (ix2 i (0 : Fin 1)) (fun b hb => by
      match b with
      | ⟨0, _⟩ => rfl
      | ⟨1, _⟩ => exact absurd rfl hb) rfl

/-- Column `1` of the result is the second piece. -/
theorem concat3_col1 {a : ℕ} (y0 y1 y2 : (⟨2, ![a, 1]⟩ : Shape).Idx → α)
    (h : Shape.Concatenates [⟨2, ![a, 1]⟩, ⟨2, ![a, 1]⟩, ⟨2, ![a, 1]⟩] ⟨2, ![a, 3]⟩ 1) (i : Fin a) :
    concatenate ⟨2, ![a, 3]⟩ 1 [⟨⟨2, ![a, 1]⟩, y0⟩, ⟨⟨2, ![a, 1]⟩, y1⟩, ⟨⟨2, ![a, 1]⟩, y2⟩] h (ix2 i (1 : Fin 3))
      = y1 (ix2 i (0 : Fin 1)) :=
  concatenate_apply_piece (t := ⟨2, ![a, 3]⟩) 1 [⟨⟨2, ![a, 1]⟩, y0⟩, ⟨⟨2, ![a, 1]⟩, y1⟩, ⟨⟨2, ![a, 1]⟩, y2⟩] h (ix2 i (1 : Fin 3)) 1 (Nat.succ_lt_succ (Nat.zero_lt_succ _)) ⟨2, ![a, 1]⟩ y1 rfl rfl 1 rfl
    (ix2 i (0 : Fin 1)) (fun b hb => by
      match b with
      | ⟨0, _⟩ => rfl
      | ⟨1, _⟩ => exact absurd rfl hb) rfl

/-- Column `2` of the result is the third piece. -/
theorem concat3_col2 {a : ℕ} (y0 y1 y2 : (⟨2, ![a, 1]⟩ : Shape).Idx → α)
    (h : Shape.Concatenates [⟨2, ![a, 1]⟩, ⟨2, ![a, 1]⟩, ⟨2, ![a, 1]⟩] ⟨2, ![a, 3]⟩ 1) (i : Fin a) :
    concatenate ⟨2, ![a, 3]⟩ 1 [⟨⟨2, ![a, 1]⟩, y0⟩, ⟨⟨2, ![a, 1]⟩, y1⟩, ⟨⟨2, ![a, 1]⟩, y2⟩] h (ix2 i (2 : Fin 3))
      = y2 (ix2 i (0 : Fin 1)) :=
  concatenate_apply_piece (t := ⟨2, ![a, 3]⟩) 1 [⟨⟨2, ![a, 1]⟩, y0⟩, ⟨⟨2, ![a, 1]⟩, y1⟩, ⟨⟨2, ![a, 1]⟩, y2⟩] h (ix2 i (2 : Fin 3)) 2 (Nat.succ_lt_succ (Nat.succ_lt_succ (Nat.zero_lt_succ _))) ⟨2, ![a, 1]⟩ y2 rfl rfl 2 rfl
    (ix2 i (0 : Fin 1)) (fun b hb => by
      match b with
      | ⟨0, _⟩ => rfl
      | ⟨1, _⟩ => exact absurd rfl hb) rfl

end Columns

/-! ## The arithmetic at one element -/

section Pointwise
variable {s : Shape}

/-- Zero less the log-probability of the class whose logit is `t`, as the body writes it (the maximum, the two
    shifted exponentials, the log of their sum), is minus `logProb`: here for the class of the FIRST logit. -/
theorem negLogProb_fst_apply (a b : FVec Ideal s .f32) (i : s.Idx) :
    subf (broadcast s (Scalar.ofBits (F := Ideal) .f32 0x00000000#32))
        (subf (subf a (maximumf a b)) (log (addf (exp (subf a (maximumf a b))) (exp (subf b (maximumf a b)))))) i
      = -(logProb (a i) (a i) (b i)) := by
  show Ideal.ofBits .f32 0x00000000#32 - logProb (a i) (a i) (b i) = _
  rw [Ideal.ofBits_zero_f32, zero_sub]

/-- The same for the class of the SECOND logit. -/
theorem negLogProb_snd_apply (a b : FVec Ideal s .f32) (i : s.Idx) :
    subf (broadcast s (Scalar.ofBits (F := Ideal) .f32 0x00000000#32))
        (subf (subf b (maximumf a b)) (log (addf (exp (subf a (maximumf a b))) (exp (subf b (maximumf a b)))))) i
      = -(logProb (b i) (a i) (b i)) := by
  show Ideal.ofBits .f32 0x00000000#32 - logProb (b i) (a i) (b i) = _
  rw [Ideal.ofBits_zero_f32, zero_sub]

/-- The body's smooth-L1 of a difference `d` — the select on `|d| < 1` between half the square and `|d|` less one
    half — is `smoothL1` of the element. -/
theorem smoothL1_apply (d : FVec Ideal s .f32) (i : s.Idx) :
    select (cmpf .olt (absf d) (broadcast s (Scalar.ofBits (F := Ideal) .f32 0x3F800000#32)))
        (mulf (mulf (broadcast s (Scalar.ofBits (F := Ideal) .f32 0x3F000000#32)) d) d)
        (subf (absf d) (broadcast s (Scalar.ofBits (F := Ideal) .f32 0x3F000000#32))) i
      = smoothL1 (d i) := rfl

end Pointwise

/-! ## The loads of the five input blocks -/

section Loads
variable (x0 : Vec Ideal S64x2x2048 .f32) (x1 : Vec Ideal S64x2x64 .f32) (x2 x3 : Vec Ideal S64x4x64 .f32)
  (x4 : Vec Ideal S64x4 .f32) (r : Fin 64)

theorem ld0_0 (n : Fin 2048) : View.ld x0 r0_0 (ix3 r (0 : Fin 1) n) = x0 (ix3 r 0 n) := ld_mid3 x0 0 _ 0 rfl r 0 n
theorem ld0_1 (n : Fin 2048) : View.ld x0 r0_1 (ix3 r (0 : Fin 1) n) = x0 (ix3 r 1 n) := ld_mid3 x0 1 _ 1 rfl r 0 n
theorem ld1_2 (p : Fin 64) : View.ld x1 r0_2 (ix3 r (0 : Fin 1) p) = x1 (ix3 r 0 p) := ld_mid3 x1 0 _ 0 rfl r 0 p
theorem ld1_3 (p : Fin 64) : View.ld x1 r0_3 (ix3 r (0 : Fin 1) p) = x1 (ix3 r 1 p) := ld_mid3 x1 1 _ 1 rfl r 0 p
/-- The four rows of a `[64, 4, 64]` block (the predicted offsets, the anchors' boxes). -/
theorem ld4_4 (x : Vec Ideal S64x4x64 .f32) (p : Fin 64) : View.ld x r0_4 (ix3 r (0 : Fin 1) p) = x (ix3 r 0 p) :=
  ld_mid3 x 0 _ 0 rfl r 0 p
theorem ld4_5 (x : Vec Ideal S64x4x64 .f32) (p : Fin 64) : View.ld x r0_5 (ix3 r (0 : Fin 1) p) = x (ix3 r 1 p) :=
  ld_mid3 x 1 _ 1 rfl r 0 p
theorem ld4_6 (x : Vec Ideal S64x4x64 .f32) (p : Fin 64) : View.ld x r0_6 (ix3 r (0 : Fin 1) p) = x (ix3 r 2 p) :=
  ld_mid3 x 2 _ 2 rfl r 0 p
theorem ld4_7 (x : Vec Ideal S64x4x64 .f32) (p : Fin 64) : View.ld x r0_7 (ix3 r (0 : Fin 1) p) = x (ix3 r 3 p) :=
  ld_mid3 x 3 _ 3 rfl r 0 p
/-- The four columns of the ground-truth block `[64, 4]`. -/
theorem ld_8 : View.ld x4 r0_8 (ix2 r (0 : Fin 1)) = x4 (ix2 r 0) := ld_col2 x4 0 _ 0 rfl r 0
theorem ld_9 : View.ld x4 r0_9 (ix2 r (0 : Fin 1)) = x4 (ix2 r 1) := ld_col2 x4 1 _ 1 rfl r 0
theorem ld_10 : View.ld x4 r0_10 (ix2 r (0 : Fin 1)) = x4 (ix2 r 2) := ld_col2 x4 2 _ 2 rfl r 0
theorem ld_11 : View.ld x4 r0_11 (ix2 r (0 : Fin 1)) = x4 (ix2 r 3) := ld_col2 x4 3 _ 3 rfl r 0

end Loads

/-! ## The body's payloads at an index -/

section Payloads

/-- The negative anchors' column: at row `r`, the sum over the 2048 anchors of minus the log-probability of class 0. -/
theorem pay1_apply (a b : Vec Ideal S64x1x2048 .f32) (r : Fin 64) (u : Fin 1) :
    k0_pay1 (F := Ideal) a b (ix2 r u)
      = ∑ n : Fin 2048, -(logProb (a (ix3 r (0 : Fin 1) n)) (a (ix3 r (0 : Fin 1) n)) (b (ix3 r (0 : Fin 1) n))) := by
  unfold k0_pay1
  refine (shapeCast_a_a1_apply _ _ r u).trans ?_
  refine (rowSum_apply _ _ _ _ _ r).trans ?_
  refine Finset.sum_congr rfl fun n _ => ?_
  refine (negLogProb_fst_apply _ _ _).trans ?_
  rw [shapeCast_a1b_ab_apply a _ r n, shapeCast_a1b_ab_apply b _ r n]

/-- The positive anchors' classification column: the sum over the 64 anchors of minus the log-probability of class 1. -/
theorem pay2_apply (a b : Vec Ideal S64x1x64 .f32) (r : Fin 64) (u : Fin 1) :
    k0_pay2 (F := Ideal) a b (ix2 r u)
      = ∑ p : Fin 64, -(logProb (b (ix3 r (0 : Fin 1) p)) (a (ix3 r (0 : Fin 1) p)) (b (ix3 r (0 : Fin 1) p))) := by
  unfold k0_pay2
  refine (shapeCast_a_a1_apply _ _ r u).trans ?_
  refine (rowSum_apply _ _ _ _ _ r).trans ?_
  refine Finset.sum_congr rfl fun p _ => ?_
  refine (negLogProb_snd_apply _ _ _).trans ?_
  rw [shapeCast_a1b_ab_apply a _ r p, shapeCast_a1b_ab_apply b _ r p]

/-- A loaded row `[64, 1, 64]` viewed `[64, 64]`. -/
theorem pay3_apply (v : Vec Ideal S64x1x64 .f32) (r p : Fin 64) :
    k0_pay3 (F := Ideal) v (ix2 r p) = v (ix3 r (0 : Fin 1) p) := by
  unfold k0_pay3; exact shapeCast_a1b_ab_apply v _ r p
theorem pay4_apply (v : Vec Ideal S64x1x64 .f32) (r p : Fin 64) :
    k0_pay4 (F := Ideal) v (ix2 r p) = v (ix3 r (0 : Fin 1) p) := by
  unfold k0_pay4; exact shapeCast_a1b_ab_apply v _ r p
theorem pay5_apply (v : Vec Ideal S64x1x64 .f32) (r p : Fin 64) :
    k0_pay5 (F := Ideal) v (ix2 r p) = v (ix3 r (0 : Fin 1) p) := by
  unfold k0_pay5; exact shapeCast_a1b_ab_apply v _ r p
theorem pay9_apply (v : Vec Ideal S64x1x64 .f32) (r p : Fin 64) :
    k0_pay9 (F := Ideal) v (ix2 r p) = v (ix3 r (0 : Fin 1) p) := by
  unfold k0_pay9; exact shapeCast_a1b_ab_apply v _ r p
theorem pay10_apply (v : Vec Ideal S64x1x64 .f32) (r p : Fin 64) :
    k0_pay10 (F := Ideal) v (ix2 r p) = v (ix3 r (0 : Fin 1) p) := by
  unfold k0_pay10; exact shapeCast_a1b_ab_apply v _ r p
theorem pay11_apply (v : Vec Ideal S64x1x64 .f32) (r p : Fin 64) :
    k0_pay11 (F := Ideal) v (ix2 r p) = v (ix3 r (0 : Fin 1) p) := by
  unfold k0_pay11; exact shapeCast_a1b_ab_apply v _ r p

/-- The centre-y target: the ground truth's column less the anchors' row, over the anchors' height row. -/
theorem pay6_apply (v36 v40 : Vec Ideal S64x1x64 .f32) (v43 : Vec Ideal S64x1 .f32) (r p : Fin 64) :
    k0_pay6 (F := Ideal) v36 v40 v43 (ix2 r p)
      = tgtCentre (v43 (ix2 r (0 : Fin 1))) (v36 (ix3 r (0 : Fin 1) p)) (v40 (ix3 r (0 : Fin 1) p)) := by
  unfold k0_pay6
  show Ideal.div (broadcastTo S64x64 v43 broadcasts_S64x1_S64x64 (ix2 r p)
      - shapeCast S64x64 v36 shapeCasts_S64x1x64_S64x64 (ix2 r p)) (k0_pay5 (F := Ideal) v40 (ix2 r p)) = _
  rw [broadcastTo_a1_ab_apply v43 _ r p, shapeCast_a1b_ab_apply v36 _ r p, pay5_apply]
  rfl

/-- The width target: the log of the ground truth's column over the anchors' width row. -/
theorem pay7_apply (v38 : Vec Ideal S64x1x64 .f32) (v44 : Vec Ideal S64x1 .f32) (r p : Fin 64) :
    k0_pay7 (F := Ideal) v38 v44 (ix2 r p) = tgtSize (v44 (ix2 r (0 : Fin 1))) (v38 (ix3 r (0 : Fin 1) p)) := by
  unfold k0_pay7
  show Ideal.log (Ideal.div (broadcastTo S64x64 v44 broadcasts_S64x1_S64x64 (ix2 r p))
      (k0_pay4 (F := Ideal) v38 (ix2 r p))) = _
  rw [broadcastTo_a1_ab_apply v44 _ r p, pay4_apply]
  rfl

/-- The height target likewise. -/
theorem pay8_apply (v40 : Vec Ideal S64x1x64 .f32) (v45 : Vec Ideal S64x1 .f32) (r p : Fin 64) :
    k0_pay8 (F := Ideal) v40 v45 (ix2 r p) = tgtSize (v45 (ix2 r (0 : Fin 1))) (v40 (ix3 r (0 : Fin 1) p)) := by
  unfold k0_pay8
  show Ideal.log (Ideal.div (broadcastTo S64x64 v45 broadcasts_S64x1_S64x64 (ix2 r p))
      (k0_pay5 (F := Ideal) v40 (ix2 r p))) = _
  rw [broadcastTo_a1_ab_apply v45 _ r p, pay5_apply]
  rfl

/-- The first coordinate's difference: the predicted offset less the centre-x target. -/
theorem pay12_apply (v35 : FVec Ideal S64x64 .f32) (v38 : Vec Ideal S64x1x64 .f32) (v42 : Vec Ideal S64x1 .f32)
    (v58 : Vec Ideal S64x1x64 .f32) (r p : Fin 64) :
    k0_pay12 (F := Ideal) v35 v38 v42 v58 (ix2 r p)
      = v58 (ix3 r (0 : Fin 1) p) - tgtCentre (v42 (ix2 r (0 : Fin 1))) (v35 (ix2 r p)) (v38 (ix3 r (0 : Fin 1) p)) := by
  unfold k0_pay12
  show shapeCast S64x64 v58 shapeCasts_S64x1x64_S64x64 (ix2 r p)
      - Ideal.div (broadcastTo S64x64 v42 broadcasts_S64x1_S64x64 (ix2 r p) - v35 (ix2 r p))
          (k0_pay4 (F := Ideal) v38 (ix2 r p)) = _
  rw [shapeCast_a1b_ab_apply v58 _ r p, broadcastTo_a1_ab_apply v42 _ r p, pay4_apply]
  rfl

/-- Its absolute value, and the comparison of that with one, are pointwise. -/
theorem pay13_apply (v35 : FVec Ideal S64x64 .f32) (v38 : Vec Ideal S64x1x64 .f32) (v42 : Vec Ideal S64x1 .f32)
    (v58 : Vec Ideal S64x1x64 .f32) (i : S64x64.Idx) :
    k0_pay13 (F := Ideal) v35 v38 v42 v58 i = absE (k0_pay12 (F := Ideal) v35 v38 v42 v58 i) := rfl
theorem pay14_apply (v35 : FVec Ideal S64x64 .f32) (v38 : Vec Ideal S64x1x64 .f32) (v42 : Vec Ideal S64x1 .f32)
    (v58 : Vec Ideal S64x1x64 .f32) (i : S64x64.Idx) :
    k0_pay14 (F := Ideal) v35 v38 v42 v58 i
      = FloatOps.cmpf (F := Ideal) (φ := .f32) .olt (absE (k0_pay12 (F := Ideal) v35 v38 v42 v58 i))
          (Ideal.ofBits .f32 0x3F800000#32) := rfl

section Stored
variable (v16 v33 : FVec Ideal S64x1 .f32) (v51 v54 v57 v61 v63 v65 v66 v67 : FVec Ideal S64x64 .f32)
  (v69 : IVec S64x64 1) (r : Fin 64)

/-- The stored block's column 0 is the negative anchors' column … -/
theorem pay15_col0 :
    k0_pay15 (F := Ideal) v16 v33 v51 v54 v57 v61 v63 v65 v66 v67 v69 (ix2 r (0 : Fin 3)) = v16 (ix2 r (0 : Fin 1)) := by
  unfold k0_pay15
  exact concat3_col0 _ _ _ _ r

/-- … column 1 the positive anchors' classification column … -/
theorem pay15_col1 :
    k0_pay15 (F := Ideal) v16 v33 v51 v54 v57 v61 v63 v65 v66 v67 v69 (ix2 r (1 : Fin 3)) = v33 (ix2 r (0 : Fin 1)) := by
  unfold k0_pay15
  exact concat3_col1 _ _ _ _ r

/-- … and column 2 the sum over the 64 positive anchors of the four smooth-L1 terms, added from the left; the first
    term comes with its difference, absolute value and comparison computed beforehand. -/
theorem pay15_col2 :
    k0_pay15 (F := Ideal) v16 v33 v51 v54 v57 v61 v63 v65 v66 v67 v69 (ix2 r (2 : Fin 3))
      = ∑ p : Fin 64,
          (Scalar.select (v69 (ix2 r p))
              (Ideal.ofBits .f32 0x3F000000#32 * v66 (ix2 r p) * v66 (ix2 r p))
              (v67 (ix2 r p) - Ideal.ofBits .f32 0x3F000000#32)
            + smoothL1 (v61 (ix2 r p) - v51 (ix2 r p)) + smoothL1 (v63 (ix2 r p) - v54 (ix2 r p))
            + smoothL1 (v65 (ix2 r p) - v57 (ix2 r p))) := by
  unfold k0_pay15
  refine (concat3_col2 _ _ _ _ r).trans ?_
  refine (shapeCast_a_a1_apply _ _ r 0).trans ?_
  refine (rowSum_apply _ _ _ _ _ r).trans ?_
  exact Finset.sum_congr rfl fun p _ => rfl

end Stored

end Payloads

/-! ## The output block, entry by entry

The body's one store covers the whole `[64, 3]` block, so the block it leaves is the stored value: column 0 the
negative anchors' sum, column 1 the positive anchors' classification sum, column 2 their box sum. -/

section Out
variable (x0 : Vec Ideal S64x2x2048 .f32) (x1 : Vec Ideal S64x2x64 .f32) (x2 x3 : Vec Ideal S64x4x64 .f32)
  (x4 : Vec Ideal S64x4 .f32) (r : Fin 64)

/-- The store's rectangle starts at the block's origin. -/
theorem zeros2 : (![0, 0] : Fin 2 → ℕ) = fun _ => 0 := by
  funext a
  match a with
  | ⟨0, _⟩ => rfl
  | ⟨1, _⟩ => rfl

/-- Entry `(r, 0)`: the sum over sample `r`'s 2048 negative anchors of minus the log-probability of class 0. -/
theorem out_neg :
    out0_5 (F := Ideal) x0 x1 x2 x3 x4 (ix2 r (0 : Fin 3))
      = ∑ n : Fin 2048, -(logProb (x0 (ix3 r 0 n)) (x0 (ix3 r 0 n)) (x0 (ix3 r 1 n))) := by
  unfold out0_5
  rw [View.canon_unit_zero (S := S64x3) zeros2]
  refine (pay15_col0 _ _ _ _ _ _ _ _ _ _ _ r).trans ?_
  refine (pay1_apply _ _ r 0).trans ?_
  refine Finset.sum_congr rfl fun n _ => ?_
  rw [ld0_0, ld0_1]

/-- Entry `(r, 1)`: the sum over sample `r`'s 64 positive anchors of minus the log-probability of class 1. -/
theorem out_pos :
    out0_5 (F := Ideal) x0 x1 x2 x3 x4 (ix2 r (1 : Fin 3))
      = ∑ p : Fin 64, -(logProb (x1 (ix3 r 1 p)) (x1 (ix3 r 0 p)) (x1 (ix3 r 1 p))) := by
  unfold out0_5
  rw [View.canon_unit_zero (S := S64x3) zeros2]
  refine (pay15_col1 _ _ _ _ _ _ _ _ _ _ _ r).trans ?_
  refine (pay2_apply _ _ r 0).trans ?_
  refine Finset.sum_congr rfl fun p _ => ?_
  rw [ld1_2, ld1_3]

/-- Entry `(r, 2)`: the sum over sample `r`'s 64 positive anchors of the smooth-L1 distance between the four
    predicted offsets and the ground-truth box's offsets from the anchor's box. -/
theorem out_loc :
    out0_5 (F := Ideal) x0 x1 x2 x3 x4 (ix2 r (2 : Fin 3))
      = ∑ p : Fin 64, boxTerm (fun k => x2 (ix3 r k p)) (fun k => x4 (ix2 r k)) (fun k => x3 (ix3 r k p)) := by
  unfold out0_5
  rw [View.canon_unit_zero (S := S64x3) zeros2]
  refine (pay15_col2 _ _ _ _ _ _ _ _ _ _ _ r).trans ?_
  refine Finset.sum_congr rfl fun p _ => ?_
  rw [pay14_apply, pay13_apply, pay12_apply, pay3_apply, pay6_apply, pay7_apply, pay8_apply, pay9_apply, pay10_apply,
    pay11_apply, ld4_4 r x2 p, ld4_4 r x3 p, ld4_5 r x2 p, ld4_5 r x3 p, ld4_6 r x2 p, ld4_6 r x3 p, ld4_7 r x2 p,
    ld4_7 r x3 p, ld_8, ld_9, ld_10, ld_11]
  rfl

end Out

end Cert.KernelIdeal.Body

end
-- ==== Proof.KernelArray.lean ====
/-
  What the kernel launch leaves in its result array [128, 3], as a function of the five arrays it stages.

  The launch runs over two grid points; at point t every window holds the block of samples 64 t … 64 t + 63 of its
  array, whole along the other axes. The body's block result has in row r the three sums of sample 64 t + r (the
  negative anchors' terms, the positive anchors' classification terms, the positive anchors' box terms), so what
  point t writes back is block t of ONE array, whose row b holds sample b's three sums; the two blocks cover that array.
-/
import proofs.«409514_j31688268710033_3_alg».proof.Proof.Gen.KernelIdeal.Frame
import proofs.«409514_j31688268710033_3_alg».proof.Proof.Spec
import Idealize.ShloMosaic.Lib.ValueIdx
import Idealize.ShloMosaic.Lib.Pipeline.Value
import proofs.«409514_j31688268710033_3_alg».proof.Proof.KernelBody

noncomputable section

namespace Cert.KernelIdeal.KArray

open Cert.KernelIdeal Cert.KernelIdeal.Gen Cert.TrackLoss Idealize.ShloMosaic Idealize.ShloMosaic.ValueIdx
open Idealize.ShloMosaic.TcCoe Idealize.SL.Sem
open Idealize.ShloMosaic.Pipeline (Dat Cfg Window)

variable (m : (ℓ : Loc nD τ sig) → Buf (Elt Ideal) ℓ)

/-- The windows' index maps over the two grid points: every window's block at point t is block t along the first
    axis and block 0 along the others. -/
theorem idx_facts : ∀ t : Fin cfg0.N, t.val < 2
    ∧ win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- Each half of the samples is some point's. -/
theorem idx_onto : ∀ q : Fin 2, ∃ t : Fin cfg0.N, t.val = q.val :=
  (by decide +kernel : ∀ q : Fin 2, ∃ t : Fin grid0.N, t.val = q.val)

/-- The sample that row r of point t's blocks belongs to. -/
def rowAt (t : Fin cfg0.N) (r : Fin 64) : Fin 128 :=
  ⟨t.val * 64 + r.val, by have := (idx_facts t).1; have := r.isLt; omega⟩

/-! ## The staged arrays and their blocks, at their literal types -/

abbrev arr0 (c : Dev nD) : Vec Ideal S128x2x2048 .f32 := V m c main_v6
abbrev arr1 (c : Dev nD) : Vec Ideal S128x2x64 .f32 := V m c main_v7
abbrev arr2 (c : Dev nD) : Vec Ideal S128x4x64 .f32 := V m c main_v11
abbrev arr3 (c : Dev nD) : Vec Ideal S128x4x64 .f32 := V m c main_v13
abbrev arr4 (c : Dev nD) : Vec Ideal S128x4 .f32 := V m c main_arg2
abbrev blk0 (c : Dev nD) (t : Fin cfg0.N) : Vec Ideal S64x2x2048 .f32 := iblk m c 0 t
abbrev blk1 (c : Dev nD) (t : Fin cfg0.N) : Vec Ideal S64x2x64 .f32 := iblk m c 1 t
abbrev blk2 (c : Dev nD) (t : Fin cfg0.N) : Vec Ideal S64x4x64 .f32 := iblk m c 2 t
abbrev blk3 (c : Dev nD) (t : Fin cfg0.N) : Vec Ideal S64x4x64 .f32 := iblk m c 3 t
abbrev blk4 (c : Dev nD) (t : Fin cfg0.N) : Vec Ideal S64x4 .f32 := iblk m c 4 t

/-- Row r of point t's block is the array's row of sample 64 t + r, the other coordinates unchanged. -/
theorem blk0_apply (c : Dev nD) (t : Fin cfg0.N) (r : Fin 64) (ch : Fin 2) (n : Fin 2048) :
    blk0 m c t (ix3 r ch n) = arr0 m c (ix3 (rowAt t r) ch n) := by
  obtain ⟨_, e0, e1, e2, _⟩ := idx_facts t
  show V m c main_v6 (((cfg0.win 0).blk t).view.emb (ix3 r ch n)) = V m c main_v6 (ix3 (rowAt t r) ch n)
  congr 1
  funext a; apply Fin.ext
  match a with
  | ⟨0, _⟩ => show win0_0.index t (0 : Fin 3) * 64 + 1 * r.val = t.val * 64 + r.val; omega
  | ⟨1, _⟩ => show win0_0.index t (1 : Fin 3) * 2 + 1 * ch.val = ch.val; omega
  | ⟨2, _⟩ => show win0_0.index t (2 : Fin 3) * 2048 + 1 * n.val = n.val; omega

theorem blk1_apply (c : Dev nD) (t : Fin cfg0.N) (r : Fin 64) (ch : Fin 2) (p : Fin 64) :
    blk1 m c t (ix3 r ch p) = arr1 m c (ix3 (rowAt t r) ch p) := by
  obtain ⟨_, _, _, _, e0, e1, e2, _⟩ := idx_facts t
  show V m c main_v7 (((cfg0.win 1).blk t).view.emb (ix3 r ch p)) = V m c main_v7 (ix3 (rowAt t r) ch p)
  congr 1
  funext a; apply Fin.ext
  match a with
  | ⟨0, _⟩ => show win0_1.index t (0 : Fin 3) * 64 + 1 * r.val = t.val * 64 + r.val; omega
  | ⟨1, _⟩ => show win0_1.index t (1 : Fin 3) * 2 + 1 * ch.val = ch.val; omega
  | ⟨2, _⟩ => show win0_1.index t (2 : Fin 3) * 64 + 1 * p.val = p.val; omega

theorem blk2_apply (c : Dev nD) (t : Fin cfg0.N) (r : Fin 64) (k : Fin 4) (p : Fin 64) :
    blk2 m c t (ix3 r k p) = arr2 m c (ix3 (rowAt t r) k p) := by
  obtain ⟨_, _, _, _, _, _, _, e0, e1, e2, _⟩ := idx_facts t
  show V m c main_v11 (((cfg0.win 2).blk t).view.emb (ix3 r k p)) = V m c main_v11 (ix3 (rowAt t r) k p)
  congr 1
  funext a; apply Fin.ext
  match a with
  | ⟨0, _⟩ => show win0_2.index t (0 : Fin 3) * 64 + 1 * r.val = t.val * 64 + r.val; omega
  | ⟨1, _⟩ => show win0_2.index t (1 : Fin 3) * 4 + 1 * k.val = k.val; omega
  | ⟨2, _⟩ => show win0_2.index t (2 : Fin 3) * 64 + 1 * p.val = p.val; omega

theorem blk3_apply (c : Dev nD) (t : Fin cfg0.N) (r : Fin 64) (k : Fin 4) (p : Fin 64) :
    blk3 m c t (ix3 r k p) = arr3 m c (ix3 (rowAt t r) k p) := by
  obtain ⟨_, _, _, _, _, _, _, _, _, _, e0, e1, e2, _⟩ := idx_facts t
  show V m c main_v13 (((cfg0.win 3).blk t).view.emb (ix3 r k p)) = V m c main_v13 (ix3 (rowAt t r) k p)
  congr 1
  funext a; apply Fin.ext
  match a with
  | ⟨0, _⟩ => show win0_3.index t (0 : Fin 3) * 64 + 1 * r.val = t.val * 64 + r.val; omega
  | ⟨1, _⟩ => show win0_3.index t (1 : Fin 3) * 4 + 1 * k.val = k.val; omega
  | ⟨2, _⟩ => show win0_3.index t (2 : Fin 3) * 64 + 1 * p.val = p.val; omega

theorem blk4_apply (c : Dev nD) (t : Fin cfg0.N) (r : Fin 64) (k : Fin 4) :
    blk4 m c t (ix2 r k) = arr4 m c (ix2 (rowAt t r) k) := by
  obtain ⟨_, _, _, _, _, _, _, _, _, _, _, _, _, e0, e1, _⟩ := idx_facts t
  show V m c main_arg2 (((cfg0.win 4).blk t).view.emb (ix2 r k)) = V m c main_arg2 (ix2 (rowAt t r) k)
  congr 1
  funext a; apply Fin.ext
  match a with
  | ⟨0, _⟩ => show win0_4.index t (0 : Fin 2) * 64 + 1 * r.val = t.val * 64 + r.val; omega
  | ⟨1, _⟩ => show win0_4.index t (1 : Fin 2) * 4 + 1 * k.val = k.val; omega

/-! ## The result array -/

/-- A [128, 3] array from its three columns. -/
def cols (f0 f1 f2 : Fin 128 → EReal) : Vec Ideal S128x3 .f32 := fun i =>
  if (i 1).val = 0 then f0 (i 0) else if (i 1).val = 1 then f1 (i 0) else f2 (i 0)

/-- Sample b's three sums over the staged arrays: the negative anchors' terms, the positive anchors' classification
    terms, the positive anchors' box terms. -/
def negSum (c : Dev nD) (b : Fin 128) : EReal :=
  ∑ n : Fin 2048, -(logProb (arr0 m c (ix3 b 0 n)) (arr0 m c (ix3 b 0 n)) (arr0 m c (ix3 b 1 n)))
def posSum (c : Dev nD) (b : Fin 128) : EReal :=
  ∑ p : Fin 64, -(logProb (arr1 m c (ix3 b 1 p)) (arr1 m c (ix3 b 0 p)) (arr1 m c (ix3 b 1 p)))
def locSum (c : Dev nD) (b : Fin 128) : EReal :=
  ∑ p : Fin 64, boxTerm (fun k => arr2 m c (ix3 b k p)) (fun k => arr4 m c (ix2 b k)) (fun k => arr3 m c (ix3 b k p))

/-- The array the launch leaves: row b holds sample b's three sums. -/
def sums (c : Dev nD) : Vec Ideal S128x3 .f32 := cols (negSum m c) (posSum m c) (locSum m c)

/-- Row r of point t's output block sits at the array's row of sample 64 t + r. -/
theorem emb5 (t : Fin cfg0.N) (r : Fin 64) (j : Fin 3) :
    ((cfg0.win 5).blk t).view.emb (ix2 r j : S64x3.Idx) = (ix2 (rowAt t r) j : S128x3.Idx) := by
  obtain ⟨_, _, _, _, _, _, _, _, _, _, _, _, _, _, _, e0, e1⟩ := idx_facts t
  funext a; apply Fin.ext
  match a with
  | ⟨0, _⟩ => show win0_5.index t (0 : Fin 2) * 64 + 1 * r.val = t.val * 64 + r.val; omega
  | ⟨1, _⟩ => show win0_5.index t (1 : Fin 2) * 3 + 1 * j.val = j.val; omega

/-- WHAT POINT t WRITES BACK is block t of the array of sums. -/
theorem flushed5_eq (c : Dev nD) (t : Fin cfg0.N) :
    (dats m 0 c).flushed 5 t = ((cfg0.win 5).blk t).view.read (Elt Ideal) (sums m c) := by
  show (cfg0.win 5).cut (grid0.coords t) ((dats m 0 c).after 5 t) = _
  rw [after0_5]
  funext y
  obtain ⟨r, j, rfl⟩ : ∃ (r : Fin 64) (j : Fin 3), y = ix2 r j := ⟨y 0, y 1, eq_ix2 y⟩
  show out0_5 (F := Ideal) (blk0 m c t) (blk1 m c t) (blk2 m c t) (blk3 m c t) (blk4 m c t) (ix2 r j)
    = sums m c (((cfg0.win 5).blk t).view.emb (ix2 r j))
  rw [emb5 t r j]
  match j with
  | ⟨0, _⟩ =>
    refine (Cert.KernelIdeal.Body.out_neg (blk0 m c t) (blk1 m c t) (blk2 m c t) (blk3 m c t) (blk4 m c t) r).trans ?_
    show _ = negSum m c (rowAt t r)
    unfold negSum
    refine Finset.sum_congr rfl (fun n _ => ?_)
    rw [blk0_apply m c t r 0 n, blk0_apply m c t r 1 n]
  | ⟨1, _⟩ =>
    refine (Cert.KernelIdeal.Body.out_pos (blk0 m c t) (blk1 m c t) (blk2 m c t) (blk3 m c t) (blk4 m c t) r).trans ?_
    show _ = posSum m c (rowAt t r)
    unfold posSum
    refine Finset.sum_congr rfl (fun p _ => ?_)
    rw [blk1_apply m c t r 0 p, blk1_apply m c t r 1 p]
  | ⟨2, _⟩ =>
    refine (Cert.KernelIdeal.Body.out_loc (blk0 m c t) (blk1 m c t) (blk2 m c t) (blk3 m c t) (blk4 m c t) r).trans ?_
    show _ = locSum m c (rowAt t r)
    unfold locSum
    refine Finset.sum_congr rfl (fun p _ => ?_)
    have h2 : (fun k : Fin 4 => blk2 m c t (ix3 r k p)) = fun k => arr2 m c (ix3 (rowAt t r) k p) :=
      funext fun k => blk2_apply m c t r k p
    have h4 : (fun k : Fin 4 => blk4 m c t (ix2 r k)) = fun k => arr4 m c (ix2 (rowAt t r) k) :=
      funext fun k => blk4_apply m c t r k
    have h3 : (fun k : Fin 4 => blk3 m c t (ix3 r k p)) = fun k => arr3 m c (ix3 (rowAt t r) k p) :=
      funext fun k => blk3_apply m c t r k p
    rw [h2, h4, h3]

/-- An index of the array is in point t's block iff each coordinate is in the block's range on its axis. -/
theorem mem_blk5 (t : Fin cfg0.N) (i : S128x3.Idx) :
    i ∈ ((cfg0.win 5).blk t).view.set ↔ ∀ a : Fin 2, win0_5.index t a * S64x3.size a ≤ (i a).val ∧ (i a).val < win0_5.index t a * S64x3.size a + S64x3.size a := by
  show i ∈ ((View.whole main_v14).slice (win0_5.rect t)).set ↔ _
  rw [View.set_slice_whole, Rect.mem_set_unit]
  exact Iff.rfl

/-- The two blocks cover the array: sample b lies in the block of point b / 64. -/
theorem cover5 (i : S128x3.Idx) : ∃ t : Fin cfg0.N, (cfg0.win 5).flush t = true ∧ i ∈ ((cfg0.win 5).blk t).view.set := by
  have hi0 : (i 0).val < 128 := (i 0).isLt
  have hi1 : (i 1).val < 3 := (i 1).isLt
  obtain ⟨t, ht⟩ := idx_onto ⟨(i 0).val / 64, by omega⟩
  have ht' : t.val = (i 0).val / 64 := ht
  obtain ⟨_, _, _, _, _, _, _, _, _, _, _, _, _, _, _, e0, e1⟩ := idx_facts t
  refine ⟨t, flush0_5 t, ?_⟩
  rw [mem_blk5]
  intro a
  match a with
  | ⟨0, _⟩ => show win0_5.index t (0 : Fin 2) * 64 ≤ (i 0).val ∧ (i 0).val < win0_5.index t (0 : Fin 2) * 64 + 64; omega
  | ⟨1, _⟩ => show win0_5.index t (1 : Fin 2) * 3 ≤ (i 1).val ∧ (i 1).val < win0_5.index t (1 : Fin 2) * 3 + 3; omega

/-- THE ARRAY after the launch: the array of sums. -/
theorem final5 (c : Dev nD) : (dats m 0 c).arrAt 5 cfg0.N = sums m c :=
  (dats m 0 c).arrAt_eq_of_cover 5 (sums m c) (fun t _ => flushed5_eq m c t) cover5

end Cert.KernelIdeal.KArray

end
-- ==== Proof.KernelTail.lean ====
/-
  The host operations after the kernel launch, read over the launch's result array.

  They take each of the three columns of the [128, 3] array of per-sample sums, divide it by the number of terms a
  sample has of that kind (2048 negative anchors; 64 positive anchors; 64 positive anchors times 4 coordinates), average
  each over the 128 samples (their sum from zero, over 128), and combine the three averages a, b, l as
  half of (half a plus half b) plus half of l.
-/
import proofs.«409514_j31688268710033_3_alg».proof.Proof.KernelArray
import Idealize.ShloMosaic.Lib.StableHlo.Run
import Idealize.ShloMosaic.Lib.Pipeline.Value

noncomputable section

namespace Cert.KernelIdeal.KTail

open Cert.KernelIdeal Cert.KernelIdeal.Gen Cert.KernelIdeal.KArray Cert.TrackLoss Idealize.ShloMosaic Idealize.ShloMosaic.ValueIdx
open Idealize.ShloMosaic.TcCoe Idealize.SL.Sem Idealize.ShloMosaic.StableHlo

/-! ## The three per-sample means and the batch averages, as the operations state them -/

/-- Column 0 of a [128, 3] array over 2048. -/
def mean0 (A : Vec Ideal S128x3 .f32) : Vec Ideal S128 .f32 :=
  Host.divf (shapeCast S128 (extractStridedSlice S128x1 ![0, 0] A slices_S128x3_S128x1_0_0) shapeCasts_S128x1_S128)
    (broadcastInDim S128 ![] bcast_S_S128 (constant (F := Ideal) S_ .f32 0x45000000#32))
/-- Column 1 over 64. -/
def mean1 (A : Vec Ideal S128x3 .f32) : Vec Ideal S128 .f32 :=
  Host.divf (shapeCast S128 (extractStridedSlice S128x1 ![0, 1] A slices_S128x3_S128x1_0_1) shapeCasts_S128x1_S128)
    (broadcastInDim S128 ![] bcast_S_S128 (constant (F := Ideal) S_ .f32 0x42800000#32))
/-- Column 2 over 256. -/
def mean2 (A : Vec Ideal S128x3 .f32) : Vec Ideal S128 .f32 :=
  Host.divf (shapeCast S128 (extractStridedSlice S128x1 ![0, 2] A slices_S128x3_S128x1_0_2) shapeCasts_S128x1_S128)
    (broadcastInDim S128 ![] bcast_S_S128 (constant (F := Ideal) S_ .f32 0x43800000#32))

/-- The average over the 128 samples: the sum from zero, over 128. -/
def avg (r : Vec Ideal S128 .f32) : Vec Ideal S_ .f32 :=
  Host.divf (Host.reduceAdd r (constant (F := Ideal) S_ .f32 0x00000000#32) reducesTo_S128_S_d0 h_S_)
    (constant (F := Ideal) S_ .f32 0x43000000#32)

/-- The total loss from the three averages. -/
def combine (a b l : Vec Ideal S_ .f32) : Vec Ideal S_ .f32 :=
  addf (mulf (constant (F := Ideal) S_ .f32 0x3F000000#32)
      (addf (mulf (constant (F := Ideal) S_ .f32 0x3F000000#32) a) (mulf (constant (F := Ideal) S_ .f32 0x3F000000#32) b)))
    (mulf (constant (F := Ideal) S_ .f32 0x3F000000#32) l)

variable (m : (ℓ : Loc nD τ sig) → Buf (Elt Ideal) ℓ)

/-- What the operations after the launch find in the launch's result array: the array of sums. -/
theorem tail_array (c : Dev nD) :
    Pipeline.withArrays spec0 c (V0 m c) (fun w => (dats m 0 c).arrAt w cfg0.N) (Proc.devRef .tc main_v14) = sums m c :=
  (Pipeline.withArrays_arr spec0 launch0.win.arr_inj c _ _ 5).trans (final5 m c)

/-- The four results, as the operations after the launch compute them from the array of sums. -/
theorem tail_negM (c : Dev nD) :
    Pipeline.afterTail₀ cfgs (dats m) 0 (V0 m) [hostOps1] c main_v28 = avg (mean0 (sums m c)) := by
  unfold Pipeline.afterTail₀
  show StableHlo.after hostOps1 _ (Proc.devRef .tc main_v28) = _
  after_results
  rw [tail_array]
  rfl

theorem tail_posM (c : Dev nD) :
    Pipeline.afterTail₀ cfgs (dats m) 0 (V0 m) [hostOps1] c main_v30 = avg (mean1 (sums m c)) := by
  unfold Pipeline.afterTail₀
  show StableHlo.after hostOps1 _ (Proc.devRef .tc main_v30) = _
  after_results
  rw [tail_array]
  rfl

theorem tail_locM (c : Dev nD) :
    Pipeline.afterTail₀ cfgs (dats m) 0 (V0 m) [hostOps1] c main_v32 = avg (mean2 (sums m c)) := by
  unfold Pipeline.afterTail₀
  show StableHlo.after hostOps1 _ (Proc.devRef .tc main_v32) = _
  after_results
  rw [tail_array]
  rfl

theorem tail_loss (c : Dev nD) :
    Pipeline.afterTail₀ cfgs (dats m) 0 (V0 m) [hostOps1] c main_v38
      = combine (avg (mean0 (sums m c))) (avg (mean1 (sums m c))) (avg (mean2 (sums m c))) := by
  unfold Pipeline.afterTail₀
  show StableHlo.after hostOps1 _ (Proc.devRef .tc main_v38) = _
  after_results_simp
  rw [tail_array]
  rfl

end Cert.KernelIdeal.KTail

end
-- ==== Proof.LibGather3.lean ====
/-
  THE HOST'S GATHER READ AT A RESULT INDEX, for three shapes of dimension numbers.

  (a) One batching axis 0, gathered axis 1, the trailing axis kept whole: operand [B, A, C], start indices [B, N, 1]
      with the index vector on axis 2, result [B, N, C]. Result element (b, n, c) is the operand at (b, i, c), where i
      is idx[b, n, 0] read signed and clamped into [0, A - 1].
  (b) Two batching axes 0 and 1, gathered axis 2, no offset axis: operand [B, K, A], start indices [B, K, N, 1] with
      the index vector on axis 3, result [B, K, N]. Result element (b, k, n) is the operand at (b, k, i), where i is
      idx[b, k, n, 0] read signed and clamped into [0, A - 1].
  (c) No batching axis, whole rows of a table gathered at a rank-3 array of start indices: operand [P, C], start
      indices [B, N, 1] with the index vector on axis 2, result [B, N, C]. Result element (b, n, c) is the operand at
      (i, c), where i is idx[b, n, 0] read signed and clamped into [0, P - 1].

  The extents and the index width are variables; the dimension numbers are known only through the equations on the
  record's lists. The operand index is computed axis by axis: on each operand axis it is the clamped start (zero off
  the start index map) plus the batching coordinate (zero off the batching axes) plus the offset coordinate (zero on
  a collapsed or batching axis).
-/
import Idealize.ShloMosaic.PureOps.ShapeOps
import Idealize.ShloMosaic.Lib.ValueIdx

namespace Idealize.ShloMosaic.Gather3

open Idealize.ShloMosaic Idealize.ShloMosaic.ValueIdx

/-! ## The general gather: the coordinates of a result index, axis by axis -/

section General
variable {s si t : Shape} (d : GatherDims s si t)

/-- The coordinate a result index gives a start-indices axis b (not the index vector's) is its coordinate on the
    result batch axis that stands in b's position. -/
theorem siCoord_val (j : t.Idx) (b : Fin si.rank) (hb : b ∈ d.siKept) (a : Fin t.rank)
    (ha : d.batchDims[d.siKept.idxOf b]? = some a) : (d.siCoord j b hb).val = (j a).val := by
  obtain ⟨h, e⟩ := List.getElem?_eq_some_iff.1 ha
  unfold GatherDims.siCoord
  exact congrArg (fun e => (j e).val) e

/-- On the index vector's axis the start-indices index has the component's number. -/
theorem siIdx_val_of_eq (j : t.Idx) (c : Fin d.startIndexMap.length) (b : Fin si.rank)
    (hb : b.val = d.indexVectorDim) : (d.siIdx j c b).val = c.val := by
  unfold GatherDims.siIdx
  rw [dif_pos hb]

/-- Off the index vector's axis the start-indices index has, on axis b, the result index's coordinate on the result
    batch axis that stands in b's position. -/
theorem siIdx_val_of_ne (j : t.Idx) (c : Fin d.startIndexMap.length) (b : Fin si.rank)
    (hb : ¬ b.val = d.indexVectorDim) (a : Fin t.rank) (ha : d.batchDims[d.siKept.idxOf b]? = some a) :
    (d.siIdx j c b).val = (j a).val := by
  unfold GatherDims.siIdx
  rw [dif_neg hb]
  exact siCoord_val d j b _ a ha

/-- On a batching operand axis a, paired with the start-indices batching axis b, the batching coordinate is the
    result index's coordinate on the result batch axis that stands in b's position. -/
theorem batchCoord_val (j : t.Idx) (a : Fin s.rank) (ha : a ∈ d.operandBatchingDims) (b : Fin si.rank)
    (hb : d.startIndicesBatchingDims[d.operandBatchingDims.idxOf a]? = some b) (c : Fin t.rank)
    (hc : d.batchDims[d.siKept.idxOf b]? = some c) : d.batchCoord j a = (j c).val := by
  obtain ⟨h, e⟩ := List.getElem?_eq_some_iff.1 hb
  unfold GatherDims.batchCoord
  rw [dif_pos ha]
  subst e
  exact siCoord_val d j _ _ c hc

/-- On a kept operand axis a the offset coordinate is the result index's coordinate on the offset axis that stands
    in a's position among the kept axes. -/
theorem offCoord_val (j : t.Idx) (a : Fin s.rank) (ha : a ∈ d.sKept) (b : Fin t.rank)
    (hb : d.offsetDims[d.sKept.idxOf a]? = some b) : d.offCoord j a = (j b).val := by
  obtain ⟨h, e⟩ := List.getElem?_eq_some_iff.1 hb
  unfold GatherDims.offCoord
  rw [dif_pos ha]
  exact congrArg (fun e => (j e).val) e

end General

/-! ## (a) Operand [B, A, C], start indices [B, N, 1], result [B, N, C] -/

/-- THE GATHER ALONG THE MIDDLE AXIS READ AT (b, n, c): the operand at batch b, the clamped start on axis 1, and
    trailing coordinate c. -/
theorem gather_mid_apply {α : Type} {B A C N w : Nat} (hA : 0 < A)
    (d : GatherDims (⟨3, ![B, A, C]⟩ : Shape) (⟨3, ![B, N, 1]⟩ : Shape) (⟨3, ![B, N, C]⟩ : Shape))
    (hod : d.offsetDims = [2]) (hcs : d.collapsedSliceDims = [1]) (hob : d.operandBatchingDims = [0])
    (hsb : d.startIndicesBatchingDims = [0]) (hsm : d.startIndexMap = [1]) (hiv : d.indexVectorDim = 2)
    (hss : d.sliceSizes = ![1, 1, C])
    (x : (⟨3, ![B, A, C]⟩ : Shape).Idx → α) (idx : IVec (⟨3, ![B, N, 1]⟩ : Shape) w)
    (b : Fin B) (n : Fin N) (c : Fin C) :
    Host.gather d x idx (ix3 b n c)
      = x (ix3 b (⟨min (idx (ix3 b n (0 : Fin 1))).toInt.toNat (A - 1), by omega⟩ : Fin A) c) := by
  have h10 : ¬ (1 : Fin 3) = 0 := fun h => absurd (congrArg Fin.val h) (by decide)
  have h21 : ¬ (2 : Fin 3) = 1 := fun h => absurd (congrArg Fin.val h) (by decide)
  have h20 : ¬ (2 : Fin 3) = 0 := fun h => absurd (congrArg Fin.val h) (by decide)
  -- axis 0 is the batching axis, axis 1 the start axis (collapsed), axis 2 the kept axis
  have hb0 : (0 : Fin 3) ∈ d.operandBatchingDims := by rw [hob]; exact List.mem_singleton.2 rfl
  have hb1 : (1 : Fin 3) ∉ d.operandBatchingDims := by rw [hob]; exact fun h => h10 (List.mem_singleton.1 h)
  have hb2 : (2 : Fin 3) ∉ d.operandBatchingDims := by rw [hob]; exact fun h => h20 (List.mem_singleton.1 h)
  have hm1 : (1 : Fin 3) ∈ d.startIndexMap := by rw [hsm]; exact List.mem_singleton.2 rfl
  have hm2 : (2 : Fin 3) ∉ d.startIndexMap := by rw [hsm]; exact fun h => h21 (List.mem_singleton.1 h)
  have hk0 : (0 : Fin 3) ∉ d.sKept := fun h => ((d.mem_sKept 0).1 h).2 hb0
  have hk1 : (1 : Fin 3) ∉ d.sKept := fun h =>
    ((d.mem_sKept 1).1 h).1 (by rw [hcs]; exact List.mem_singleton.2 rfl)
  have hk2 : (2 : Fin 3) ∈ d.sKept :=
    (d.mem_sKept 2).2 ⟨by rw [hcs]; exact fun h => h21 (List.mem_singleton.1 h), hb2⟩
  -- result batch axes 0 and 1 stand in the positions of start-indices axes 0 and 1
  have hp0 : d.batchDims[d.siKept.idxOf (0 : Fin 3)]? = some (0 : Fin 3) := by
    show (Shape.kept _ d.offsetDims)[((List.finRange 3).filter (·.val ≠ d.indexVectorDim)).idxOf (0 : Fin 3)]? = _
    rw [hod, hiv]; rfl
  have hp1 : d.batchDims[d.siKept.idxOf (1 : Fin 3)]? = some (1 : Fin 3) := by
    show (Shape.kept _ d.offsetDims)[((List.finRange 3).filter (·.val ≠ d.indexVectorDim)).idxOf (1 : Fin 3)]? = _
    rw [hod, hiv]; rfl
  -- the start-indices index of (b, n, c) is [b, n, 0], whatever the component
  have hsi : ∀ k : Fin d.startIndexMap.length, d.siIdx (ix3 b n c) k = ix3 b n (0 : Fin 1) := by
    intro k
    funext e
    refine Fin.ext ?_
    match e with
    | ⟨0, he⟩ =>
      rw [siIdx_val_of_ne d (ix3 b n c) k ⟨0, he⟩ (by rw [hiv]; exact (by decide : ¬ (0 : Nat) = 2)) 0 hp0]
      rfl
    | ⟨1, he⟩ =>
      rw [siIdx_val_of_ne d (ix3 b n c) k ⟨1, he⟩ (by rw [hiv]; exact (by decide : ¬ (1 : Nat) = 2)) 1 hp1]
      rfl
    | ⟨2, he⟩ =>
      have h1 : (d.siIdx (ix3 b n c) k ⟨2, he⟩).val < 1 := (d.siIdx (ix3 b n c) k ⟨2, he⟩).isLt
      show (d.siIdx (ix3 b n c) k ⟨2, he⟩).val = 0
      omega
  unfold Host.gather
  congr 1
  funext a
  refine Fin.ext ?_
  match a with
  | ⟨0, _⟩ =>
    show d.start (ix3 b n c) idx 0 + d.batchCoord (ix3 b n c) 0 + d.offCoord (ix3 b n c) 0 = b.val
    rw [d.start_batching _ _ _ hb0, d.offCoord_eq_zero _ _ hk0,
      batchCoord_val d _ _ hb0 (0 : Fin 3) (by rw [hob, hsb]; rfl) 0 hp0, Nat.zero_add, Nat.add_zero]
    rfl
  | ⟨1, _⟩ =>
    show d.start (ix3 b n c) idx 1 + d.batchCoord (ix3 b n c) 1 + d.offCoord (ix3 b n c) 1
      = min (idx (ix3 b n (0 : Fin 1))).toInt.toNat (A - 1)
    rw [d.batchCoord_eq_zero _ _ hb1, d.offCoord_eq_zero _ _ hk1]
    simp only [Nat.add_zero]
    unfold GatherDims.start
    rw [dif_pos hm1, hsi, hss]
    rfl
  | ⟨2, _⟩ =>
    show d.start (ix3 b n c) idx 2 + d.batchCoord (ix3 b n c) 2 + d.offCoord (ix3 b n c) 2 = c.val
    rw [d.batchCoord_eq_zero _ _ hb2, offCoord_val d _ _ hk2 (2 : Fin 3) (by
      show d.offsetDims[(Shape.kept _ (d.collapsedSliceDims ++ d.operandBatchingDims)).idxOf (2 : Fin 3)]? = _
      rw [hod, hcs, hob]; rfl)]
    unfold GatherDims.start
    rw [dif_neg hm2]
    show 0 + 0 + c.val = c.val
    omega

/-! ## (b) Operand [B, K, A], start indices [B, K, N, 1], result [B, K, N] -/

/-- THE GATHER ALONG THE LAST AXIS READ AT (b, k, n): the operand at batch coordinates b and k and the clamped
    start on axis 2. -/
theorem gather_last_apply {α : Type} {B K A N w : Nat} (hA : 0 < A)
    (d : GatherDims (⟨3, ![B, K, A]⟩ : Shape) (⟨4, ![B, K, N, 1]⟩ : Shape) (⟨3, ![B, K, N]⟩ : Shape))
    (hod : d.offsetDims = []) (hcs : d.collapsedSliceDims = [2]) (hob : d.operandBatchingDims = [0, 1])
    (hsb : d.startIndicesBatchingDims = [0, 1]) (hsm : d.startIndexMap = [2]) (hiv : d.indexVectorDim = 3)
    (hss : d.sliceSizes = ![1, 1, 1])
    (x : (⟨3, ![B, K, A]⟩ : Shape).Idx → α) (idx : IVec (⟨4, ![B, K, N, 1]⟩ : Shape) w)
    (b : Fin B) (k : Fin K) (n : Fin N) :
    Host.gather d x idx (ix3 b k n)
      = x (ix3 b k (⟨min (idx (ix4 b k n (0 : Fin 1))).toInt.toNat (A - 1), by omega⟩ : Fin A)) := by
  have h20 : ¬ (2 : Fin 3) = 0 := fun h => absurd (congrArg Fin.val h) (by decide)
  have h21 : ¬ (2 : Fin 3) = 1 := fun h => absurd (congrArg Fin.val h) (by decide)
  -- axes 0 and 1 are the batching axes, axis 2 the start axis (collapsed); no axis is kept
  have hb0 : (0 : Fin 3) ∈ d.operandBatchingDims := by rw [hob]; exact List.mem_cons_self
  have hb1 : (1 : Fin 3) ∈ d.operandBatchingDims := by
    rw [hob]; exact List.mem_cons_of_mem _ (List.mem_singleton.2 rfl)
  have hb2 : (2 : Fin 3) ∉ d.operandBatchingDims := by
    rw [hob]
    intro h
    rcases List.mem_cons.1 h with h | h
    · exact h20 h
    · exact h21 (List.mem_singleton.1 h)
  have hm2 : (2 : Fin 3) ∈ d.startIndexMap := by rw [hsm]; exact List.mem_singleton.2 rfl
  have hk0 : (0 : Fin 3) ∉ d.sKept := fun h => ((d.mem_sKept 0).1 h).2 hb0
  have hk1 : (1 : Fin 3) ∉ d.sKept := fun h => ((d.mem_sKept 1).1 h).2 hb1
  have hk2 : (2 : Fin 3) ∉ d.sKept := fun h =>
    ((d.mem_sKept 2).1 h).1 (by rw [hcs]; exact List.mem_singleton.2 rfl)
  -- result batch axes 0, 1 and 2 stand in the positions of start-indices axes 0, 1 and 2
  have hp0 : d.batchDims[d.siKept.idxOf (0 : Fin 4)]? = some (0 : Fin 3) := by
    show (Shape.kept _ d.offsetDims)[((List.finRange 4).filter (·.val ≠ d.indexVectorDim)).idxOf (0 : Fin 4)]? = _
    rw [hod, hiv]; rfl
  have hp1 : d.batchDims[d.siKept.idxOf (1 : Fin 4)]? = some (1 : Fin 3) := by
    show (Shape.kept _ d.offsetDims)[((List.finRange 4).filter (·.val ≠ d.indexVectorDim)).idxOf (1 : Fin 4)]? = _
    rw [hod, hiv]; rfl
  have hp2 : d.batchDims[d.siKept.idxOf (2 : Fin 4)]? = some (2 : Fin 3) := by
    show (Shape.kept _ d.offsetDims)[((List.finRange 4).filter (·.val ≠ d.indexVectorDim)).idxOf (2 : Fin 4)]? = _
    rw [hod, hiv]; rfl
  -- the start-indices index of (b, k, n) is [b, k, n, 0], whatever the component
  have hsi : ∀ c : Fin d.startIndexMap.length, d.siIdx (ix3 b k n) c = ix4 b k n (0 : Fin 1) := by
    intro c
    funext e
    refine Fin.ext ?_
    match e with
    | ⟨0, he⟩ =>
      rw [siIdx_val_of_ne d (ix3 b k n) c ⟨0, he⟩ (by rw [hiv]; exact (by decide : ¬ (0 : Nat) = 3)) 0 hp0]
      rfl
    | ⟨1, he⟩ =>
      rw [siIdx_val_of_ne d (ix3 b k n) c ⟨1, he⟩ (by rw [hiv]; exact (by decide : ¬ (1 : Nat) = 3)) 1 hp1]
      rfl
    | ⟨2, he⟩ =>
      rw [siIdx_val_of_ne d (ix3 b k n) c ⟨2, he⟩ (by rw [hiv]; exact (by decide : ¬ (2 : Nat) = 3)) 2 hp2]
      rfl
    | ⟨3, he⟩ =>
      have h1 : (d.siIdx (ix3 b k n) c ⟨3, he⟩).val < 1 := (d.siIdx (ix3 b k n) c ⟨3, he⟩).isLt
      show (d.siIdx (ix3 b k n) c ⟨3, he⟩).val = 0
      omega
  unfold Host.gather
  congr 1
  funext a
  refine Fin.ext ?_
  match a with
  | ⟨0, _⟩ =>
    show d.start (ix3 b k n) idx 0 + d.batchCoord (ix3 b k n) 0 + d.offCoord (ix3 b k n) 0 = b.val
    rw [d.start_batching _ _ _ hb0, d.offCoord_eq_zero _ _ hk0,
      batchCoord_val d _ _ hb0 (0 : Fin 4) (by rw [hob, hsb]; rfl) 0 hp0, Nat.zero_add, Nat.add_zero]
    rfl
  | ⟨1, _⟩ =>
    show d.start (ix3 b k n) idx 1 + d.batchCoord (ix3 b k n) 1 + d.offCoord (ix3 b k n) 1 = k.val
    rw [d.start_batching _ _ _ hb1, d.offCoord_eq_zero _ _ hk1,
      batchCoord_val d _ _ hb1 (1 : Fin 4) (by rw [hob, hsb]; rfl) 1 hp1, Nat.zero_add, Nat.add_zero]
    rfl
  | ⟨2, _⟩ =>
    show d.start (ix3 b k n) idx 2 + d.batchCoord (ix3 b k n) 2 + d.offCoord (ix3 b k n) 2
      = min (idx (ix4 b k n (0 : Fin 1))).toInt.toNat (A - 1)
    rw [d.batchCoord_eq_zero _ _ hb2, d.offCoord_eq_zero _ _ hk2]
    simp only [Nat.add_zero]
    unfold GatherDims.start
    rw [dif_pos hm2, hsi, hss]
    rfl

/-! ## (c) Operand [P, C], start indices [B, N, 1], result [B, N, C] -/

/-- THE GATHER OF WHOLE ROWS AT A RANK-3 ARRAY OF START INDICES READ AT (b, n, c): the operand at the clamped start
    row and column c. -/
theorem gather_rows3_apply {α : Type} {P C B N w : Nat} (hP : 0 < P)
    (d : GatherDims (⟨2, ![P, C]⟩ : Shape) (⟨3, ![B, N, 1]⟩ : Shape) (⟨3, ![B, N, C]⟩ : Shape))
    (hod : d.offsetDims = [2]) (hcs : d.collapsedSliceDims = [0]) (hob : d.operandBatchingDims = [])
    (hsb : d.startIndicesBatchingDims = []) (hsm : d.startIndexMap = [0]) (hiv : d.indexVectorDim = 2)
    (hss : d.sliceSizes = ![1, C])
    (x : (⟨2, ![P, C]⟩ : Shape).Idx → α) (idx : IVec (⟨3, ![B, N, 1]⟩ : Shape) w)
    (b : Fin B) (n : Fin N) (c : Fin C) :
    Host.gather d x idx (ix3 b n c)
      = x (ix2 (⟨min (idx (ix3 b n (0 : Fin 1))).toInt.toNat (P - 1), by omega⟩ : Fin P) c) := by
  have h10 : ¬ (1 : Fin 2) = 0 := fun h => absurd (congrArg Fin.val h) (by decide)
  -- no operand axis is a batching axis; axis 0 is the start axis (collapsed), axis 1 the kept axis
  have hnb : ∀ a : Fin 2, a ∉ d.operandBatchingDims := fun a h => by rw [hob] at h; exact List.not_mem_nil h
  have hm0 : (0 : Fin 2) ∈ d.startIndexMap := by rw [hsm]; exact List.mem_singleton.2 rfl
  have hm1 : (1 : Fin 2) ∉ d.startIndexMap := by rw [hsm]; exact fun h => h10 (List.mem_singleton.1 h)
  have hk0 : (0 : Fin 2) ∉ d.sKept := fun h =>
    ((d.mem_sKept 0).1 h).1 (by rw [hcs]; exact List.mem_singleton.2 rfl)
  have hk1 : (1 : Fin 2) ∈ d.sKept :=
    (d.mem_sKept 1).2 ⟨by rw [hcs]; exact fun h => h10 (List.mem_singleton.1 h), hnb 1⟩
  -- result batch axes 0 and 1 stand in the positions of start-indices axes 0 and 1
  have hp0 : d.batchDims[d.siKept.idxOf (0 : Fin 3)]? = some (0 : Fin 3) := by
    show (Shape.kept _ d.offsetDims)[((List.finRange 3).filter (·.val ≠ d.indexVectorDim)).idxOf (0 : Fin 3)]? = _
    rw [hod, hiv]; rfl
  have hp1 : d.batchDims[d.siKept.idxOf (1 : Fin 3)]? = some (1 : Fin 3) := by
    show (Shape.kept _ d.offsetDims)[((List.finRange 3).filter (·.val ≠ d.indexVectorDim)).idxOf (1 : Fin 3)]? = _
    rw [hod, hiv]; rfl
  -- the start-indices index of (b, n, c) is [b, n, 0], whatever the component
  have hsi : ∀ k : Fin d.startIndexMap.length, d.siIdx (ix3 b n c) k = ix3 b n (0 : Fin 1) := by
    intro k
    funext e
    refine Fin.ext ?_
    match e with
    | ⟨0, he⟩ =>
      rw [siIdx_val_of_ne d (ix3 b n c) k ⟨0, he⟩ (by rw [hiv]; exact (by decide : ¬ (0 : Nat) = 2)) 0 hp0]
      rfl
    | ⟨1, he⟩ =>
      rw [siIdx_val_of_ne d (ix3 b n c) k ⟨1, he⟩ (by rw [hiv]; exact (by decide : ¬ (1 : Nat) = 2)) 1 hp1]
      rfl
    | ⟨2, he⟩ =>
      have h1 : (d.siIdx (ix3 b n c) k ⟨2, he⟩).val < 1 := (d.siIdx (ix3 b n c) k ⟨2, he⟩).isLt
      show (d.siIdx (ix3 b n c) k ⟨2, he⟩).val = 0
      omega
  unfold Host.gather
  congr 1
  funext a
  refine Fin.ext ?_
  match a with
  | ⟨0, _⟩ =>
    show d.start (ix3 b n c) idx 0 + d.batchCoord (ix3 b n c) 0 + d.offCoord (ix3 b n c) 0
      = min (idx (ix3 b n (0 : Fin 1))).toInt.toNat (P - 1)
    rw [d.batchCoord_eq_zero _ _ (hnb 0), d.offCoord_eq_zero _ _ hk0]
    simp only [Nat.add_zero]
    unfold GatherDims.start
    rw [dif_pos hm0, hsi, hss]
    rfl
  | ⟨1, _⟩ =>
    show d.start (ix3 b n c) idx 1 + d.batchCoord (ix3 b n c) 1 + d.offCoord (ix3 b n c) 1 = c.val
    rw [d.batchCoord_eq_zero _ _ (hnb 1), offCoord_val d _ _ hk1 (2 : Fin 3) (by
      show d.offsetDims[(Shape.kept _ (d.collapsedSliceDims ++ d.operandBatchingDims)).idxOf (1 : Fin 2)]? = _
      rw [hod, hcs, hob]; rfl)]
    unfold GatherDims.start
    rw [dif_neg hm1]
    show 0 + 0 + c.val = c.val
    omega

/-! ## The three readings at concrete dimension numbers

Each set of hypotheses is satisfiable: at the records below every list equation holds by unfolding. -/

/-- Dimension numbers of shape (a): operand [128, 65536, 2], start indices [128, 2048, 1], result [128, 2048, 2]. -/
private def midDims : GatherDims ⟨3, ![128, 65536, 2]⟩ ⟨3, ![128, 2048, 1]⟩ ⟨3, ![128, 2048, 2]⟩ :=
  { offsetDims := [2], collapsedSliceDims := [1], operandBatchingDims := [0], startIndicesBatchingDims := [0],
    startIndexMap := [1], indexVectorDim := 2, sliceSizes := ![1, 1, 2] }

example {α : Type} (x : (⟨3, ![128, 65536, 2]⟩ : Shape).Idx → α) (idx : IVec ⟨3, ![128, 2048, 1]⟩ 32)
    (b : Fin 128) (n : Fin 2048) (c : Fin 2) :
    Host.gather midDims x idx (ix3 b n c)
      = x (ix3 b (⟨min (idx (ix3 b n (0 : Fin 1))).toInt.toNat (65536 - 1), by omega⟩ : Fin 65536) c) :=
  gather_mid_apply (by decide) midDims rfl rfl rfl rfl rfl rfl rfl x idx b n c

/-- Dimension numbers of shape (a) with fewer start indices: operand [128, 65536, 2], start indices [128, 64, 1],
    result [128, 64, 2]. -/
private def midDims64 : GatherDims ⟨3, ![128, 65536, 2]⟩ ⟨3, ![128, 64, 1]⟩ ⟨3, ![128, 64, 2]⟩ :=
  { offsetDims := [2], collapsedSliceDims := [1], operandBatchingDims := [0], startIndicesBatchingDims := [0],
    startIndexMap := [1], indexVectorDim := 2, sliceSizes := ![1, 1, 2] }

example {α : Type} (x : (⟨3, ![128, 65536, 2]⟩ : Shape).Idx → α) (idx : IVec ⟨3, ![128, 64, 1]⟩ 32)
    (b : Fin 128) (n : Fin 64) (c : Fin 2) :
    Host.gather midDims64 x idx (ix3 b n c)
      = x (ix3 b (⟨min (idx (ix3 b n (0 : Fin 1))).toInt.toNat (65536 - 1), by omega⟩ : Fin 65536) c) :=
  gather_mid_apply (by decide) midDims64 rfl rfl rfl rfl rfl rfl rfl x idx b n c

/-- Dimension numbers of shape (b): operand [128, 4, 65536], start indices [128, 4, 64, 1], result [128, 4, 64]. -/
private def lastDims : GatherDims ⟨3, ![128, 4, 65536]⟩ ⟨4, ![128, 4, 64, 1]⟩ ⟨3, ![128, 4, 64]⟩ :=
  { offsetDims := [], collapsedSliceDims := [2], operandBatchingDims := [0, 1], startIndicesBatchingDims := [0, 1],
    startIndexMap := [2], indexVectorDim := 3, sliceSizes := ![1, 1, 1] }

example {α : Type} (x : (⟨3, ![128, 4, 65536]⟩ : Shape).Idx → α) (idx : IVec ⟨4, ![128, 4, 64, 1]⟩ 32)
    (b : Fin 128) (k : Fin 4) (n : Fin 64) :
    Host.gather lastDims x idx (ix3 b k n)
      = x (ix3 b k (⟨min (idx (ix4 b k n (0 : Fin 1))).toInt.toNat (65536 - 1), by omega⟩ : Fin 65536)) :=
  gather_last_apply (by decide) lastDims rfl rfl rfl rfl rfl rfl rfl x idx b k n

/-- Dimension numbers of shape (c): operand [65536, 4], start indices [128, 64, 1], result [128, 64, 4]. -/
private def rowsDims : GatherDims ⟨2, ![65536, 4]⟩ ⟨3, ![128, 64, 1]⟩ ⟨3, ![128, 64, 4]⟩ :=
  { offsetDims := [2], collapsedSliceDims := [0], operandBatchingDims := [], startIndicesBatchingDims := [],
    startIndexMap := [0], indexVectorDim := 2, sliceSizes := ![1, 4] }

example {α : Type} (x : (⟨2, ![65536, 4]⟩ : Shape).Idx → α) (idx : IVec ⟨3, ![128, 64, 1]⟩ 32)
    (b : Fin 128) (n : Fin 64) (c : Fin 4) :
    Host.gather rowsDims x idx (ix3 b n c)
      = x (ix2 (⟨min (idx (ix3 b n (0 : Fin 1))).toInt.toNat (65536 - 1), by omega⟩ : Fin 65536) c) :=
  gather_rows3_apply (by decide) rowsDims rfl rfl rfl rfl rfl rfl rfl x idx b n c

end Idealize.ShloMosaic.Gather3
-- ==== Proof.LibReduceTail.lean ====
/-
  Host reductions over SHORT TRAILING AXES, read at a result index.

  A one-operand host reduction (`Host.reduce`) is a left fold, from the initial value's element, over the operand
  indices whose coordinates on the kept axes are the result index's; for a commutative and associative body the
  order is immaterial, and over ONE reduced axis those indices are the result index with each coordinate of the
  reduced axis inserted. When the reduced axis is the LAST one and has one or two coordinates the fold is one or two
  applications of the body, written out here: a trailing axis of extent 1 under the bitwise "and" (ranks 3 and 4), a
  trailing axis of extent 2 under the maximum of extended reals. The float sum (`Host.reduceAdd`, at the ideal values
  the initial value plus the exact sum) over the TWO trailing axes of a rank-3 operand is the double sum over their
  coordinates. The leading extents are variables throughout.
-/
import Idealize.ShloMosaic.PureOps.Contract
import Idealize.ShloMosaic.PureOps.Reduce
import Idealize.ShloMosaic.PureOps.Ideal
import Idealize.ShloMosaic.PureOps.Ideal.Laws
import Idealize.ShloMosaic.Lib.ValueIdx

open scoped BigOperators

namespace Idealize.ShloMosaic.ReduceTail

open Idealize.ShloMosaic Idealize.ShloMosaic.ValueIdx

/-! ## Folds over one and two coordinates -/

/-- The fold of a commutative operation over the one coordinate of `Fin 1`: the operation applied once, to the
    initial value and the function's value at `0`. -/
theorem fold_fin_one {α : Type} (op : α → α → α) [Std.Commutative op] [Std.Associative op] (init : α) (g : Fin 1 → α) :
    (Finset.univ : Finset (Fin 1)).fold op init g = op init (g 0) := by
  rw [Finset.univ_unique, Finset.fold_singleton, Std.Commutative.comm (op := op)]
  rfl

/-- The fold of a commutative and associative operation over the two coordinates of `Fin 2`: the initial value
    combined with the combination of the function's values at `0` and `1`. -/
theorem fold_fin_two {α : Type} (op : α → α → α) [Std.Commutative op] [Std.Associative op] (init : α) (g : Fin 2 → α) :
    (Finset.univ : Finset (Fin 2)).fold op init g = op init (op (g 0) (g 1)) := by
  have hu : (Finset.univ : Finset (Fin 2)) = insert 0 {1} := by decide
  rw [hu, Finset.fold_insert (by decide), Finset.fold_singleton, ← Std.Associative.assoc (op := op),
    Std.Commutative.comm (op := op)]

/-! ## The bitwise "and" over a trailing axis of extent 1 -/

/-- A host reduction by "and" over the last axis of a `B × N × 1` array of bits, at `(b, n)`: the fold runs over the
    one index `(b, n, 0)`, so it is the initial value's element "and" the operand there. -/
theorem reduce_and_tail1_rank3 {B N : Nat} {u : Shape} (x : (⟨3, ![B, N, 1]⟩ : Shape).Idx → BitVec 1)
    (init : u.Idx → BitVec 1) (h' : (⟨3, ![B, N, 1]⟩ : Shape).ReducesTo [2] ⟨2, ![B, N]⟩) (hu : 0 < u.numel)
    (b : Fin B) (n : Fin N) :
    Host.reduce IntOp.andi x init h' hu (ix2 b n)
      = IntOp.andi (init (Shape.Idx.first hu)) (x (ix3 b n (0 : Fin 1))) := by
  have h : (⟨3, ![B, N, 1]⟩ : Shape).Reduces [2] ⟨2, ![B, N]⟩ := ⟨h'.1, Nat.zero_lt_two, h'.2⟩
  rw [Host.reduce_eq_fold_single IntOp.andi x init h' h hu (ix2 b n)]
  refine (fold_fin_one IntOp.andi (init (Shape.Idx.first hu)) (x ∘ h.lift (ix2 b n))).trans ?_
  show IntOp.andi _ (x _) = IntOp.andi _ (x _)
  congr 2
  funext c
  match c with
  | ⟨0, _⟩ => rfl
  | ⟨1, _⟩ => rfl
  | ⟨2, _⟩ => rfl

/-- The same over the last axis of a `B × K × N × 1` array of bits, at `(b, k, n)`: the initial value's element
    "and" the operand at `(b, k, n, 0)`. -/
theorem reduce_and_tail1_rank4 {B K N : Nat} {u : Shape} (x : (⟨4, ![B, K, N, 1]⟩ : Shape).Idx → BitVec 1)
    (init : u.Idx → BitVec 1) (h' : (⟨4, ![B, K, N, 1]⟩ : Shape).ReducesTo [3] ⟨3, ![B, K, N]⟩) (hu : 0 < u.numel)
    (b : Fin B) (k : Fin K) (n : Fin N) :
    Host.reduce IntOp.andi x init h' hu (ix3 b k n)
      = IntOp.andi (init (Shape.Idx.first hu)) (x (ix4 b k n (0 : Fin 1))) := by
  have h : (⟨4, ![B, K, N, 1]⟩ : Shape).Reduces [3] ⟨3, ![B, K, N]⟩ := ⟨h'.1, Nat.succ_pos 2, h'.2⟩
  rw [Host.reduce_eq_fold_single IntOp.andi x init h' h hu (ix3 b k n)]
  refine (fold_fin_one IntOp.andi (init (Shape.Idx.first hu)) (x ∘ h.lift (ix3 b k n))).trans ?_
  show IntOp.andi _ (x _) = IntOp.andi _ (x _)
  congr 2
  funext c
  match c with
  | ⟨0, _⟩ => rfl
  | ⟨1, _⟩ => rfl
  | ⟨2, _⟩ => rfl
  | ⟨3, _⟩ => rfl

/-! ## The maximum over a trailing axis of extent 2 -/

/-- A host reduction by the float maximum over the last axis of a `B × N × 2` array, read at the ideal values (where
    the maximum is `max` on the extended reals) at `(b, n)`: the maximum of the initial value's element and of the
    operand at `(b, n, 0)` and `(b, n, 1)`. -/
theorem reduce_max_tail2 {B N : Nat} {u : Shape} {φ : FTy} (x : (⟨3, ![B, N, 2]⟩ : Shape).Idx → Ideal φ)
    (init : u.Idx → Ideal φ) (h' : (⟨3, ![B, N, 2]⟩ : Shape).ReducesTo [2] ⟨2, ![B, N]⟩) (hu : 0 < u.numel)
    (b : Fin B) (n : Fin N) :
    Host.reduce (FloatOps.maximumf (F := Ideal) (φ := φ)) x init h' hu (ix2 b n)
      = max (init (Shape.Idx.first hu)) (max (x (ix3 b n (0 : Fin 2))) (x (ix3 b n (1 : Fin 2)))) := by
  have h : (⟨3, ![B, N, 2]⟩ : Shape).Reduces [2] ⟨2, ![B, N]⟩ := ⟨h'.1, Nat.zero_lt_two, h'.2⟩
  rw [Host.reduce_eq_fold_single (FloatOps.maximumf (F := Ideal) (φ := φ)) x init h' h hu (ix2 b n)]
  refine (fold_fin_two (FloatOps.maximumf (F := Ideal) (φ := φ)) (init (Shape.Idx.first hu))
    (x ∘ h.lift (ix2 b n))).trans ?_
  show max _ (max (x _) (x _)) = max _ (max (x _) (x _))
  have e0 : h.lift (ix2 b n) (0 : Fin 2) = ix3 b n (0 : Fin 2) := by
    funext c
    match c with
    | ⟨0, _⟩ => rfl
    | ⟨1, _⟩ => rfl
    | ⟨2, _⟩ => rfl
  have e1 : h.lift (ix2 b n) (1 : Fin 2) = ix3 b n (1 : Fin 2) := by
    funext c
    match c with
    | ⟨0, _⟩ => rfl
    | ⟨1, _⟩ => rfl
    | ⟨2, _⟩ => rfl
  rw [e0, e1]

/-! ## The float sum over the two trailing axes of a rank-3 array -/

/-- Dropping the two trailing coordinates of `(a, p, k)` leaves `a`. -/
theorem drop_tail2_ix3 {B P K : Nat} (h' : (⟨3, ![B, P, K]⟩ : Shape).ReducesTo [1, 2] ⟨1, ![B]⟩)
    (a : Fin B) (p : Fin P) (k : Fin K) : h'.drop (ix3 a p k) = ix1 a := by
  funext c
  match c with
  | ⟨0, _⟩ => rfl

/-- The exact host sum over the two trailing axes of a `B × P × K` array of extended reals, at `b`: the initial
    value plus the double sum, over the coordinates `p` and `k` of those axes, of the operand at `(b, p, k)`. -/
theorem hostReduceAdd_tail2 {B P K : Nat} (x : (⟨3, ![B, P, K]⟩ : Shape).Idx → EReal) (init : EReal)
    (h' : (⟨3, ![B, P, K]⟩ : Shape).ReducesTo [1, 2] ⟨1, ![B]⟩) (b : Fin B) :
    Ideal.hostReduceAdd h' x init (ix1 b) = init + ∑ p : Fin P, ∑ k : Fin K, x (ix3 b p k) := by
  unfold Ideal.hostReduceAdd
  congr 1
  rw [← Finset.sum_product']
  have hb : ∀ i : (⟨3, ![B, P, K]⟩ : Shape).Idx, h'.drop i = ix1 b → ix3 b (i 1) (i 2) = i := by
    intro i hi
    have h0 : (i 0).val = b.val := congrArg Fin.val (congrFun hi (0 : Fin 1))
    funext c
    match c with
    | ⟨0, _⟩ => exact Fin.ext h0.symm
    | ⟨1, _⟩ => rfl
    | ⟨2, _⟩ => rfl
  refine Finset.sum_nbij' (fun i => (i 1, i 2)) (fun pk => ix3 b pk.1 pk.2) ?_ ?_ ?_ ?_ ?_
  · intro i _; exact Finset.mem_product.2 ⟨Finset.mem_univ _, Finset.mem_univ _⟩
  · intro pk _; exact Finset.mem_filter.2 ⟨Finset.mem_univ _, drop_tail2_ix3 h' b pk.1 pk.2⟩
  · intro i hi; exact hb i (Finset.mem_filter.1 hi).2
  · intro pk _; rfl
  · intro i hi; exact congrArg x (hb i (Finset.mem_filter.1 hi).2).symm

/-- The same stated on `Host.reduceAdd` itself: that sum at the ideal values over the two trailing axes of a
    `B × P × K` array, at `b`, is the initial value's element plus the double sum of the operand at `(b, p, k)`. -/
theorem reduceAdd_tail2 {B P K : Nat} {u : Shape} {φ : FTy} (x : FVec Ideal ⟨3, ![B, P, K]⟩ φ) (init : u.Idx → Ideal φ)
    (h' : (⟨3, ![B, P, K]⟩ : Shape).ReducesTo [1, 2] ⟨1, ![B]⟩) (hu : 0 < u.numel) (b : Fin B) :
    Host.reduceAdd (F := Ideal) x init h' hu (ix1 b)
      = init (Shape.Idx.first hu) + ∑ p : Fin P, ∑ k : Fin K, x (ix3 b p k) :=
  hostReduceAdd_tail2 x (init (Shape.Idx.first hu)) h' b

/-! ## The lemmas at literal extents -/

example (x : (⟨3, ![128, 2048, 1]⟩ : Shape).Idx → BitVec 1) (init : (⟨0, ![]⟩ : Shape).Idx → BitVec 1)
    (b : Fin 128) (n : Fin 2048) :
    Host.reduce IntOp.andi x init (by decide : (⟨3, ![128, 2048, 1]⟩ : Shape).ReducesTo [2] ⟨2, ![128, 2048]⟩)
        (by decide : 0 < (⟨0, ![]⟩ : Shape).numel) (ix2 b n)
      = IntOp.andi (init (Shape.Idx.first (by decide))) (x (ix3 b n 0)) :=
  reduce_and_tail1_rank3 x init _ _ b n

example (x : (⟨3, ![128, 64, 1]⟩ : Shape).Idx → BitVec 1) (init : (⟨0, ![]⟩ : Shape).Idx → BitVec 1)
    (b : Fin 128) (n : Fin 64) :
    Host.reduce IntOp.andi x init (by decide : (⟨3, ![128, 64, 1]⟩ : Shape).ReducesTo [2] ⟨2, ![128, 64]⟩)
        (by decide : 0 < (⟨0, ![]⟩ : Shape).numel) (ix2 b n)
      = IntOp.andi (init (Shape.Idx.first (by decide))) (x (ix3 b n 0)) :=
  reduce_and_tail1_rank3 x init _ _ b n

example (x : (⟨4, ![128, 4, 64, 1]⟩ : Shape).Idx → BitVec 1) (init : (⟨0, ![]⟩ : Shape).Idx → BitVec 1)
    (b : Fin 128) (k : Fin 4) (n : Fin 64) :
    Host.reduce IntOp.andi x init (by decide : (⟨4, ![128, 4, 64, 1]⟩ : Shape).ReducesTo [3] ⟨3, ![128, 4, 64]⟩)
        (by decide : 0 < (⟨0, ![]⟩ : Shape).numel) (ix3 b k n)
      = IntOp.andi (init (Shape.Idx.first (by decide))) (x (ix4 b k n 0)) :=
  reduce_and_tail1_rank4 x init _ _ b k n

example (x : FVec Ideal ⟨3, ![128, 2048, 2]⟩ .f32) (init : FVec Ideal ⟨0, ![]⟩ .f32) (b : Fin 128) (n : Fin 2048) :
    Host.reduce FloatOps.maximumf x init (by decide : (⟨3, ![128, 2048, 2]⟩ : Shape).ReducesTo [2] ⟨2, ![128, 2048]⟩)
        (by decide : 0 < (⟨0, ![]⟩ : Shape).numel) (ix2 b n)
      = max (init (Shape.Idx.first (by decide))) (max (x (ix3 b n 0)) (x (ix3 b n 1))) :=
  reduce_max_tail2 x init _ _ b n

example (x : FVec Ideal ⟨3, ![128, 64, 2]⟩ .f32) (init : FVec Ideal ⟨0, ![]⟩ .f32) (b : Fin 128) (n : Fin 64) :
    Host.reduce FloatOps.maximumf x init (by decide : (⟨3, ![128, 64, 2]⟩ : Shape).ReducesTo [2] ⟨2, ![128, 64]⟩)
        (by decide : 0 < (⟨0, ![]⟩ : Shape).numel) (ix2 b n)
      = max (init (Shape.Idx.first (by decide))) (max (x (ix3 b n 0)) (x (ix3 b n 1))) :=
  reduce_max_tail2 x init _ _ b n

example (x : FVec Ideal ⟨3, ![128, 64, 4]⟩ .f32) (init : FVec Ideal ⟨0, ![]⟩ .f32) (b : Fin 128) :
    Host.reduceAdd x init (by decide : (⟨3, ![128, 64, 4]⟩ : Shape).ReducesTo [1, 2] ⟨1, ![128]⟩)
        (by decide : 0 < (⟨0, ![]⟩ : Shape).numel) (ix1 b)
      = init (Shape.Idx.first (by decide)) + ∑ p : Fin 64, ∑ k : Fin 4, x (ix3 b p k) :=
  reduceAdd_tail2 x init _ _ b

end Idealize.ShloMosaic.ReduceTail
-- ==== Proof.KernelHostCls.lean ====
/-
  THE CLASS LOGITS OF THE ANCHORS, ENTRY BY ENTRY.

  Two of the arrays read after the host operations hold class logits gathered from the pair-contiguous class array
  cls [128, 65536, 2] (sample, anchor, class): the negative anchors' [128, 2, 2048] and the positive anchors'
  [128, 2, 64]. Each comes from the same chain of operations on an array idx [128, N] of anchor indices (N = 2048 or
  64): the indices are set up as a column [128, N, 1]; an index below zero has 65536 added (the wrapped index); the
  range test asks 0 ≤ wrapped ≤ 65535, its two bits joined by "and" and folded, with the bit 1, over the column's one
  entry; the class array is gathered along its anchor axis at the wrapped indices, which the gather reads signed and
  clamps into [0, 65535]; where the range bit is clear the fill value, a NaN pattern, replaces the gathered pair; the
  last two axes are exchanged. So entry (b, ch, n) of the result is

      masked idx[b, n] (cls[b, rowOf idx[b, n], ch]),

  with rowOf the clamped wrapped index and masked the select on the range bit. The chain is read once, for any N; the
  two arrays are its instances, each identified with its chain by running the host operations in order.
-/
import proofs.«409514_j31688268710033_3_alg».proof.Proof.Gen.KernelIdeal.Frame
import proofs.«409514_j31688268710033_3_alg».proof.Proof.Spec
import proofs.«409514_j31688268710033_3_alg».proof.Proof.LibGather3
import proofs.«409514_j31688268710033_3_alg».proof.Proof.LibReduceTail
import Idealize.ShloMosaic.Lib.ValueIdx
import Idealize.ShloMosaic.Lib.Pipeline.Value
import Idealize.ShloMosaic.Lib.ValueLayout
import Idealize.ShloMosaic.Lib.StableHlo.Run

noncomputable section

namespace Cert.KernelIdeal.HostCls

open Cert.KernelIdeal Cert.KernelIdeal.Gen Cert.TrackLoss Idealize.ShloMosaic Idealize.ShloMosaic.ValueIdx
open Idealize.ShloMosaic.TcCoe Idealize.SL.Sem Idealize.ShloMosaic.StableHlo

variable (m : (ℓ : Loc nD τ sig) → Buf (Elt Ideal) ℓ) (c : Dev nD)

/-! ## Shapes of one call: N anchor indices per sample -/

/-- The anchor indices of the 128 samples. -/
abbrev Sidx (N : Nat) : Shape := ⟨2, ![128, N]⟩
/-- The same as a column: a trailing axis of extent one. -/
abbrev Scol (N : Nat) : Shape := ⟨3, ![128, N, 1]⟩
/-- The two class logits of every anchor index. -/
abbrev Sout (N : Nat) : Shape := ⟨3, ![128, N, 2]⟩
/-- The same with the class axis in the middle. -/
abbrev Strn (N : Nat) : Shape := ⟨3, ![128, 2, N]⟩

section Call

variable {N : Nat}
  (hcol : (Sidx N).BroadcastsInDim (Scol N) (![0, 1] : Fin 2 → Fin 3))
  (hsc : S_.BroadcastsInDim (Scol N) (![] : Fin 0 → Fin 3))
  (hu1 : S1.BroadcastsInDim S1x1x1 (![2] : Fin 1 → Fin 3))
  (hu3 : S1x1x1.BroadcastsInDim (Scol N) (![0, 1, 2] : Fin 3 → Fin 3))
  (hred : (Scol N).ReducesTo [2] (Sidx N)) (hS : 0 < S_.numel)
  (hmask : (Sidx N).BroadcastsInDim (Sout N) (![0, 1] : Fin 2 → Fin 3))
  (hfill : S_.BroadcastsInDim (Sout N) (![] : Fin 0 → Fin 3))
  (htr : (Sout N).Transposes [0, 2, 1] (Strn N))
  (d : GatherDims S128x65536x2 (Scol N) (Sout N))
  (cls : S128x65536x2.Idx → EReal) (idx : IVec (Sidx N) 32)

/-- The anchor indices as a column, read at (b, n, 0): the index of sample b's n-th anchor. -/
theorem col_apply (b : Fin 128) (n : Fin N) :
    broadcastInDim (Scol N) ![0, 1] hcol idx (ix3 b n (0 : Fin 1)) = idx (ix2 b n) :=
  broadcastInDim_apply _ hcol idx (ix3 b n (0 : Fin 1)) (ix2 b n) (fun a => match a with
    | ⟨0, _⟩ => by show b.val = if (128 : Nat) = 1 then 0 else b.val; rw [if_neg (by decide)]
    | ⟨1, _⟩ => by
      show n.val = if N = 1 then 0 else n.val
      have hn : n.val < N := n.isLt
      split <;> omega)

/-- The column of WRAPPED indices: 65536 added to an index below zero. -/
def wrapCol : IVec (Scol N) 32 :=
  select (cmpi .slt (broadcastInDim (Scol N) ![0, 1] hcol idx) (broadcastInDim (Scol N) ![] hsc (constantI S_ 32 0#32)))
    (addi (broadcastInDim (Scol N) ![0, 1] hcol idx) (broadcastInDim (Scol N) ![] hsc (constantI S_ 32 65536#32)))
    (broadcastInDim (Scol N) ![0, 1] hcol idx)

/-- At (b, n, 0) it is the wrapped index of sample b's n-th anchor. -/
theorem wrapCol_apply (b : Fin 128) (n : Fin N) :
    wrapCol hcol hsc idx (ix3 b n (0 : Fin 1)) = wrapIdx (idx (ix2 b n)) := by
  show Scalar.select (IntOp.cmpi .slt (broadcastInDim (Scol N) ![0, 1] hcol idx (ix3 b n (0 : Fin 1))) 0#32)
      (IntOp.addi (broadcastInDim (Scol N) ![0, 1] hcol idx (ix3 b n (0 : Fin 1))) 65536#32)
      (broadcastInDim (Scol N) ![0, 1] hcol idx (ix3 b n (0 : Fin 1))) = _
  rw [col_apply]
  rfl

/-- The range test of every anchor index: the wrapped index is at least 0 and at most 65535, the two bits joined
    by "and" and folded with the bit 1 over the column's one entry. -/
def rangeBit : IVec (Sidx N) 1 :=
  Host.reduce IntOp.andi
    (andi (cmpi .sge (wrapCol hcol hsc idx) (broadcastInDim (Scol N) ![] hsc (constantI S_ 32 0#32)))
      (cmpi .sle (wrapCol hcol hsc idx)
        (broadcastInDim (Scol N) ![0, 1, 2] hu3 (broadcastInDim S1x1x1 ![2] hu1 (constantI S1 32 65535#32)))))
    (constantI S_ 1 1#1) hred hS

/-- At (b, n) it is the bit 1 "and" the range test of sample b's n-th anchor index. -/
theorem rangeBit_apply (b : Fin 128) (n : Fin N) :
    rangeBit hcol hsc hu1 hu3 hred hS idx (ix2 b n) = IntOp.andi 1#1 (inRange (idx (ix2 b n))) := by
  unfold rangeBit
  rw [ReduceTail.reduce_and_tail1_rank3]
  show IntOp.andi 1#1 (IntOp.andi (IntOp.cmpi .sge (wrapCol hcol hsc idx (ix3 b n (0 : Fin 1))) 0#32)
      (IntOp.cmpi .sle (wrapCol hcol hsc idx (ix3 b n (0 : Fin 1))) 65535#32)) = _
  rw [wrapCol_apply]
  rfl

/-- The range bit spread over the two classes, read at (b, n, ch): the bit of (b, n). -/
theorem mask_apply (x : IVec (Sidx N) 1) (b : Fin 128) (n : Fin N) (ch : Fin 2) :
    broadcastInDim (Sout N) ![0, 1] hmask x (ix3 b n ch) = x (ix2 b n) :=
  broadcastInDim_apply _ hmask x (ix3 b n ch) (ix2 b n) (fun a => match a with
    | ⟨0, _⟩ => by show b.val = if (128 : Nat) = 1 then 0 else b.val; rw [if_neg (by decide)]
    | ⟨1, _⟩ => by
      show n.val = if N = 1 then 0 else n.val
      have hn : n.val < N := n.isLt
      split <;> omega)

/-- The gathered logits: the class array gathered along its anchor axis at the wrapped indices, kept where the
    range bit is set, the fill value elsewhere. -/
def gathered : (Sout N).Idx → EReal :=
  select (broadcastInDim (Sout N) ![0, 1] hmask (rangeBit hcol hsc hu1 hu3 hred hS idx))
    (Host.gather d cls (wrapCol hcol hsc idx))
    (broadcastInDim (Sout N) ![] hfill (constant (F := Ideal) S_ .f32 0x7FC00000#32))

variable (hod : d.offsetDims = [2]) (hcs : d.collapsedSliceDims = [1]) (hob : d.operandBatchingDims = [0])
  (hsb : d.startIndicesBatchingDims = [0]) (hsm : d.startIndexMap = [1]) (hiv : d.indexVectorDim = 2)
  (hss : d.sliceSizes = ![1, 1, 2])

include hod hcs hob hsb hsm hiv hss in
/-- At (b, n, ch): the class logit ch of the row the n-th anchor index of sample b selects, through the mask. -/
theorem gathered_apply (b : Fin 128) (n : Fin N) (ch : Fin 2) :
    gathered hcol hsc hu1 hu3 hred hS hmask hfill d cls idx (ix3 b n ch)
      = masked (idx (ix2 b n)) (cls (ix3 b (rowOf (idx (ix2 b n))) ch)) := by
  show Scalar.select (broadcastInDim (Sout N) ![0, 1] hmask (rangeBit hcol hsc hu1 hu3 hred hS idx) (ix3 b n ch))
      (Host.gather d cls (wrapCol hcol hsc idx) (ix3 b n ch)) fillVal = _
  have hrow : (⟨min (wrapCol hcol hsc idx (ix3 b n (0 : Fin 1))).toInt.toNat (65536 - 1), by omega⟩ : Fin 65536)
      = rowOf (idx (ix2 b n)) := Fin.ext (by
    show min (wrapCol hcol hsc idx (ix3 b n (0 : Fin 1))).toInt.toNat (65536 - 1) = (rowOf (idx (ix2 b n))).val
    rw [wrapCol_apply]
    rfl)
  rw [mask_apply, rangeBit_apply,
    Gather3.gather_mid_apply (by decide) d hod hcs hob hsb hsm hiv hss cls (wrapCol hcol hsc idx) b n ch, hrow]
  rfl

/-- The gathered logits with the class axis moved to the middle. -/
def logitsT : (Strn N).Idx → EReal :=
  transpose (Strn N) [0, 2, 1] (gathered hcol hsc hu1 hu3 hred hS hmask hfill d cls idx) htr

include hod hcs hob hsb hsm hiv hss in
/-- At (b, ch, n): the same entry. -/
theorem logitsT_apply (b : Fin 128) (ch : Fin 2) (n : Fin N) :
    logitsT hcol hsc hu1 hu3 hred hS hmask hfill htr d cls idx (ix3 b ch n)
      = masked (idx (ix2 b n)) (cls (ix3 b (rowOf (idx (ix2 b n))) ch)) :=
  (transpose_apply [0, 2, 1] _ htr (ix3 b ch n) (ix3 b n ch) (fun a => match a with
    | ⟨0, _⟩ => rfl
    | ⟨1, _⟩ => rfl
    | ⟨2, _⟩ => rfl)).trans
    (gathered_apply hcol hsc hu1 hu3 hred hS hmask hfill d cls idx hod hcs hob hsb hsm hiv hss b n ch)

end Call

/-! ## The arrays the launch reads -/

/-- The class array, pair-contiguous: the first argument reshaped to [128, 2, 65536] and its last two axes
    exchanged. -/
theorem V_main_v1 : (V m c main_v1 : S128x65536x2.Idx → EReal)
    = transpose S128x65536x2 [0, 2, 1]
        (shapeCast S128x2x65536 (m ((c : Thread nD τ).loc main_arg0) : S128x32x64x64.Idx → EReal)
          shapeCasts_S128x32x64x64_S128x2x65536) transposes_S128x2x65536_S128x65536x2_0_2_1 := by
  dsimp only [Gen.V, Gen.V0]
  simp only [Gen.hostOps0, Gen.hostOps0_1, Gen.hostOps0_2, Gen.hostOps0_3, Gen.hostOps0_4, Gen.hostOps0_5, Gen.hostOps0_6, Gen.hostOps0_7, List.flatten_cons, List.flatten_nil, List.append_nil, List.cons_append, List.nil_append]
  after_results_simp
  rfl

attribute [local irreducible] Host.reduce in
/-- The negative anchors' logits: the gathered and masked logits at the 2048 negative anchor indices of each
    sample, class axis in the middle. -/
theorem V_main_v6 : (V m c main_v6 : S128x2x2048.Idx → EReal)
    = logitsT (N := 2048) bcast_S128x2048_S128x2048x1_0_1 bcast_S_S128x2048x1 bcast_S1_S1x1x1_2
        bcast_S1x1x1_S128x2048x1_0_1_2 reducesTo_S128x2048x1_S128x2048_d2 h_S_ bcast_S128x2048_S128x2048x2_0_1
        bcast_S_S128x2048x2 transposes_S128x2048x2_S128x2x2048_0_2_1
        gather_S128x65536x2_S128x2048x1_S128x2048x2_2_1_0_0_1_2_112
        (V m c main_v1 : S128x65536x2.Idx → EReal) (m ((c : Thread nD τ).loc main_arg4) : S128x2048.Idx → BitVec 32) := by
  rw [V_main_v1]
  dsimp only [Gen.V, Gen.V0]
  simp only [Gen.hostOps0, Gen.hostOps0_1, Gen.hostOps0_2, Gen.hostOps0_3, Gen.hostOps0_4, Gen.hostOps0_5, Gen.hostOps0_6, Gen.hostOps0_7, List.flatten_cons, List.flatten_nil, List.append_nil, List.cons_append, List.nil_append]
  after_results_simp
  rfl

attribute [local irreducible] Host.reduce in
/-- The positive anchors' logits: the same at the 64 positive anchor indices of each sample. -/
theorem V_main_v7 : (V m c main_v7 : S128x2x64.Idx → EReal)
    = logitsT (N := 64) bcast_S128x64_S128x64x1_0_1 bcast_S_S128x64x1 bcast_S1_S1x1x1_2
        bcast_S1x1x1_S128x64x1_0_1_2 reducesTo_S128x64x1_S128x64_d2 h_S_ bcast_S128x64_S128x64x2_0_1
        bcast_S_S128x64x2 transposes_S128x64x2_S128x2x64_0_2_1
        gather_S128x65536x2_S128x64x1_S128x64x2_2_1_0_0_1_2_112
        (V m c main_v1 : S128x65536x2.Idx → EReal) (m ((c : Thread nD τ).loc main_arg3) : S128x64.Idx → BitVec 32) := by
  rw [V_main_v1]
  dsimp only [Gen.V, Gen.V0]
  simp only [Gen.hostOps0, Gen.hostOps0_1, Gen.hostOps0_2, Gen.hostOps0_3, Gen.hostOps0_4, Gen.hostOps0_5, Gen.hostOps0_6, Gen.hostOps0_7, List.flatten_cons, List.flatten_nil, List.append_nil, List.cons_append, List.nil_append]
  after_results_simp
  rfl

/-- Entry (b, ch, n) of the negative anchors' logits is class logit ch of sample b's n-th negative anchor. -/
theorem negLogit_eq (b : Fin 128) (ch : Fin 2) (n : Fin 2048) :
    (V m c main_v6 : S128x2x2048.Idx → EReal) (ix3 b ch n)
      = negLogit (V m c main_v1 : S128x65536x2.Idx → EReal)
          (m ((c : Thread nD τ).loc main_arg4) : S128x2048.Idx → BitVec 32) b n ch := by
  rw [V_main_v6]
  exact logitsT_apply _ _ _ _ _ _ _ _ _ _ _ _ rfl rfl rfl rfl rfl rfl rfl b ch n

/-- Entry (b, ch, p) of the positive anchors' logits is class logit ch of sample b's p-th positive anchor. -/
theorem posLogit_eq (b : Fin 128) (ch : Fin 2) (p : Fin 64) :
    (V m c main_v7 : S128x2x64.Idx → EReal) (ix3 b ch p)
      = posLogit (V m c main_v1 : S128x65536x2.Idx → EReal)
          (m ((c : Thread nD τ).loc main_arg3) : S128x64.Idx → BitVec 32) b p ch := by
  rw [V_main_v7]
  exact logitsT_apply _ _ _ _ _ _ _ _ _ _ _ _ rfl rfl rfl rfl rfl rfl rfl b ch p

end Cert.KernelIdeal.HostCls

end
-- ==== Proof.KernelHostBox.lean ====
/-
  What two of the arrays the kernel launch reads hold, entry by entry, at the ideal values.

  The positive anchors' predicted box offsets [128, 4, 64] are a gather along the last axis of the reshaped offsets
  [128, 4, 65536] at the sample's anchor indices, repeated over the four coordinates: an index below zero has 65536
  added, the gather reads at the index clamped into [0, 65535], and where the wrapped index is outside that range the
  entry is the fill value. The positive anchors' boxes [128, 4, 64] are the transpose of whole rows of the anchor
  table [65536, 4] taken at the same wrapped indices under the same range test.

  Each of the two host computations is first stated as a function of the arrays it reads and read at an index
  (the gather by its clamped start, the range mask by the one term of its reduction over a trailing axis of extent
  one, the broadcasts, the reshape and the transpose by their index maps); then the buffers' contents before the
  launch, the fold of the host operations over the launch contents, are evaluated to those functions.
-/
import proofs.«409514_j31688268710033_3_alg».proof.Proof.Gen.KernelIdeal.Frame
import proofs.«409514_j31688268710033_3_alg».proof.Proof.Spec
import proofs.«409514_j31688268710033_3_alg».proof.Proof.LibGather3
import proofs.«409514_j31688268710033_3_alg».proof.Proof.LibReduceTail
import Idealize.ShloMosaic.Lib.ValueIdx
import Idealize.ShloMosaic.Lib.Pipeline.Value
import Idealize.ShloMosaic.Lib.ValueLayout
import Idealize.ShloMosaic.Lib.StableHlo.Run

noncomputable section

namespace Cert.KernelIdeal.HostBox

open Cert.KernelIdeal Cert.KernelIdeal.Gen Cert.TrackLoss Idealize.ShloMosaic Idealize.ShloMosaic.ValueIdx
open Idealize.ShloMosaic.TcCoe Idealize.SL.Sem Idealize.ShloMosaic.StableHlo

variable (m : (ℓ : Loc nD τ sig) → Buf (Elt Ideal) ℓ) (c : Dev nD)

/-! ## The gather along the last axis, as a function of its operand and its indices -/

/-- An index below zero counts from the end: the indices with 65536 added where they are negative. -/
def wrapIx (i : S128x4x64.Idx → BitVec 32) : S128x4x64.Idx → BitVec 32 :=
  select (cmpi .slt i (broadcastInDim S128x4x64 ![] bcast_S_S128x4x64 (constantI S_ 32 0#32)))
    (addi i (broadcastInDim S128x4x64 ![] bcast_S_S128x4x64 (constantI S_ 32 65536#32))) i

theorem wrapIx_apply (i : S128x4x64.Idx → BitVec 32) (j : S128x4x64.Idx) : wrapIx i j = wrapIdx (i j) := rfl

/-- The start indices of the gather: the wrapped indices with a trailing axis of extent one. -/
def startIx (i : S128x4x64.Idx → BitVec 32) : S128x4x64x1.Idx → BitVec 32 :=
  shapeCast S128x4x64x1 (wrapIx i) shapeCasts_S128x4x64_S128x4x64x1

theorem startIx_apply (i : S128x4x64.Idx → BitVec 32) (b : Fin 128) (k : Fin 4) (p : Fin 64) :
    startIx i (ix4 b k p (0 : Fin 1)) = wrapIdx (i (ix3 b k p)) := by
  unfold startIx
  refine (shapeCast_apply (wrapIx i) shapeCasts_S128x4x64_S128x4x64x1 (ix4 b k p (0 : Fin 1)) (ix3 b k p) ?_).trans rfl
  rw [Shape.rowMajor_val_four, Shape.rowMajor_val_three]
  show (b.val * 4 + k.val) * 64 + p.val = ((b.val * 4 + k.val) * 64 + p.val) * 1 + 0
  omega

/-- The range test on the start indices, before its reduction over the trailing axis. -/
def rangeIx (i : S128x4x64.Idx → BitVec 32) : S128x4x64x1.Idx → BitVec 1 :=
  andi (cmpi .sge (startIx i) (broadcastInDim S128x4x64x1 ![] bcast_S_S128x4x64x1 (constantI S_ 32 0#32)))
    (cmpi .sle (startIx i) (broadcastInDim S128x4x64x1 ![0, 1, 2, 3] bcast_S1x1x1x1_S128x4x64x1_0_1_2_3
      (broadcastInDim S1x1x1x1 ![3] bcast_S1_S1x1x1x1_3 (constantI S1 32 65535#32))))

theorem rangeIx_apply (i : S128x4x64.Idx → BitVec 32) (b : Fin 128) (k : Fin 4) (p : Fin 64) :
    rangeIx i (ix4 b k p (0 : Fin 1)) = inRange (i (ix3 b k p)) := by
  show IntOp.andi (IntOp.cmpi .sge (startIx i (ix4 b k p (0 : Fin 1))) 0#32)
    (IntOp.cmpi .sle (startIx i (ix4 b k p (0 : Fin 1))) 65535#32) = _
  rw [startIx_apply]
  rfl

/-- The range mask of the gather: the range test reduced by "and" over the trailing axis, from the bit one. -/
def maskIx (i : S128x4x64.Idx → BitVec 32) : S128x4x64.Idx → BitVec 1 :=
  Host.reduce IntOp.andi (rangeIx i) (constantI S_ 1 1#1) reducesTo_S128x4x64x1_S128x4x64_d3 h_S_

theorem maskIx_apply (i : S128x4x64.Idx → BitVec 32) (b : Fin 128) (k : Fin 4) (p : Fin 64) :
    maskIx i (ix3 b k p) = IntOp.andi 1#1 (inRange (i (ix3 b k p))) := by
  unfold maskIx
  rw [ReduceTail.reduce_and_tail1_rank4 (rangeIx i) (constantI S_ 1 1#1) reducesTo_S128x4x64x1_S128x4x64_d3 h_S_ b k p,
    rangeIx_apply]
  rfl

/-- The gather along the last axis with its mask: the operand at the start indices where they are in range, the fill
    value elsewhere. -/
def gatherLast (x : S128x4x65536.Idx → EReal) (i : S128x4x64.Idx → BitVec 32) : S128x4x64.Idx → EReal :=
  select (maskIx i) (Host.gather gather_S128x4x65536_S128x4x64x1_S128x4x64_n_2_01_01_2_3_111 x (startIx i))
    (broadcastInDim S128x4x64 ![] bcast_S_S128x4x64 (constant (F := Ideal) S_ .f32 0x7FC00000#32))

theorem gatherLast_apply (x : S128x4x65536.Idx → EReal) (i : S128x4x64.Idx → BitVec 32) (b : Fin 128) (k : Fin 4)
    (p : Fin 64) :
    gatherLast x i (ix3 b k p) = masked (i (ix3 b k p)) (x (ix3 b k (rowOf (i (ix3 b k p))))) := by
  show Scalar.select (maskIx i (ix3 b k p))
    (Host.gather gather_S128x4x65536_S128x4x64x1_S128x4x64_n_2_01_01_2_3_111 x (startIx i) (ix3 b k p)) fillVal = _
  rw [maskIx_apply, Gather3.gather_last_apply (by decide) gather_S128x4x65536_S128x4x64x1_S128x4x64_n_2_01_01_2_3_111
    rfl rfl rfl rfl rfl rfl rfl x (startIx i) b k p]
  simp only [startIx_apply]
  rfl

/-! ## The broadcast of the anchor indices over the four coordinates -/

/-- The anchor indices repeated along a new middle axis of extent four. -/
def idxOver4 (pos : S128x64.Idx → BitVec 32) : S128x4x64.Idx → BitVec 32 :=
  broadcastInDim S128x4x64 ![0, 1, 2] bcast_S128x1x64_S128x4x64_0_1_2
    (broadcastInDim S128x1x64 ![0, 2] bcast_S128x64_S128x1x64_0_2 pos)

theorem idxOver4_apply (pos : S128x64.Idx → BitVec 32) (b : Fin 128) (k : Fin 4) (p : Fin 64) :
    idxOver4 pos (ix3 b k p) = pos (ix2 b p) := by
  unfold idxOver4
  refine (broadcastInDim_apply _ bcast_S128x1x64_S128x4x64_0_1_2 _ (ix3 b k p) (ix3 b (0 : Fin 1) p) (fun a => match a with
    | ⟨0, _⟩ => by show b.val = if (128 : Nat) = 1 then 0 else b.val; rw [if_neg (by decide)]
    | ⟨1, _⟩ => by show 0 = if (1 : Nat) = 1 then 0 else k.val; rw [if_pos rfl]
    | ⟨2, _⟩ => by show p.val = if (64 : Nat) = 1 then 0 else p.val; rw [if_neg (by decide)])).trans ?_
  exact broadcastInDim_apply _ bcast_S128x64_S128x1x64_0_2 pos (ix3 b (0 : Fin 1) p) (ix2 b p) (fun a => match a with
    | ⟨0, _⟩ => by show b.val = if (128 : Nat) = 1 then 0 else b.val; rw [if_neg (by decide)]
    | ⟨1, _⟩ => by show p.val = if (64 : Nat) = 1 then 0 else p.val; rw [if_neg (by decide)])

/-! ## The take of whole rows of a table, as a function of the table and the indices -/

/-- The indices with 65536 added where they are negative. -/
def wrapRow (i : S128x64.Idx → BitVec 32) : S128x64.Idx → BitVec 32 :=
  select (cmpi .slt i (broadcastInDim S128x64 ![] bcast_S_S128x64 (constantI S_ 32 0#32)))
    (addi i (broadcastInDim S128x64 ![] bcast_S_S128x64 (constantI S_ 32 65536#32))) i

theorem wrapRow_apply (i : S128x64.Idx → BitVec 32) (j : S128x64.Idx) : wrapRow i j = wrapIdx (i j) := rfl

/-- The start indices of the take: the wrapped indices with a trailing axis of extent one. -/
def startRow (i : S128x64.Idx → BitVec 32) : S128x64x1.Idx → BitVec 32 :=
  broadcastInDim S128x64x1 ![0, 1] bcast_S128x64_S128x64x1_0_1 (wrapRow i)

theorem startRow_apply (i : S128x64.Idx → BitVec 32) (b : Fin 128) (p : Fin 64) :
    startRow i (ix3 b p (0 : Fin 1)) = wrapIdx (i (ix2 b p)) := by
  unfold startRow
  exact broadcastInDim_apply _ bcast_S128x64_S128x64x1_0_1 (wrapRow i) (ix3 b p (0 : Fin 1)) (ix2 b p) (fun a => match a with
    | ⟨0, _⟩ => by show b.val = if (128 : Nat) = 1 then 0 else b.val; rw [if_neg (by decide)]
    | ⟨1, _⟩ => by show p.val = if (64 : Nat) = 1 then 0 else p.val; rw [if_neg (by decide)])

/-- The range test on the start indices, before its reduction over the trailing axis. -/
def rangeRow (i : S128x64.Idx → BitVec 32) : S128x64x1.Idx → BitVec 1 :=
  andi (cmpi .sge (startRow i) (broadcastInDim S128x64x1 ![] bcast_S_S128x64x1 (constantI S_ 32 0#32)))
    (cmpi .sle (startRow i) (broadcastInDim S128x64x1 ![0, 1, 2] bcast_S1x1x1_S128x64x1_0_1_2
      (broadcastInDim S1x1x1 ![2] bcast_S1_S1x1x1_2 (constantI S1 32 65535#32))))

theorem rangeRow_apply (i : S128x64.Idx → BitVec 32) (b : Fin 128) (p : Fin 64) :
    rangeRow i (ix3 b p (0 : Fin 1)) = inRange (i (ix2 b p)) := by
  show IntOp.andi (IntOp.cmpi .sge (startRow i (ix3 b p (0 : Fin 1))) 0#32)
    (IntOp.cmpi .sle (startRow i (ix3 b p (0 : Fin 1))) 65535#32) = _
  rw [startRow_apply]
  rfl

/-- The range mask of the take: the range test reduced by "and" over the trailing axis, from the bit one. -/
def maskRow (i : S128x64.Idx → BitVec 32) : S128x64.Idx → BitVec 1 :=
  Host.reduce IntOp.andi (rangeRow i) (constantI S_ 1 1#1) reducesTo_S128x64x1_S128x64_d2 h_S_

theorem maskRow_apply (i : S128x64.Idx → BitVec 32) (b : Fin 128) (p : Fin 64) :
    maskRow i (ix2 b p) = IntOp.andi 1#1 (inRange (i (ix2 b p))) := by
  unfold maskRow
  rw [ReduceTail.reduce_and_tail1_rank3 (rangeRow i) (constantI S_ 1 1#1) reducesTo_S128x64x1_S128x64_d2 h_S_ b p,
    rangeRow_apply]
  rfl

/-- The take of whole rows with its mask: the table's row at the start index where it is in range, the fill value
    elsewhere. -/
def takeRows (x : S65536x4.Idx → EReal) (i : S128x64.Idx → BitVec 32) : S128x64x4.Idx → EReal :=
  select (broadcastInDim S128x64x4 ![0, 1] bcast_S128x64_S128x64x4_0_1 (maskRow i))
    (Host.gather gather_S65536x4_S128x64x1_S128x64x4_2_0_n_n_0_2_14 x (startRow i))
    (broadcastInDim S128x64x4 ![] bcast_S_S128x64x4 (constant (F := Ideal) S_ .f32 0x7FC00000#32))

theorem takeRows_apply (x : S65536x4.Idx → EReal) (i : S128x64.Idx → BitVec 32) (b : Fin 128) (p : Fin 64) (k : Fin 4) :
    takeRows x i (ix3 b p k) = masked (i (ix2 b p)) (x (ix2 (rowOf (i (ix2 b p))) k)) := by
  have hm : broadcastInDim S128x64x4 ![0, 1] bcast_S128x64_S128x64x4_0_1 (maskRow i) (ix3 b p k) = maskRow i (ix2 b p) :=
    broadcastInDim_apply _ bcast_S128x64_S128x64x4_0_1 (maskRow i) (ix3 b p k) (ix2 b p) (fun a => match a with
      | ⟨0, _⟩ => by show b.val = if (128 : Nat) = 1 then 0 else b.val; rw [if_neg (by decide)]
      | ⟨1, _⟩ => by show p.val = if (64 : Nat) = 1 then 0 else p.val; rw [if_neg (by decide)])
  show Scalar.select (broadcastInDim S128x64x4 ![0, 1] bcast_S128x64_S128x64x4_0_1 (maskRow i) (ix3 b p k))
    (Host.gather gather_S65536x4_S128x64x1_S128x64x4_2_0_n_n_0_2_14 x (startRow i) (ix3 b p k)) fillVal = _
  rw [hm, maskRow_apply, Gather3.gather_rows3_apply (by decide) gather_S65536x4_S128x64x1_S128x64x4_2_0_n_n_0_2_14
    rfl rfl rfl rfl rfl rfl rfl x (startRow i) b p k]
  simp only [startRow_apply]
  rfl

/-- The taken rows with the coordinate axis moved before the anchor axis. -/
def takeRowsT (x : S65536x4.Idx → EReal) (i : S128x64.Idx → BitVec 32) : S128x4x64.Idx → EReal :=
  transpose S128x4x64 [0, 2, 1] (takeRows x i) transposes_S128x64x4_S128x4x64_0_2_1

theorem takeRowsT_apply (x : S65536x4.Idx → EReal) (i : S128x64.Idx → BitVec 32) (b : Fin 128) (k : Fin 4) (p : Fin 64) :
    takeRowsT x i (ix3 b k p) = masked (i (ix2 b p)) (x (ix2 (rowOf (i (ix2 b p))) k)) := by
  unfold takeRowsT
  refine (transpose_apply [0, 2, 1] (takeRows x i) transposes_S128x64x4_S128x4x64_0_2_1 (ix3 b k p) (ix3 b p k)
    (fun a => match a with
      | ⟨0, _⟩ => rfl
      | ⟨1, _⟩ => rfl
      | ⟨2, _⟩ => rfl)).trans ?_
  exact takeRows_apply x i b p k

/-! ## The arrays before the launch, stretch by stretch -/

/-- The buffers' contents after the first five stretches of host operations: everything before the two gathers of
    the box data. -/
def W4 (c : Dev nD) : Valuation τ sig (Elt Ideal) :=
  after hostOps0_4 (after hostOps0_3 (after hostOps0_2 (after hostOps0_1 (after hostOps0 (fun b => m (c, b))))))

/-- The contents at the launch are those with the last three stretches run after them. -/
theorem V0_split (c : Dev nD) :
    V0 m c = after hostOps0_7 (after hostOps0_6 (after hostOps0_5 (W4 m c))) := by
  unfold W4
  show after (List.flatten [hostOps0, hostOps0_1, hostOps0_2, hostOps0_3, hostOps0_4, hostOps0_5, hostOps0_6, hostOps0_7]) _ = _
  simp only [List.flatten_cons, List.flatten_nil, List.append_nil, StableHlo.after_append]

set_option maxRecDepth 8192 in
set_option maxHeartbeats 1600000 in
/-- No host operation of the first five stretches writes the anchor indices. -/
theorem W4_arg3 (c : Dev nD) : W4 m c (Proc.devRef .tc main_arg3) = m ((c : Thread nD τ).loc main_arg3) := by
  unfold W4
  simp only [hostOps0, hostOps0_1, hostOps0_2, hostOps0_3, hostOps0_4]
  after_results_simp <;> rfl

set_option maxRecDepth 8192 in
set_option maxHeartbeats 1600000 in
/-- No host operation of the first five stretches writes the anchor table. -/
theorem W4_arg5 (c : Dev nD) : W4 m c (Proc.devRef .tc main_arg5) = m ((c : Thread nD τ).loc main_arg5) := by
  unfold W4
  simp only [hostOps0, hostOps0_1, hostOps0_2, hostOps0_3, hostOps0_4]
  after_results_simp <;> rfl

set_option maxRecDepth 8192 in
set_option maxHeartbeats 1600000 in
/-- After the fifth stretch the index array of the gather is the anchor indices repeated over the four coordinates. -/
theorem W4_v10 (c : Dev nD) :
    (W4 m c (Proc.devRef .tc main_v10) : S128x4x64.Idx → BitVec 32)
      = idxOver4 (m ((c : Thread nD τ).loc main_arg3)) := by
  unfold W4
  simp only [hostOps0, hostOps0_1, hostOps0_2, hostOps0_3, hostOps0_4]
  after_results_simp
  unfold idxOver4
  rfl

set_option maxRecDepth 8192 in
set_option maxHeartbeats 1600000 in
/-- The reshaped box offsets are not written after the fifth stretch. -/
theorem v8_eq (c : Dev nD) : V m c main_v8 = W4 m c (Proc.devRef .tc main_v8) := by
  show V0 m c (Proc.devRef .tc main_v8) = _
  rw [V0_split]
  simp only [hostOps0_5, hostOps0_6, hostOps0_7]
  after_results_simp <;> rfl

set_option maxRecDepth 8192 in
set_option maxHeartbeats 1600000 in
/-- The positive anchors' box offsets are the masked gather along the last axis of the reshaped offsets at the
    index array, as the fifth stretch left both. -/
theorem v11_eq (c : Dev nD) :
    (V m c main_v11 : S128x4x64.Idx → EReal)
      = gatherLast (W4 m c (Proc.devRef .tc main_v8)) (W4 m c (Proc.devRef .tc main_v10)) := by
  show V0 m c (Proc.devRef .tc main_v11) = _
  rw [V0_split]
  simp only [hostOps0_5, hostOps0_6, hostOps0_7]
  after_results_simp
  simp only [TRef.ofBuf, TRef.toBuf, cast_eq]
  unfold gatherLast maskIx rangeIx startIx wrapIx
  rfl

set_option maxRecDepth 8192 in
set_option maxHeartbeats 1600000 in
/-- The positive anchors' boxes are the transposed masked take of whole rows of the anchor table at the anchor
    indices, as the fifth stretch left both. -/
theorem v13_eq (c : Dev nD) :
    (V m c main_v13 : S128x4x64.Idx → EReal)
      = takeRowsT (W4 m c (Proc.devRef .tc main_arg5)) (W4 m c (Proc.devRef .tc main_arg3)) := by
  show V0 m c (Proc.devRef .tc main_v13) = _
  rw [V0_split]
  simp only [hostOps0_5, hostOps0_6, hostOps0_7]
  after_results_simp
  simp only [TRef.ofBuf, TRef.toBuf, cast_eq]
  unfold takeRowsT takeRows maskRow rangeRow startRow wrapRow
  rfl

/-! ## The two arrays, entry by entry -/

/-- Predicted box offset k of sample b's p-th positive anchor, as the launch finds it. -/
theorem posLoc_eq (c : Dev nD) (b : Fin 128) (k : Fin 4) (p : Fin 64) :
    (V m c main_v11 : S128x4x64.Idx → EReal) (ix3 b k p)
      = posLoc (V m c main_v8 : S128x4x65536.Idx → EReal)
          (m ((c : Thread nD τ).loc main_arg3) : S128x64.Idx → BitVec 32) b k p := by
  refine (congrFun (v11_eq m c) (ix3 b k p)).trans ?_
  rw [gatherLast_apply, W4_v10, idxOver4_apply, ← v8_eq]
  rfl

/-- Coordinate k of the box of sample b's p-th positive anchor under the range mask, as the launch finds it. -/
theorem anchBox_eq (c : Dev nD) (b : Fin 128) (k : Fin 4) (p : Fin 64) :
    (V m c main_v13 : S128x4x64.Idx → EReal) (ix3 b k p)
      = anchBoxMasked (m ((c : Thread nD τ).loc main_arg3) : S128x64.Idx → BitVec 32)
          (m ((c : Thread nD τ).loc main_arg5) : S65536x4.Idx → EReal) b p k := by
  refine (congrFun (v13_eq m c) (ix3 b k p)).trans ?_
  rw [takeRowsT_apply, W4_arg3, W4_arg5]
  rfl

end Cert.KernelIdeal.HostBox

end
-- ==== Proof.SpecLaws.lean ====
/-
  Two facts about the specification's terms that do not depend on any program.

  The fill value of an out-of-range read is a NaN pattern, which the ideal instance reads as the bottom element, and
  the bottom element absorbs in a difference: ⊥ − y = ⊥ for every extended real y. So where an anchor index is out of
  range, the predicted box offsets being the fill value, every one of the four differences of the box term is ⊥
  whatever the anchor's box is: the box term is the same whether the anchor's box is read through the range mask or not.
-/
import proofs.«409514_j31688268710033_3_alg».proof.Proof.Spec
import Idealize.ShloMosaic.PureOps.Ideal.Laws

noncomputable section

namespace Cert.TrackLoss

open Idealize.ShloMosaic Idealize.ShloMosaic.ValueIdx

/-- The fill value is the bottom element. -/
theorem fillVal_eq_bot : fillVal = (⊥ : EReal) := by
  simp [fillVal, Ideal.ofBits, Ideal.ieee]

/-- A one-bit word is 1 or 0. -/
theorem bit_cases (w : BitVec 1) : w = 1#1 ∨ w = 0#1 := by
  revert w; decide

/-- Through the range mask a value is itself where the index is in range and the bottom element elsewhere. -/
theorem masked_cases (v : BitVec 32) : (∀ x, masked v x = x) ∨ (∀ x, masked v x = (⊥ : EReal)) := by
  rcases bit_cases (IntOp.andi 1#1 (inRange v)) with h | h
  · left; intro x; unfold masked; rw [h]; exact select_one _ _
  · right; intro x; unfold masked; rw [h, select_zero]; exact fillVal_eq_bot

/-- The box term of masked offsets does not see whether the anchor's box is masked. -/
theorem boxTerm_masked (v : BitVec 32) (l g a : Fin 4 → EReal) :
    boxTerm (fun k => masked v (l k)) g (fun k => masked v (a k)) = boxTerm (fun k => masked v (l k)) g a := by
  rcases masked_cases v with h | h
  · simp only [h]
  · unfold boxTerm
    simp only [h, EReal.bot_sub]

section Arrays

variable (locv : (⟨3, ![128, 4, 65536]⟩ : Shape).Idx → EReal)
  (gts : (⟨2, ![128, 4]⟩ : Shape).Idx → EReal) (pos : (⟨2, ![128, 64]⟩ : Shape).Idx → BitVec 32)
  (anch : (⟨2, ![65536, 4]⟩ : Shape).Idx → EReal)

/-- A positive anchor's box term with the anchor's box read through the range mask is its box term. -/
theorem locTermMasked_eq (b : Fin 128) (p : Fin 64) :
    locTermMasked locv gts pos anch b p = locTerm locv gts pos anch b p := by
  unfold locTermMasked locTerm posLoc anchBoxMasked
  exact boxTerm_masked (pos (ix2 b p)) (fun k => locv (ix3 b k (rowOf (pos (ix2 b p))))) (fun k => gts (ix2 b k))
    (fun k => anchBox pos anch b p k)

end Arrays

end Cert.TrackLoss

end
-- ==== Proof.RefGather.lean ====
/-
  What the reference's four gathered arrays hold, entry by entry.

  The reference reads class logits, predicted box offsets and anchor boxes at anchor indices. An index below zero has
  65536 added to it; the row read is the wrapped index taken as a signed integer and clamped into [0, 65535]. Three of
  the four arrays are then masked: where the wrapped index lies outside [0, 65535] the entry is the fill value instead
  of the row's entry. The mask is an "and" over a trailing axis of extent one, started from the true bit, so it is the
  true bit "and" the range test. The fourth array, the anchor boxes, is the bare read at the clamped row.

  Each array is read here at one index (b, n, c) and shown to be the specification's entry of the same name: the class
  logits of the negative and of the positive anchors, the predicted offsets of the positive anchors (the reference reads
  them from the transposed array, so entry (b, a, k) of what it gathers from is entry (b, k, a) of the untransposed
  one), and the boxes of the positive anchors.
-/
import proofs.«409514_j31688268710033_3_alg».proof.Proof.RefRead
import proofs.«409514_j31688268710033_3_alg».proof.Proof.Spec
import proofs.«409514_j31688268710033_3_alg».proof.Proof.LibGather3
import proofs.«409514_j31688268710033_3_alg».proof.Proof.LibReduceTail
import Idealize.ShloMosaic.Lib.ValueIdx
import Idealize.ShloMosaic.Lib.Pipeline.Value
import Idealize.ShloMosaic.PureOps.Ideal.Laws

noncomputable section

namespace Cert.ReferenceIdeal.RefGather

open Cert.ReferenceIdeal Cert.ReferenceIdeal.Gen Cert.ReferenceIdeal.ReadP Cert.TrackLoss Idealize.ShloMosaic
  Idealize.ShloMosaic.ValueIdx Idealize.ShloMosaic.Gather3 Idealize.ShloMosaic.ReduceTail

variable (x0 : (⟨S128x32x64x64, .f32⟩ : BufTy).Contents (Elt Ideal)) (x1 : (⟨S128x64x64x64, .f32⟩ : BufTy).Contents (Elt Ideal))
  (x3 : (⟨S128x64, .i32⟩ : BufTy).Contents (Elt Ideal)) (x4 : (⟨S128x2048, .i32⟩ : BufTy).Contents (Elt Ideal))
  (x5 : (⟨S65536x4, .f32⟩ : BufTy).Contents (Elt Ideal))

/-! ## The clamped row of a wrapped index -/

/-- A word equal to the wrapped index, read signed and clamped into [0, 65535], is the row the specification names. -/
theorem row_of_wrapped {v w : BitVec 32} (h : w = wrapIdx v) (hp : min w.toInt.toNat (65536 - 1) < 65536) :
    (⟨min w.toInt.toNat (65536 - 1), hp⟩ : Fin 65536) = rowOf v := by
  subst h
  rfl

/-! ## The negative anchors' class logits -/

/-- The wrapped index of sample b's n-th negative anchor: 65536 added where the index is below zero. -/
theorem negWrapped (b : Fin 128) (n : Fin 2048) :
    val_main_call0_v4 (F := Ideal) x4 (ix3 b n (0 : Fin 1)) = wrapIdx (x4 (ix2 b n)) := by
  have hi : idx_main_v4 (ix3 b n (0 : Fin 1)) = ix2 b n :=
    funext fun a => Fin.ext (by match a with | ⟨0, _⟩ => rfl | ⟨1, _⟩ => rfl)
  rw [val_main_call0_v4_apply, val_main_call0_v1_apply, val_main_call0_v3_apply, val_main_v4_apply,
    val_main_call0_v0_apply, val_main_call0_v2_apply, val_main_call0_c_apply, val_main_call0_c_0_apply, hi]
  rfl

/-- The range mask at (b, n): the true bit "and" the range test of the index. -/
theorem negMask (b : Fin 128) (n : Fin 2048) :
    val_main_call0_v11 (F := Ideal) x4 (ix2 b n) = IntOp.andi 1#1 (inRange (x4 (ix2 b n))) := by
  unfold val_main_call0_v11
  refine (reduce_and_tail1_rank3 (val_main_call0_v10 (F := Ideal) x4) (val_main_call0_c_3 (F := Ideal))
    reducesTo_S128x2048x1_S128x2048_d2 h_S_ b n).trans ?_
  rw [val_main_call0_c_3_apply, val_main_call0_v10_apply, val_main_call0_v6_apply, val_main_call0_v9_apply,
    negWrapped, val_main_call0_v5_apply, val_main_call0_c_2_apply, val_main_call0_v8_apply,
    val_main_call0_v7_apply, val_main_call0_c_1_apply]
  rfl

/-- The bare gather at (b, n, ch): the logits at the clamped row. -/
theorem negGathered (b : Fin 128) (n : Fin 2048) (ch : Fin 2) :
    val_main_call0_v12 (F := Ideal) x0 x4 (ix3 b n ch)
      = val_main_v1 (F := Ideal) x0 (ix3 b (rowOf (x4 (ix2 b n))) ch) := by
  unfold val_main_call0_v12
  refine (gather_mid_apply (by decide) gather_S128x65536x2_S128x2048x1_S128x2048x2_2_1_0_0_1_2_112
    rfl rfl rfl rfl rfl rfl rfl (val_main_v1 (F := Ideal) x0) (val_main_call0_v4 (F := Ideal) x4) b n ch).trans ?_
  exact congrArg (fun r => val_main_v1 (F := Ideal) x0 (ix3 b r ch)) (row_of_wrapped (negWrapped x4 b n) _)

/-- THE NEGATIVE ANCHORS' LOGITS: entry (b, n, ch) of the reference's first gathered array is the specification's
    class logit ch of sample b's n-th negative anchor. -/
theorem negLogit_eq (b : Fin 128) (n : Fin 2048) (ch : Fin 2) :
    val_main_v5 (F := Ideal) x0 x4 (ix3 b n ch) = negLogit (val_main_v1 (F := Ideal) x0) x4 b n ch := by
  have hi : idx_main_call0_v13 (ix3 b n ch) = ix2 b n :=
    funext fun a => Fin.ext (by match a with | ⟨0, _⟩ => rfl | ⟨1, _⟩ => rfl)
  rw [val_main_v5_apply, val_main_call0_v13_apply, hi, negMask, negGathered, val_main_call0_v14_apply,
    val_main_call0_cst_apply]
  rfl

/-! ## The positive anchors' class logits -/

/-- The wrapped index of sample b's p-th positive anchor, as the second gather reads it. -/
theorem posWrapped (b : Fin 128) (p : Fin 64) :
    val_main_call2_v4 (F := Ideal) x3 (ix3 b p (0 : Fin 1)) = wrapIdx (x3 (ix2 b p)) := by
  have hi : idx_main_v13 (ix3 b p (0 : Fin 1)) = ix2 b p :=
    funext fun a => Fin.ext (by match a with | ⟨0, _⟩ => rfl | ⟨1, _⟩ => rfl)
  rw [val_main_call2_v4_apply, val_main_call2_v1_apply, val_main_call2_v3_apply, val_main_v13_apply,
    val_main_call2_v0_apply, val_main_call2_v2_apply, val_main_call2_c_apply, val_main_call2_c_0_apply, hi]
  rfl

/-- The range mask at (b, p): the true bit "and" the range test of the index. -/
theorem posMask (b : Fin 128) (p : Fin 64) :
    val_main_call2_v11 (F := Ideal) x3 (ix2 b p) = IntOp.andi 1#1 (inRange (x3 (ix2 b p))) := by
  unfold val_main_call2_v11
  refine (reduce_and_tail1_rank3 (val_main_call2_v10 (F := Ideal) x3) (val_main_call2_c_3 (F := Ideal))
    reducesTo_S128x64x1_S128x64_d2 h_S_ b p).trans ?_
  rw [val_main_call2_c_3_apply, val_main_call2_v10_apply, val_main_call2_v6_apply, val_main_call2_v9_apply,
    posWrapped, val_main_call2_v5_apply, val_main_call2_c_2_apply, val_main_call2_v8_apply,
    val_main_call2_v7_apply, val_main_call2_c_1_apply]
  rfl

/-- The bare gather at (b, p, ch): the logits at the clamped row. -/
theorem posGathered (b : Fin 128) (p : Fin 64) (ch : Fin 2) :
    val_main_call2_v12 (F := Ideal) x0 x3 (ix3 b p ch)
      = val_main_v1 (F := Ideal) x0 (ix3 b (rowOf (x3 (ix2 b p))) ch) := by
  unfold val_main_call2_v12
  refine (gather_mid_apply (by decide) gather_S128x65536x2_S128x64x1_S128x64x2_2_1_0_0_1_2_112
    rfl rfl rfl rfl rfl rfl rfl (val_main_v1 (F := Ideal) x0) (val_main_call2_v4 (F := Ideal) x3) b p ch).trans ?_
  exact congrArg (fun r => val_main_v1 (F := Ideal) x0 (ix3 b r ch)) (row_of_wrapped (posWrapped x3 b p) _)

/-- THE POSITIVE ANCHORS' LOGITS: entry (b, p, ch) of the reference's second gathered array is the specification's
    class logit ch of sample b's p-th positive anchor. -/
theorem posLogit_eq (b : Fin 128) (p : Fin 64) (ch : Fin 2) :
    val_main_v14 (F := Ideal) x0 x3 (ix3 b p ch) = posLogit (val_main_v1 (F := Ideal) x0) x3 b p ch := by
  have hi : idx_main_call2_v13 (ix3 b p ch) = ix2 b p :=
    funext fun a => Fin.ext (by match a with | ⟨0, _⟩ => rfl | ⟨1, _⟩ => rfl)
  rw [val_main_v14_apply, val_main_call2_v13_apply, hi, posMask, posGathered, val_main_call2_v14_apply,
    val_main_call2_cst_apply]
  rfl

/-! ## The positive anchors' predicted box offsets -/

/-- The wrapped index of sample b's p-th positive anchor, as the third gather reads it. -/
theorem locWrapped (b : Fin 128) (p : Fin 64) :
    val_main_call4_v4 (F := Ideal) x3 (ix3 b p (0 : Fin 1)) = wrapIdx (x3 (ix2 b p)) := by
  have hi : idx_main_v22 (ix3 b p (0 : Fin 1)) = ix2 b p :=
    funext fun a => Fin.ext (by match a with | ⟨0, _⟩ => rfl | ⟨1, _⟩ => rfl)
  rw [val_main_call4_v4_apply, val_main_call4_v1_apply, val_main_call4_v3_apply, val_main_v22_apply,
    val_main_call4_v0_apply, val_main_call4_v2_apply, val_main_call4_c_apply, val_main_call4_c_0_apply, hi]
  rfl

/-- The range mask at (b, p): the true bit "and" the range test of the index. -/
theorem locMask (b : Fin 128) (p : Fin 64) :
    val_main_call4_v11 (F := Ideal) x3 (ix2 b p) = IntOp.andi 1#1 (inRange (x3 (ix2 b p))) := by
  unfold val_main_call4_v11
  refine (reduce_and_tail1_rank3 (val_main_call4_v10 (F := Ideal) x3) (val_main_call4_c_3 (F := Ideal))
    reducesTo_S128x64x1_S128x64_d2 h_S_ b p).trans ?_
  rw [val_main_call4_c_3_apply, val_main_call4_v10_apply, val_main_call4_v6_apply, val_main_call4_v9_apply,
    locWrapped, val_main_call4_v5_apply, val_main_call4_c_2_apply, val_main_call4_v8_apply,
    val_main_call4_v7_apply, val_main_call4_c_1_apply]
  rfl

/-- The bare gather at (b, p, k): the transposed offsets at the clamped row, which is the untransposed array at
    coordinate k and that row. -/
theorem locGathered (b : Fin 128) (p : Fin 64) (k : Fin 4) :
    val_main_call4_v12 (F := Ideal) x1 x3 (ix3 b p k)
      = val_main_v2 (F := Ideal) x1 (ix3 b k (rowOf (x3 (ix2 b p)))) := by
  unfold val_main_call4_v12
  refine (gather_mid_apply (by decide) gather_S128x65536x4_S128x64x1_S128x64x4_2_1_0_0_1_2_114
    rfl rfl rfl rfl rfl rfl rfl (val_main_v3 (F := Ideal) x1) (val_main_call4_v4 (F := Ideal) x3) b p k).trans ?_
  refine (congrArg (fun r => val_main_v3 (F := Ideal) x1 (ix3 b r k)) (row_of_wrapped (locWrapped x3 b p) _)).trans ?_
  have hi : idx_main_v3 (ix3 b (rowOf (x3 (ix2 b p))) k) = ix3 b k (rowOf (x3 (ix2 b p))) :=
    funext fun a => Fin.ext (by match a with | ⟨0, _⟩ => rfl | ⟨1, _⟩ => rfl | ⟨2, _⟩ => rfl)
  show val_main_v3 (F := Ideal) x1 (ix3 b (rowOf (x3 (ix2 b p))) k) = _
  rw [val_main_v3_apply, hi]

/-- THE POSITIVE ANCHORS' OFFSETS: entry (b, p, k) of the reference's third gathered array is the specification's
    predicted offset k of sample b's p-th positive anchor. -/
theorem posLoc_eq (b : Fin 128) (p : Fin 64) (k : Fin 4) :
    val_main_v23 (F := Ideal) x1 x3 (ix3 b p k) = posLoc (val_main_v2 (F := Ideal) x1) x3 b k p := by
  have hi : idx_main_call4_v13 (ix3 b p k) = ix2 b p :=
    funext fun a => Fin.ext (by match a with | ⟨0, _⟩ => rfl | ⟨1, _⟩ => rfl)
  rw [val_main_v23_apply, val_main_call4_v13_apply, hi, locMask, locGathered, val_main_call4_v14_apply,
    val_main_call4_cst_apply]
  rfl

/-! ## The positive anchors' boxes -/

/-- The wrapped index of sample b's p-th positive anchor, as the fourth gather reads it. -/
theorem boxWrapped (b : Fin 128) (p : Fin 64) :
    val_main_v29 (F := Ideal) x3 (ix3 b p (0 : Fin 1)) = wrapIdx (x3 (ix2 b p)) := by
  have hi : idx_main_v29 (ix3 b p (0 : Fin 1)) = ix2 b p :=
    funext fun a => Fin.ext (by match a with | ⟨0, _⟩ => rfl | ⟨1, _⟩ => rfl)
  rw [val_main_v29_apply, hi, val_main_v28_apply, val_main_v25_apply, val_main_v27_apply, val_main_v24_apply,
    val_main_v26_apply, val_main_c_apply, val_main_c_3_apply]
  rfl

/-- THE POSITIVE ANCHORS' BOXES: entry (b, p, k) of the reference's fourth gathered array is the anchor table at the
    clamped row and column k, with no mask. -/
theorem anchBox_eq (b : Fin 128) (p : Fin 64) (k : Fin 4) :
    val_main_v30 (F := Ideal) x3 x5 (ix3 b p k) = anchBox x3 x5 b p k := by
  unfold val_main_v30
  refine (gather_rows3_apply (by decide) gather_S65536x4_S128x64x1_S128x64x4_2_0_n_n_0_2_14
    rfl rfl rfl rfl rfl rfl rfl x5 (val_main_v29 (F := Ideal) x3) b p k).trans ?_
  exact congrArg (fun r => x5 (ix2 r k)) (row_of_wrapped (boxWrapped x3 b p) _)

end Cert.ReferenceIdeal.RefGather

end
-- ==== Proof.RefRows.lean ====
/-
  The reference's three per-sample means, read down to the gathered arrays.

  For a sample b the reference takes, over its 2048 negative anchors, the mean of minus the class-0 entry of the
  log-softmax of each anchor's gathered pair of class logits; over its 64 positive anchors the mean of minus the class-1
  entry; and over the 64 positive anchors and the four box coordinates the mean of the smooth-L1 distance between the
  gathered predicted offsets and the offsets of the sample's ground-truth box from the gathered anchor box. Each of the
  three is shown here to be the sum of the specification's scalar terms (logProb, boxTerm) at the gathered arrays'
  entries, over the count as a float constant. The log-softmax of a pair (x, y) is computed with the shift
  max (x, y): the maximum is folded from minus infinity, the bottom of the extended reals, so the fold is max x y; the
  two shifted exponentials are added from zero. A sum over the anchors and the four coordinates is the sum over the
  anchors of the four coordinates' terms added from the left, the order in which boxTerm adds them. The target offsets
  are a concatenation along the coordinate axis of the two centre offsets and the two size offsets.
-/
import proofs.«409514_j31688268710033_3_alg».proof.Proof.RefRead
import proofs.«409514_j31688268710033_3_alg».proof.Proof.Spec
import proofs.«409514_j31688268710033_3_alg».proof.Proof.LibReduceTail
import Idealize.ShloMosaic.Lib.ValueIdx
import Idealize.ShloMosaic.Lib.Pipeline.Value
import Idealize.ShloMosaic.PureOps.Ideal.Laws

noncomputable section

namespace Cert.ReferenceIdeal.RefRows

open Cert.ReferenceIdeal Cert.ReferenceIdeal.Gen Cert.ReferenceIdeal.ReadP Cert.TrackLoss Idealize.ShloMosaic
  Idealize.ShloMosaic.ValueIdx

variable (x0 : (⟨S128x32x64x64, .f32⟩ : BufTy).Contents (Elt Ideal))
  (x1 : (⟨S128x64x64x64, .f32⟩ : BufTy).Contents (Elt Ideal))
  (x2 : (⟨S128x4, .f32⟩ : BufTy).Contents (Elt Ideal))
  (x3 : (⟨S128x64, .i32⟩ : BufTy).Contents (Elt Ideal))
  (x4 : (⟨S128x2048, .i32⟩ : BufTy).Contents (Elt Ideal))
  (x5 : (⟨S65536x4, .f32⟩ : BufTy).Contents (Elt Ideal))

/-- The pattern of minus infinity denotes the bottom of the extended reals. -/
theorem ofBits_negInf : Ideal.ofBits .f32 0xFF800000#32 = (⊥ : EReal) := by simp [Ideal.ofBits, Ideal.ieee]

/-- Two sums with equal terms have equal quotients by one divisor. -/
theorem div_sum_congr {ι : Type} [Fintype ι] (f g : ι → EReal) (c : EReal) (h : ∀ i, f i = g i) :
    Ideal.div (∑ i, f i) c = Ideal.div (∑ i, g i) c := by
  rw [Finset.sum_congr rfl fun i _ => h i]

/-! ## The negative anchors: the log-softmax of the gathered pair of logits, then the mean of minus its class-0 entry -/

/-- The row maximum: the maximum over the pair, taken from the initial value minus infinity and once more against
    minus infinity, is the maximum of the two logits. -/
theorem negMax_at (b : Fin 128) (n : Fin 2048) :
    val_main_call1_v2 (F := Ideal) x0 x4 (ix2 b n) = max (val_main_v5 (F := Ideal) x0 x4 (ix3 b n 0)) (val_main_v5 (F := Ideal) x0 x4 (ix3 b n 1)) := by
  have h : val_main_call1_v0 (F := Ideal) x0 x4 (ix2 b n)
      = max (val_main_call1_cst (F := Ideal) (Shape.Idx.first h_S_)) (max (val_main_v5 (F := Ideal) x0 x4 (ix3 b n 0)) (val_main_v5 (F := Ideal) x0 x4 (ix3 b n 1))) :=
    ReduceTail.reduce_max_tail2 (val_main_v5 (F := Ideal) x0 x4) (val_main_call1_cst (F := Ideal))
      reducesTo_S128x2048x2_S128x2048_d2 h_S_ b n
  rw [val_main_call1_v2_apply, val_main_call1_v1_apply, val_main_call1_cst_0_apply, h, val_main_call1_cst_apply]
  simp only [Ideal.ofBits_def, Ideal.maximumf_def, ofBits_negInf, max_bot_left]

/-- The row maximum broadcast back over the pair. -/
theorem negMaxB_at (b : Fin 128) (n : Fin 2048) (c : Fin 2) :
    val_main_call1_v4 (F := Ideal) x0 x4 (ix3 b n c) = max (val_main_v5 (F := Ideal) x0 x4 (ix3 b n 0)) (val_main_v5 (F := Ideal) x0 x4 (ix3 b n 1)) := by
  have e : idx_main_call1_v3 (idx_main_call1_v4 (ix3 b n c)) = ix2 b n :=
    funext fun a => Fin.ext (by match a with | ⟨0, _⟩ => rfl | ⟨1, _⟩ => rfl)
  rw [val_main_call1_v4_apply, val_main_call1_v3_apply, e, negMax_at]

/-- The shifted logits. -/
theorem negShift_at (b : Fin 128) (n : Fin 2048) (c : Fin 2) :
    val_main_call1_v5 (F := Ideal) x0 x4 (ix3 b n c) = val_main_v5 (F := Ideal) x0 x4 (ix3 b n c) - max (val_main_v5 (F := Ideal) x0 x4 (ix3 b n 0)) (val_main_v5 (F := Ideal) x0 x4 (ix3 b n 1)) := by
  rw [val_main_call1_v5_apply, negMaxB_at]
  rfl

/-- The sum of the two shifted exponentials: the initial value zero plus the two terms. -/
theorem negSum_at (b : Fin 128) (n : Fin 2048) :
    val_main_call1_v7 (F := Ideal) x0 x4 (ix2 b n)
      = Ideal.exp (val_main_v5 (F := Ideal) x0 x4 (ix3 b n 0) - max (val_main_v5 (F := Ideal) x0 x4 (ix3 b n 0)) (val_main_v5 (F := Ideal) x0 x4 (ix3 b n 1)))
        + Ideal.exp (val_main_v5 (F := Ideal) x0 x4 (ix3 b n 1) - max (val_main_v5 (F := Ideal) x0 x4 (ix3 b n 0)) (val_main_v5 (F := Ideal) x0 x4 (ix3 b n 1))) := by
  have e0 : idx_main_call1_v7 (ix2 b n) 0 = ix3 b n 0 :=
    funext fun a => Fin.ext (by match a with | ⟨0, _⟩ => rfl | ⟨1, _⟩ => rfl | ⟨2, _⟩ => rfl)
  have e1 : idx_main_call1_v7 (ix2 b n) 1 = ix3 b n 1 :=
    funext fun a => Fin.ext (by match a with | ⟨0, _⟩ => rfl | ⟨1, _⟩ => rfl | ⟨2, _⟩ => rfl)
  rw [val_main_call1_v7_apply, val_main_call1_cst_1_apply, Fin.sum_univ_two, e0, e1, val_main_call1_v6_apply,
    val_main_call1_v6_apply, negShift_at, negShift_at]
  simp only [Ideal.ofBits_def, Ideal.ofBits_zero_f32, zero_add, Ideal.hostUnary_exp_def]

/-- Its logarithm, broadcast back over the pair. -/
theorem negLog_at (b : Fin 128) (n : Fin 2048) (c : Fin 2) :
    val_main_call1_v10 (F := Ideal) x0 x4 (ix3 b n c)
      = Ideal.log (Ideal.exp (val_main_v5 (F := Ideal) x0 x4 (ix3 b n 0) - max (val_main_v5 (F := Ideal) x0 x4 (ix3 b n 0)) (val_main_v5 (F := Ideal) x0 x4 (ix3 b n 1)))
        + Ideal.exp (val_main_v5 (F := Ideal) x0 x4 (ix3 b n 1) - max (val_main_v5 (F := Ideal) x0 x4 (ix3 b n 0)) (val_main_v5 (F := Ideal) x0 x4 (ix3 b n 1)))) := by
  have e : idx_main_call1_v8 (idx_main_call1_v10 (ix3 b n c)) = ix2 b n :=
    funext fun a => Fin.ext (by match a with | ⟨0, _⟩ => rfl | ⟨1, _⟩ => rfl)
  rw [val_main_call1_v10_apply, val_main_call1_v9_apply, val_main_call1_v8_apply, e, negSum_at]
  simp only [Ideal.hostUnary_log_def]

/-- The log-softmax at class c is the log-probability of the logit at c under the pair. -/
theorem negLsm_at (b : Fin 128) (n : Fin 2048) (c : Fin 2) :
    val_main_v6 (F := Ideal) x0 x4 (ix3 b n c)
      = logProb (val_main_v5 (F := Ideal) x0 x4 (ix3 b n c)) (val_main_v5 (F := Ideal) x0 x4 (ix3 b n 0)) (val_main_v5 (F := Ideal) x0 x4 (ix3 b n 1)) := by
  rw [val_main_v6_apply, negShift_at, negLog_at]
  rfl

/-- One anchor's term: minus the class-0 entry, read through the slice and the reshape. -/
theorem negTerm_at (b : Fin 128) (n : Fin 2048) :
    val_main_v9 (F := Ideal) x0 x4 (ix2 b n)
      = -(logProb (val_main_v5 (F := Ideal) x0 x4 (ix3 b n 0)) (val_main_v5 (F := Ideal) x0 x4 (ix3 b n 0)) (val_main_v5 (F := Ideal) x0 x4 (ix3 b n 1))) := by
  have hb := b.isLt
  have hn := n.isLt
  have e : idx_main_v7 (idx_main_v8 (ix2 b n)) = ix3 b n 0 :=
    funext fun a => Fin.ext (by
      match a with
      | ⟨0, _⟩ => show (b.val * 2048 + n.val) / 2048 = b.val; omega
      | ⟨1, _⟩ => show (b.val * 2048 + n.val) / 1 % 2048 = n.val; omega
      | ⟨2, _⟩ => rfl)
  rw [val_main_v9_apply, val_main_v8_apply, val_main_v7_apply, e, negLsm_at]
  rfl

/-- THE NEGATIVE MEAN of sample b: the sum of its anchors' terms (from the initial value zero) over 2048. -/
theorem negMean_eq (b : Fin 128) :
    val_main_v12 (F := Ideal) x0 x4 (ix1 b)
      = Ideal.div (∑ n : Fin 2048, -(logProb (val_main_v5 (F := Ideal) x0 x4 (ix3 b n 0)) (val_main_v5 (F := Ideal) x0 x4 (ix3 b n 0)) (val_main_v5 (F := Ideal) x0 x4 (ix3 b n 1))))
          (Ideal.ofBits .f32 0x45000000#32) := by
  rw [val_main_v12_apply, val_main_v10_apply, val_main_cst_apply, val_main_v11_apply, val_main_cst_0_apply]
  simp only [Ideal.hostDivf_def, Ideal.ofBits_def, Ideal.ofBits_zero_f32, zero_add]
  refine div_sum_congr _ _ _ fun n => ?_
  have e : idx_main_v10 (ix1 b) n = ix2 b n :=
    funext fun a => Fin.ext (by match a with | ⟨0, _⟩ => rfl | ⟨1, _⟩ => rfl)
  rw [e, negTerm_at]

/-! ## The positive anchors: the log-softmax of the gathered pair of logits, then the mean of minus its class-1 entry -/

/-- The row maximum: the maximum over the pair, taken from the initial value minus infinity and once more against
    minus infinity, is the maximum of the two logits. -/
theorem posMax_at (b : Fin 128) (n : Fin 64) :
    val_main_call3_v2 (F := Ideal) x0 x3 (ix2 b n) = max (val_main_v14 (F := Ideal) x0 x3 (ix3 b n 0)) (val_main_v14 (F := Ideal) x0 x3 (ix3 b n 1)) := by
  have h : val_main_call3_v0 (F := Ideal) x0 x3 (ix2 b n)
      = max (val_main_call3_cst (F := Ideal) (Shape.Idx.first h_S_)) (max (val_main_v14 (F := Ideal) x0 x3 (ix3 b n 0)) (val_main_v14 (F := Ideal) x0 x3 (ix3 b n 1))) :=
    ReduceTail.reduce_max_tail2 (val_main_v14 (F := Ideal) x0 x3) (val_main_call3_cst (F := Ideal))
      reducesTo_S128x64x2_S128x64_d2 h_S_ b n
  rw [val_main_call3_v2_apply, val_main_call3_v1_apply, val_main_call3_cst_0_apply, h, val_main_call3_cst_apply]
  simp only [Ideal.ofBits_def, Ideal.maximumf_def, ofBits_negInf, max_bot_left]

/-- The row maximum broadcast back over the pair. -/
theorem posMaxB_at (b : Fin 128) (n : Fin 64) (c : Fin 2) :
    val_main_call3_v4 (F := Ideal) x0 x3 (ix3 b n c) = max (val_main_v14 (F := Ideal) x0 x3 (ix3 b n 0)) (val_main_v14 (F := Ideal) x0 x3 (ix3 b n 1)) := by
  have e : idx_main_call3_v3 (idx_main_call3_v4 (ix3 b n c)) = ix2 b n :=
    funext fun a => Fin.ext (by match a with | ⟨0, _⟩ => rfl | ⟨1, _⟩ => rfl)
  rw [val_main_call3_v4_apply, val_main_call3_v3_apply, e, posMax_at]

/-- The shifted logits. -/
theorem posShift_at (b : Fin 128) (n : Fin 64) (c : Fin 2) :
    val_main_call3_v5 (F := Ideal) x0 x3 (ix3 b n c) = val_main_v14 (F := Ideal) x0 x3 (ix3 b n c) - max (val_main_v14 (F := Ideal) x0 x3 (ix3 b n 0)) (val_main_v14 (F := Ideal) x0 x3 (ix3 b n 1)) := by
  rw [val_main_call3_v5_apply, posMaxB_at]
  rfl

/-- The sum of the two shifted exponentials: the initial value zero plus the two terms. -/
theorem posSum_at (b : Fin 128) (n : Fin 64) :
    val_main_call3_v7 (F := Ideal) x0 x3 (ix2 b n)
      = Ideal.exp (val_main_v14 (F := Ideal) x0 x3 (ix3 b n 0) - max (val_main_v14 (F := Ideal) x0 x3 (ix3 b n 0)) (val_main_v14 (F := Ideal) x0 x3 (ix3 b n 1)))
        + Ideal.exp (val_main_v14 (F := Ideal) x0 x3 (ix3 b n 1) - max (val_main_v14 (F := Ideal) x0 x3 (ix3 b n 0)) (val_main_v14 (F := Ideal) x0 x3 (ix3 b n 1))) := by
  have e0 : idx_main_call3_v7 (ix2 b n) 0 = ix3 b n 0 :=
    funext fun a => Fin.ext (by match a with | ⟨0, _⟩ => rfl | ⟨1, _⟩ => rfl | ⟨2, _⟩ => rfl)
  have e1 : idx_main_call3_v7 (ix2 b n) 1 = ix3 b n 1 :=
    funext fun a => Fin.ext (by match a with | ⟨0, _⟩ => rfl | ⟨1, _⟩ => rfl | ⟨2, _⟩ => rfl)
  rw [val_main_call3_v7_apply, val_main_call3_cst_1_apply, Fin.sum_univ_two, e0, e1, val_main_call3_v6_apply,
    val_main_call3_v6_apply, posShift_at, posShift_at]
  simp only [Ideal.ofBits_def, Ideal.ofBits_zero_f32, zero_add, Ideal.hostUnary_exp_def]

/-- Its logarithm, broadcast back over the pair. -/
theorem posLog_at (b : Fin 128) (n : Fin 64) (c : Fin 2) :
    val_main_call3_v10 (F := Ideal) x0 x3 (ix3 b n c)
      = Ideal.log (Ideal.exp (val_main_v14 (F := Ideal) x0 x3 (ix3 b n 0) - max (val_main_v14 (F := Ideal) x0 x3 (ix3 b n 0)) (val_main_v14 (F := Ideal) x0 x3 (ix3 b n 1)))
        + Ideal.exp (val_main_v14 (F := Ideal) x0 x3 (ix3 b n 1) - max (val_main_v14 (F := Ideal) x0 x3 (ix3 b n 0)) (val_main_v14 (F := Ideal) x0 x3 (ix3 b n 1)))) := by
  have e : idx_main_call3_v8 (idx_main_call3_v10 (ix3 b n c)) = ix2 b n :=
    funext fun a => Fin.ext (by match a with | ⟨0, _⟩ => rfl | ⟨1, _⟩ => rfl)
  rw [val_main_call3_v10_apply, val_main_call3_v9_apply, val_main_call3_v8_apply, e, posSum_at]
  simp only [Ideal.hostUnary_log_def]

/-- The log-softmax at class c is the log-probability of the logit at c under the pair. -/
theorem posLsm_at (b : Fin 128) (n : Fin 64) (c : Fin 2) :
    val_main_v15 (F := Ideal) x0 x3 (ix3 b n c)
      = logProb (val_main_v14 (F := Ideal) x0 x3 (ix3 b n c)) (val_main_v14 (F := Ideal) x0 x3 (ix3 b n 0)) (val_main_v14 (F := Ideal) x0 x3 (ix3 b n 1)) := by
  rw [val_main_v15_apply, posShift_at, posLog_at]
  rfl

/-- One anchor's term: minus the class-1 entry, read through the slice and the reshape. -/
theorem posTerm_at (b : Fin 128) (n : Fin 64) :
    val_main_v18 (F := Ideal) x0 x3 (ix2 b n)
      = -(logProb (val_main_v14 (F := Ideal) x0 x3 (ix3 b n 1)) (val_main_v14 (F := Ideal) x0 x3 (ix3 b n 0)) (val_main_v14 (F := Ideal) x0 x3 (ix3 b n 1))) := by
  have hb := b.isLt
  have hn := n.isLt
  have e : idx_main_v16 (idx_main_v17 (ix2 b n)) = ix3 b n 1 :=
    funext fun a => Fin.ext (by
      match a with
      | ⟨0, _⟩ => show (b.val * 64 + n.val) / 64 = b.val; omega
      | ⟨1, _⟩ => show (b.val * 64 + n.val) / 1 % 64 = n.val; omega
      | ⟨2, _⟩ => rfl)
  rw [val_main_v18_apply, val_main_v17_apply, val_main_v16_apply, e, posLsm_at]
  rfl

/-- THE POSITIVE MEAN of sample b: the sum of its anchors' terms (from the initial value zero) over 64. -/
theorem posMean_eq (b : Fin 128) :
    val_main_v21 (F := Ideal) x0 x3 (ix1 b)
      = Ideal.div (∑ n : Fin 64, -(logProb (val_main_v14 (F := Ideal) x0 x3 (ix3 b n 1)) (val_main_v14 (F := Ideal) x0 x3 (ix3 b n 0)) (val_main_v14 (F := Ideal) x0 x3 (ix3 b n 1))))
          (Ideal.ofBits .f32 0x42800000#32) := by
  rw [val_main_v21_apply, val_main_v19_apply, val_main_cst_1_apply, val_main_v20_apply, val_main_cst_2_apply]
  simp only [Ideal.hostDivf_def, Ideal.ofBits_def, Ideal.ofBits_zero_f32, zero_add]
  refine div_sum_congr _ _ _ fun n => ?_
  have e : idx_main_v19 (ix1 b) n = ix2 b n :=
    funext fun a => Fin.ext (by match a with | ⟨0, _⟩ => rfl | ⟨1, _⟩ => rfl)
  rw [e, posTerm_at]

/-! ## The box term: the target offsets, their concatenation, the smooth-L1 distance, the mean over anchors and coordinates -/

/-- A centre offset at coordinate c of the first piece: the ground truth's coordinate k = c less the anchor's, over
    the anchor's size at coordinate k2 = 2 + c. -/
theorem centre_at (b : Fin 128) (p : Fin 64) (c : Fin 2) (k k2 : Fin 4) (hk : k.val = c.val) (hk2 : k2.val = 2 + c.val) :
    val_main_v37 (F := Ideal) x2 x3 x5 (ix3 b p c)
      = tgtCentre (x2 (ix2 b k)) (val_main_v30 (F := Ideal) x3 x5 (ix3 b p k)) (val_main_v30 (F := Ideal) x3 x5 (ix3 b p k2)) := by
  have e1 : idx_main_v31 (idx_main_v32 (idx_main_v34 (ix3 b p c))) = ix2 b k :=
    funext fun a => Fin.ext (by match a with | ⟨0, _⟩ => rfl | ⟨1, _⟩ => exact hk.symm)
  have e2 : idx_main_v33 (ix3 b p c) = ix3 b p k :=
    funext fun a => Fin.ext (by match a with | ⟨0, _⟩ => rfl | ⟨1, _⟩ => rfl | ⟨2, _⟩ => exact hk.symm)
  have e3 : idx_main_v36 (ix3 b p c) = ix3 b p k2 :=
    funext fun a => Fin.ext (by match a with | ⟨0, _⟩ => rfl | ⟨1, _⟩ => rfl | ⟨2, _⟩ => exact hk2.symm)
  rw [val_main_v37_apply, val_main_v35_apply, val_main_v34_apply, val_main_v32_apply, val_main_v31_apply,
    val_main_v33_apply, val_main_v36_apply, e1, e2, e3]
  rfl

/-- A size offset at coordinate c of the second piece: the log of the ground truth's size at k2 = 2 + c over the
    anchor's. -/
theorem size_at (b : Fin 128) (p : Fin 64) (c : Fin 2) (k2 : Fin 4) (hk2 : k2.val = 2 + c.val) :
    val_main_v42 (F := Ideal) x2 x3 x5 (ix3 b p c)
      = tgtSize (x2 (ix2 b k2)) (val_main_v30 (F := Ideal) x3 x5 (ix3 b p k2)) := by
  have e1 : idx_main_v31 (idx_main_v38 (idx_main_v40 (ix3 b p c))) = ix2 b k2 :=
    funext fun a => Fin.ext (by match a with | ⟨0, _⟩ => rfl | ⟨1, _⟩ => exact hk2.symm)
  have e2 : idx_main_v39 (ix3 b p c) = ix3 b p k2 :=
    funext fun a => Fin.ext (by match a with | ⟨0, _⟩ => rfl | ⟨1, _⟩ => rfl | ⟨2, _⟩ => exact hk2.symm)
  rw [val_main_v42_apply, val_main_v41_apply, val_main_v40_apply, val_main_v38_apply, val_main_v31_apply,
    val_main_v39_apply, e1, e2]
  rfl

/-- The concatenation at a coordinate k below two reads the first piece at k. -/
theorem cat_left (b : Fin 128) (p : Fin 64) (c : Fin 2) (k : Fin 4) (hk : c.val = k.val) :
    val_main_v43 (F := Ideal) x2 x3 x5 (ix3 b p k) = val_main_v37 (F := Ideal) x2 x3 x5 (ix3 b p c) := by
  unfold val_main_v43
  exact concatenate_pair_apply_left 2 _ _ concatenates_S128x64x2_S128x64x2_S128x64x4_d2 (ix3 b p k) rfl (ix3 b p c)
    (fun a => by match a with | ⟨0, _⟩ => rfl | ⟨1, _⟩ => rfl | ⟨2, _⟩ => exact hk)

/-- The concatenation at a coordinate k from two on reads the second piece at k less two. -/
theorem cat_right (b : Fin 128) (p : Fin 64) (c : Fin 2) (k : Fin 4) (hk : c.val + 2 = k.val) :
    val_main_v43 (F := Ideal) x2 x3 x5 (ix3 b p k) = val_main_v42 (F := Ideal) x2 x3 x5 (ix3 b p c) := by
  unfold val_main_v43
  exact concatenate_pair_apply_right 2 _ _ concatenates_S128x64x2_S128x64x2_S128x64x4_d2 (ix3 b p k) rfl rfl
    (ix3 b p c)
    (fun a ha => by match a with | ⟨0, _⟩ => rfl | ⟨1, _⟩ => rfl | ⟨2, _⟩ => exact absurd rfl ha)
    hk

/-- The four target offsets of positive anchor p of sample b. -/
theorem tgt0_at (b : Fin 128) (p : Fin 64) :
    val_main_v43 (F := Ideal) x2 x3 x5 (ix3 b p 0)
      = tgtCentre (x2 (ix2 b 0)) (val_main_v30 (F := Ideal) x3 x5 (ix3 b p 0)) (val_main_v30 (F := Ideal) x3 x5 (ix3 b p 2)) := by
  rw [cat_left x2 x3 x5 b p 0 0 rfl, centre_at x2 x3 x5 b p 0 0 2 rfl rfl]
theorem tgt1_at (b : Fin 128) (p : Fin 64) :
    val_main_v43 (F := Ideal) x2 x3 x5 (ix3 b p 1)
      = tgtCentre (x2 (ix2 b 1)) (val_main_v30 (F := Ideal) x3 x5 (ix3 b p 1)) (val_main_v30 (F := Ideal) x3 x5 (ix3 b p 3)) := by
  rw [cat_left x2 x3 x5 b p 1 1 rfl, centre_at x2 x3 x5 b p 1 1 3 rfl rfl]
theorem tgt2_at (b : Fin 128) (p : Fin 64) :
    val_main_v43 (F := Ideal) x2 x3 x5 (ix3 b p 2)
      = tgtSize (x2 (ix2 b 2)) (val_main_v30 (F := Ideal) x3 x5 (ix3 b p 2)) := by
  rw [cat_right x2 x3 x5 b p 0 2 rfl, size_at x2 x3 x5 b p 0 2 rfl]
theorem tgt3_at (b : Fin 128) (p : Fin 64) :
    val_main_v43 (F := Ideal) x2 x3 x5 (ix3 b p 3)
      = tgtSize (x2 (ix2 b 3)) (val_main_v30 (F := Ideal) x3 x5 (ix3 b p 3)) := by
  rw [cat_right x2 x3 x5 b p 1 3 rfl, size_at x2 x3 x5 b p 1 3 rfl]

/-- The smooth-L1 stage at an index: the specification's smoothL1 of the predicted offset less the target offset. -/
theorem smooth_at (i : S128x64x4.Idx) :
    val_main_v53 (F := Ideal) x1 x2 x3 x5 i
      = smoothL1 (val_main_v23 (F := Ideal) x1 x3 i - val_main_v43 (F := Ideal) x2 x3 x5 i) := by
  rw [val_main_v53_apply, val_main_v47_apply, val_main_v50_apply, val_main_v52_apply, val_main_v49_apply,
    val_main_v45_apply, val_main_v46_apply, val_main_v48_apply, val_main_v51_apply, val_main_cst_4_apply,
    val_main_cst_5_apply, val_main_cst_6_apply, val_main_v44_apply]
  rfl

/-- THE BOX MEAN of sample b: the sum over its positive anchors of the box term (the four coordinates' smooth-L1 terms
    added from the left, from the initial value zero) over 256. -/
theorem locMean_eq (b : Fin 128) :
    val_main_v56 (F := Ideal) x1 x2 x3 x5 (ix1 b)
      = Ideal.div (∑ p : Fin 64, boxTerm (fun k => val_main_v23 (F := Ideal) x1 x3 (ix3 b p k)) (fun k => x2 (ix2 b k))
            (fun k => val_main_v30 (F := Ideal) x3 x5 (ix3 b p k)))
          (Ideal.ofBits .f32 0x43800000#32) := by
  have h : val_main_v54 (F := Ideal) x1 x2 x3 x5 (ix1 b)
      = val_main_cst_7 (F := Ideal) (Shape.Idx.first h_S_)
        + ∑ p : Fin 64, ∑ k : Fin 4, val_main_v53 (F := Ideal) x1 x2 x3 x5 (ix3 b p k) :=
    ReduceTail.reduceAdd_tail2 (val_main_v53 (F := Ideal) x1 x2 x3 x5) (val_main_cst_7 (F := Ideal))
      reducesTo_S128x64x4_S128_d1_2 h_S_ b
  rw [val_main_v56_apply, h, val_main_cst_7_apply, val_main_v55_apply, val_main_cst_8_apply]
  simp only [Ideal.hostDivf_def, Ideal.ofBits_def, Ideal.ofBits_zero_f32, zero_add]
  refine div_sum_congr _ _ _ fun p => ?_
  rw [Fin.sum_univ_four, smooth_at, smooth_at, smooth_at, smooth_at, tgt0_at, tgt1_at, tgt2_at, tgt3_at]
  rfl

end Cert.ReferenceIdeal.RefRows

end
-- ==== Proof.Bridge.lean ====
/-
  The two programs compute one function.

  On the kernel side the launch leaves sample b's three sums in row b of its result array, over the arrays the host
  operations before it gathered; those gathers are the specification's (the class logits and the box offsets at the
  wrapped, range-masked anchor indices), so the three sums are the specification's negative-anchor sum, positive-anchor
  classification sum and box sum; for the last, the kernel reads the anchor's box through the range mask and the
  reference does not, which the box term cannot see, the gathered offsets being the bottom element wherever the mask
  is off. The host operations after the launch divide each column by its number of terms: these per-sample means are the
  reference's, index by index, its own gathers and reductions having been read in the same words. From there both
  programs average over the samples and combine the three averages by the same operations.
-/
import proofs.«409514_j31688268710033_3_alg».proof.Proof.KernelTail
import proofs.«409514_j31688268710033_3_alg».proof.Proof.KernelHostCls
import proofs.«409514_j31688268710033_3_alg».proof.Proof.KernelHostBox
import proofs.«409514_j31688268710033_3_alg».proof.Proof.SpecLaws
import proofs.«409514_j31688268710033_3_alg».proof.Proof.RefGather
import proofs.«409514_j31688268710033_3_alg».proof.Proof.RefRows
import Idealize.ShloMosaic.Lib.Pipeline.Value
import Idealize.ShloMosaic.Lib.StableHlo.Run

noncomputable section

namespace Cert.TrackLoss.Bridge

open Cert.KernelIdeal Cert.KernelIdeal.Gen Cert.KernelIdeal.KArray Cert.KernelIdeal.KTail Cert.TrackLoss
open Idealize.ShloMosaic Idealize.ShloMosaic.ValueIdx Idealize.ShloMosaic.TcCoe Idealize.SL.Sem Idealize.ShloMosaic.StableHlo

/-! ## A per-sample mean at a sample -/

/-- Column 0 over 2048, at sample b. -/
theorem mean0_apply (A : Vec Ideal S128x3 .f32) (b : Fin 128) :
    mean0 A (ix1 b) = Ideal.div (A (ix2 b (0 : Fin 3))) (Ideal.ofBits .f32 0x45000000#32) := by
  unfold mean0
  show FloatOps.hostDivf (shapeCast S128 (extractStridedSlice S128x1 ![0, 0] A slices_S128x3_S128x1_0_0) shapeCasts_S128x1_S128 (ix1 b))
      (broadcastInDim S128 ![] bcast_S_S128 (constant (F := Ideal) S_ .f32 0x45000000#32) (ix1 b)) = _
  rw [shapeCast_apply _ shapeCasts_S128x1_S128 (ix1 b) (ix2 b (0 : Fin 1))
        (by rewrite [Shape.rowMajor_val_two, Shape.rowMajor_val_one]; show b.val * 1 + 0 = b.val; omega),
    extractStridedSlice_apply ![0, 0] A slices_S128x3_S128x1_0_0 (ix2 b (0 : Fin 1)) (ix2 b (0 : Fin 3))
        (fun a => match a with
          | ⟨0, _⟩ => by show b.val = 0 + b.val; omega
          | ⟨1, _⟩ => by show (0 : Nat) = 0 + 0; rfl),
    broadcastInDim_apply _ bcast_S_S128 _ (ix1 b) ix0 (fun a => a.elim0)]
  rfl

/-- Column 1 over 64, at sample b. -/
theorem mean1_apply (A : Vec Ideal S128x3 .f32) (b : Fin 128) :
    mean1 A (ix1 b) = Ideal.div (A (ix2 b (1 : Fin 3))) (Ideal.ofBits .f32 0x42800000#32) := by
  unfold mean1
  show FloatOps.hostDivf (shapeCast S128 (extractStridedSlice S128x1 ![0, 1] A slices_S128x3_S128x1_0_1) shapeCasts_S128x1_S128 (ix1 b))
      (broadcastInDim S128 ![] bcast_S_S128 (constant (F := Ideal) S_ .f32 0x42800000#32) (ix1 b)) = _
  rw [shapeCast_apply _ shapeCasts_S128x1_S128 (ix1 b) (ix2 b (0 : Fin 1))
        (by rewrite [Shape.rowMajor_val_two, Shape.rowMajor_val_one]; show b.val * 1 + 0 = b.val; omega),
    extractStridedSlice_apply ![0, 1] A slices_S128x3_S128x1_0_1 (ix2 b (0 : Fin 1)) (ix2 b (1 : Fin 3))
        (fun a => match a with
          | ⟨0, _⟩ => by show b.val = 0 + b.val; omega
          | ⟨1, _⟩ => by show (1 : Nat) = 1 + 0; rfl),
    broadcastInDim_apply _ bcast_S_S128 _ (ix1 b) ix0 (fun a => a.elim0)]
  rfl

/-- Column 2 over 256, at sample b. -/
theorem mean2_apply (A : Vec Ideal S128x3 .f32) (b : Fin 128) :
    mean2 A (ix1 b) = Ideal.div (A (ix2 b (2 : Fin 3))) (Ideal.ofBits .f32 0x43800000#32) := by
  unfold mean2
  show FloatOps.hostDivf (shapeCast S128 (extractStridedSlice S128x1 ![0, 2] A slices_S128x3_S128x1_0_2) shapeCasts_S128x1_S128 (ix1 b))
      (broadcastInDim S128 ![] bcast_S_S128 (constant (F := Ideal) S_ .f32 0x43800000#32) (ix1 b)) = _
  rw [shapeCast_apply _ shapeCasts_S128x1_S128 (ix1 b) (ix2 b (0 : Fin 1))
        (by rewrite [Shape.rowMajor_val_two, Shape.rowMajor_val_one]; show b.val * 1 + 0 = b.val; omega),
    extractStridedSlice_apply ![0, 2] A slices_S128x3_S128x1_0_2 (ix2 b (0 : Fin 1)) (ix2 b (2 : Fin 3))
        (fun a => match a with
          | ⟨0, _⟩ => by show b.val = 0 + b.val; omega
          | ⟨1, _⟩ => by show (2 : Nat) = 2 + 0; rfl),
    broadcastInDim_apply _ bcast_S_S128 _ (ix1 b) ix0 (fun a => a.elim0)]
  rfl

/-! ## The array of sums in the specification's words -/

variable (m : (ℓ : Loc nD τ sig) → Buf (Elt Ideal) ℓ) (c : Dev nD)

/-- The kernel program's argument arrays and the two arrays it gathers from, at their literal types. -/
abbrev kGts : S128x4.Idx → EReal := m ((c : Thread nD τ).loc main_arg2)
abbrev kPos : S128x64.Idx → BitVec 32 := m ((c : Thread nD τ).loc main_arg3)
abbrev kNeg : S128x2048.Idx → BitVec 32 := m ((c : Thread nD τ).loc main_arg4)
abbrev kAnch : S65536x4.Idx → EReal := m ((c : Thread nD τ).loc main_arg5)
abbrev kCls : S128x65536x2.Idx → EReal := V m c main_v1
abbrev kLocv : S128x4x65536.Idx → EReal := V m c main_v8

theorem sums_col0 (b : Fin 128) : sums m c (ix2 b (0 : Fin 3)) = negSum m c b := rfl
theorem sums_col1 (b : Fin 128) : sums m c (ix2 b (1 : Fin 3)) = posSum m c b := rfl
theorem sums_col2 (b : Fin 128) : sums m c (ix2 b (2 : Fin 3)) = locSum m c b := rfl

/-- Sample b's sum over its negative anchors. -/
theorem negSum_eq (b : Fin 128) : negSum m c b = negRow (kCls m c) (kNeg m c) b := by
  unfold negSum negRow negTerm
  refine Finset.sum_congr rfl (fun n _ => ?_)
  rw [show arr0 m c (ix3 b 0 n) = negLogit (kCls m c) (kNeg m c) b n 0 from Cert.KernelIdeal.HostCls.negLogit_eq m c b 0 n,
    show arr0 m c (ix3 b 1 n) = negLogit (kCls m c) (kNeg m c) b n 1 from Cert.KernelIdeal.HostCls.negLogit_eq m c b 1 n]

/-- Sample b's sum of its positive anchors' classification terms. -/
theorem posSum_eq (b : Fin 128) : posSum m c b = posRow (kCls m c) (kPos m c) b := by
  unfold posSum posRow posTerm
  refine Finset.sum_congr rfl (fun p _ => ?_)
  rw [show arr1 m c (ix3 b 1 p) = posLogit (kCls m c) (kPos m c) b p 1 from Cert.KernelIdeal.HostCls.posLogit_eq m c b 1 p,
    show arr1 m c (ix3 b 0 p) = posLogit (kCls m c) (kPos m c) b p 0 from Cert.KernelIdeal.HostCls.posLogit_eq m c b 0 p]

/-- Sample b's sum of its positive anchors' box terms: the kernel reads the anchor's box through the range mask,
    which the box term does not see. -/
theorem locSum_eq (b : Fin 128) : locSum m c b = locRow (kLocv m c) (kGts m c) (kPos m c) (kAnch m c) b := by
  unfold locSum locRow
  refine Finset.sum_congr rfl (fun p _ => ?_)
  rw [← locTermMasked_eq (kLocv m c) (kGts m c) (kPos m c) (kAnch m c) b p]
  unfold locTermMasked
  have h2 : (fun k : Fin 4 => arr2 m c (ix3 b k p)) = fun k => posLoc (kLocv m c) (kPos m c) b k p :=
    funext fun k => Cert.KernelIdeal.HostBox.posLoc_eq m c b k p
  have h3 : (fun k : Fin 4 => arr3 m c (ix3 b k p)) = fun k => anchBoxMasked (kPos m c) (kAnch m c) b p k :=
    funext fun k => Cert.KernelIdeal.HostBox.anchBox_eq m c b k p
  have h4 : (fun k : Fin 4 => arr4 m c (ix2 b k)) = fun k => kGts m c (ix2 b k) :=
    funext fun k => congrFun (V_main_arg2 m c) (ix2 b k)
  rw [h2, h3, h4]

/-! ## The reference's stages at the kernel program's argument arrays -/

abbrev kArg0 : S128x32x64x64.Idx → EReal := m ((c : Thread nD τ).loc main_arg0)
abbrev kArg1 : S128x64x64x64.Idx → EReal := m ((c : Thread nD τ).loc main_arg1)

/-- The pair-contiguous class array is the reference's: the first argument reshaped and transposed. -/
theorem kCls_eq : kCls m c = Cert.ReferenceIdeal.ReadP.val_main_v1 (F := Ideal) (kArg0 m c) := by
  refine (Cert.KernelIdeal.HostCls.V_main_v1 m c).trans ?_
  unfold Cert.ReferenceIdeal.ReadP.val_main_v1 Cert.ReferenceIdeal.ReadP.val_main_v0
  rfl

/-- The reshaped box offsets are the reference's: the second argument reshaped to [128, 4, 65536]. -/
theorem kLocv_eq : kLocv m c = Cert.ReferenceIdeal.ReadP.val_main_v2 (F := Ideal) (kArg1 m c) := by
  have h : (V m c main_v8 : S128x4x65536.Idx → EReal)
      = shapeCast S128x4x65536 (m ((c : Thread nD τ).loc main_arg1) : S128x64x64x64.Idx → EReal) shapeCasts_S128x64x64x64_S128x4x65536 := by
    dsimp only [Gen.V, Gen.V0]
    simp only [Gen.hostOps0, Gen.hostOps0_1, Gen.hostOps0_2, Gen.hostOps0_3, Gen.hostOps0_4, Gen.hostOps0_5, Gen.hostOps0_6, Gen.hostOps0_7, List.flatten_cons, List.flatten_nil, List.append_nil, List.cons_append, List.nil_append]
    after_results_simp
    rfl
  refine h.trans ?_
  unfold Cert.ReferenceIdeal.ReadP.val_main_v2
  rfl

/-- The negative anchors' per-sample mean is the reference's. -/
theorem negMean_bridge :
    mean0 (sums m c) = Cert.ReferenceIdeal.ReadP.val_main_v12 (F := Ideal) (kArg0 m c) (kNeg m c) := by
  funext i
  obtain ⟨b, rfl⟩ : ∃ b : Fin 128, i = ix1 b := ⟨i 0, eq_ix1 i⟩
  rw [mean0_apply, sums_col0, negSum_eq, kCls_eq]
  refine Eq.trans ?_ (Cert.ReferenceIdeal.RefRows.negMean_eq (kArg0 m c) (kNeg m c) b).symm
  unfold negRow negTerm
  refine congrArg (fun s => Ideal.div s (Ideal.ofBits .f32 0x45000000#32)) (Finset.sum_congr rfl fun n _ => ?_)
  rw [Cert.ReferenceIdeal.RefGather.negLogit_eq (kArg0 m c) (kNeg m c) b n 0,
    Cert.ReferenceIdeal.RefGather.negLogit_eq (kArg0 m c) (kNeg m c) b n 1]

/-- The positive anchors' per-sample classification mean is the reference's. -/
theorem posMean_bridge :
    mean1 (sums m c) = Cert.ReferenceIdeal.ReadP.val_main_v21 (F := Ideal) (kArg0 m c) (kPos m c) := by
  funext i
  obtain ⟨b, rfl⟩ : ∃ b : Fin 128, i = ix1 b := ⟨i 0, eq_ix1 i⟩
  rw [mean1_apply, sums_col1, posSum_eq, kCls_eq]
  refine Eq.trans ?_ (Cert.ReferenceIdeal.RefRows.posMean_eq (kArg0 m c) (kPos m c) b).symm
  unfold posRow posTerm
  refine congrArg (fun s => Ideal.div s (Ideal.ofBits .f32 0x42800000#32)) (Finset.sum_congr rfl fun p _ => ?_)
  rw [Cert.ReferenceIdeal.RefGather.posLogit_eq (kArg0 m c) (kPos m c) b p 1,
    Cert.ReferenceIdeal.RefGather.posLogit_eq (kArg0 m c) (kPos m c) b p 0]

/-- The positive anchors' per-sample box mean is the reference's. -/
theorem locMean_bridge :
    mean2 (sums m c) = Cert.ReferenceIdeal.ReadP.val_main_v56 (F := Ideal) (kArg1 m c) (kGts m c) (kPos m c) (kAnch m c) := by
  funext i
  obtain ⟨b, rfl⟩ : ∃ b : Fin 128, i = ix1 b := ⟨i 0, eq_ix1 i⟩
  rw [mean2_apply, sums_col2, locSum_eq, kLocv_eq]
  refine Eq.trans ?_ (Cert.ReferenceIdeal.RefRows.locMean_eq (kArg1 m c) (kGts m c) (kPos m c) (kAnch m c) b).symm
  unfold locRow locTerm
  refine congrArg (fun s => Ideal.div s (Ideal.ofBits .f32 0x43800000#32)) (Finset.sum_congr rfl fun p _ => ?_)
  have h23 : (fun k : Fin 4 => Cert.ReferenceIdeal.ReadP.val_main_v23 (F := Ideal) (kArg1 m c) (kPos m c) (ix3 b p k))
      = fun k => posLoc (Cert.ReferenceIdeal.ReadP.val_main_v2 (F := Ideal) (kArg1 m c)) (kPos m c) b k p :=
    funext fun k => Cert.ReferenceIdeal.RefGather.posLoc_eq (kArg1 m c) (kPos m c) b p k
  have h30 : (fun k : Fin 4 => Cert.ReferenceIdeal.ReadP.val_main_v30 (F := Ideal) (kPos m c) (kAnch m c) (ix3 b p k))
      = fun k => anchBox (kPos m c) (kAnch m c) b p k :=
    funext fun k => Cert.ReferenceIdeal.RefGather.anchBox_eq (kPos m c) (kAnch m c) b p k
  rw [h23, h30]

/-! ## The four results -/

/-- The average of the negative anchors' means is the reference's second result. -/
theorem negM_bridge :
    avg (mean0 (sums m c)) = Cert.ReferenceIdeal.ReadP.val_main_v58 (F := Ideal) (kArg0 m c) (kNeg m c) := by
  rw [negMean_bridge]
  unfold avg Cert.ReferenceIdeal.ReadP.val_main_v58 Cert.ReferenceIdeal.ReadP.val_main_v57
    Cert.ReferenceIdeal.ReadP.val_main_cst_9 Cert.ReferenceIdeal.ReadP.val_main_cst_10
  rfl

/-- The average of the positive anchors' classification means is the reference's third result. -/
theorem posM_bridge :
    avg (mean1 (sums m c)) = Cert.ReferenceIdeal.ReadP.val_main_v60 (F := Ideal) (kArg0 m c) (kPos m c) := by
  rw [posMean_bridge]
  unfold avg Cert.ReferenceIdeal.ReadP.val_main_v60 Cert.ReferenceIdeal.ReadP.val_main_v59
    Cert.ReferenceIdeal.ReadP.val_main_cst_11 Cert.ReferenceIdeal.ReadP.val_main_cst_12
  rfl

/-- The average of the positive anchors' box means is the reference's fourth result. -/
theorem locM_bridge :
    avg (mean2 (sums m c)) = Cert.ReferenceIdeal.ReadP.val_main_v62 (F := Ideal) (kArg1 m c) (kGts m c) (kPos m c) (kAnch m c) := by
  rw [locMean_bridge]
  unfold avg Cert.ReferenceIdeal.ReadP.val_main_v62 Cert.ReferenceIdeal.ReadP.val_main_v61
    Cert.ReferenceIdeal.ReadP.val_main_cst_13 Cert.ReferenceIdeal.ReadP.val_main_cst_14
  rfl

/-- The total loss is the reference's first result. -/
theorem loss_bridge :
    combine (avg (mean0 (sums m c))) (avg (mean1 (sums m c))) (avg (mean2 (sums m c)))
      = Cert.ReferenceIdeal.ReadP.val_main_v68 (F := Ideal) (kArg0 m c) (kArg1 m c) (kGts m c) (kPos m c) (kNeg m c) (kAnch m c) := by
  rw [negM_bridge, posM_bridge, locM_bridge]
  unfold combine Cert.ReferenceIdeal.ReadP.val_main_v68 Cert.ReferenceIdeal.ReadP.val_main_v67 Cert.ReferenceIdeal.ReadP.val_main_v66
    Cert.ReferenceIdeal.ReadP.val_main_v65 Cert.ReferenceIdeal.ReadP.val_main_v64 Cert.ReferenceIdeal.ReadP.val_main_v63
    Cert.ReferenceIdeal.ReadP.val_main_cst_15 Cert.ReferenceIdeal.ReadP.val_main_cst_16 Cert.ReferenceIdeal.ReadP.val_main_cst_17
    Cert.ReferenceIdeal.ReadP.val_main_cst_18
  rfl

end Cert.TrackLoss.Bridge

end
-- ==== Proof.lean ====
/-
  The certificate of an anchor-based detection loss computed two ways.

  Both programs take, per sample, 2048 negative and 64 positive anchor indices into 65536 anchors, gather at them the
  two class logits of each anchor and, for the positive ones, four predicted box offsets and the anchor's own box, and
  return the batch averages of three per-sample means — minus the log-probability of class 0 over the negative anchors,
  minus that of class 1 over the positive anchors, the smooth-L1 distance between predicted and true box offsets over
  the positive anchors and the four coordinates — together with half of (half the first plus half the second) plus half
  the third. The reference does everything with host operations; the kernel program gathers with host operations,
  computes the three per-sample sums in one kernel launch over two blocks of 64 samples, and divides and averages with
  host operations again.

  The frames of the two kernel programs are the generated ones; the reference's frame is its run with the results
  dropped. Nothing is idealized away between the word-level kernel and the ideal one. Over the extended reals the two
  ideal programs end with equal results: both are the reference's own staged term of the argument arrays (Bridge.lean).
  The statement needs no hypothesis on the anchor indices: an index out of range makes the gathered logits and offsets
  the bottom element on both sides, and where the two programs then read different anchor boxes the difference is
  absorbed (SpecLaws.lean).
-/
import proofs.«409514_j31688268710033_3_alg».proof.Defs
import proofs.«409514_j31688268710033_3_alg».proof.Proof.Gen.Kernel
import proofs.«409514_j31688268710033_3_alg».proof.Proof.Gen.Kernel.Skeleton
import proofs.«409514_j31688268710033_3_alg».proof.Proof.Gen.Kernel.Launch
import proofs.«409514_j31688268710033_3_alg».proof.Proof.Gen.Kernel.Points
import proofs.«409514_j31688268710033_3_alg».proof.Proof.Gen.Kernel.Frame
import proofs.«409514_j31688268710033_3_alg».proof.Proof.Gen.KernelIdeal
import proofs.«409514_j31688268710033_3_alg».proof.Proof.Gen.KernelIdeal.Skeleton
import proofs.«409514_j31688268710033_3_alg».proof.Proof.Gen.KernelIdeal.Launch
import proofs.«409514_j31688268710033_3_alg».proof.Proof.Gen.KernelIdeal.Points
import proofs.«409514_j31688268710033_3_alg».proof.Proof.Gen.KernelIdeal.Frame
import proofs.«409514_j31688268710033_3_alg».proof.Proof.Gen.ReferenceIdeal
import proofs.«409514_j31688268710033_3_alg».proof.Proof.Gen.Pre_finite_inputs
import proofs.«409514_j31688268710033_3_alg».proof.Proof.Bridge
import Idealize.ShloMosaic.Adequacy
import Idealize.ShloMosaic.Init

noncomputable section

namespace Cert.Proof

open Idealize.ShloMosaic Idealize.ShloMosaic.TcCoe Idealize.SL.Sem
open Cert.TrackLoss.Bridge Cert.KernelIdeal.KTail

/-- The word-level kernel program runs and leaves its arguments as they were. -/
theorem frame_kernel : Cert.frame_Kernel := fun m ρ _ => Cert.Kernel.Gen.frame m ρ

/-- So does the ideal kernel program. -/
theorem frame_kernelIdeal : Cert.frame_KernelIdeal := fun m ρ _ => Cert.KernelIdeal.Gen.frame m ρ

/-- And the reference: its run, the four results dropped. -/
theorem frame_referenceIdeal : Cert.frame_ReferenceIdeal := fun m ρ _ =>
  (θ_run Cert.ReferenceIdeal.defs _ _).mono (fun _ h c => (h c).2.2.2.2) (Cert.ReferenceIdeal.ValueP.run (F := Ideal) m ρ)

/-- No operation of the kernel was rewritten for the ideal reading. -/
theorem preserves : Cert.preserves_Kernel_KernelIdeal := trivial

/-- From memories agreeing on the six arguments both ideal programs run to the same four results: the reference's
    staged terms of the kernel program's argument arrays. -/
theorem algebraic : Cert.algebraic_KernelIdeal_ReferenceIdeal := by
  intro m ρ m' ρ' _ hagree
  refine ⟨fun c => Cert.ReferenceIdeal.ReadP.val_main_v68 (F := Ideal) (kArg0 m c) (kArg1 m c) (kGts m c) (kPos m c) (kNeg m c) (kAnch m c),
    fun c => Cert.ReferenceIdeal.ReadP.val_main_v58 (F := Ideal) (kArg0 m c) (kNeg m c),
    fun c => Cert.ReferenceIdeal.ReadP.val_main_v60 (F := Ideal) (kArg0 m c) (kPos m c),
    fun c => Cert.ReferenceIdeal.ReadP.val_main_v62 (F := Ideal) (kArg1 m c) (kGts m c) (kPos m c) (kAnch m c), ?_, ?_⟩
  · -- the kernel program: the frame run, each result read through the operations after the launch
    refine (θ_run Cert.KernelIdeal.defs _ _).mono (fun r h c => ?_) (Cert.KernelIdeal.Gen.run_main m ρ)
    have hr := (h c).2
    exact ⟨(hr Cert.KernelIdeal.main_v38 (Pipeline.mem_restRefs_of Cert.KernelIdeal.main_v38 (by decide) (by decide))).trans
        ((tail_loss m c).trans (loss_bridge m c)),
      (hr Cert.KernelIdeal.main_v28 (Pipeline.mem_restRefs_of Cert.KernelIdeal.main_v28 (by decide) (by decide))).trans
        ((tail_negM m c).trans (negM_bridge m c)),
      (hr Cert.KernelIdeal.main_v30 (Pipeline.mem_restRefs_of Cert.KernelIdeal.main_v30 (by decide) (by decide))).trans
        ((tail_posM m c).trans (posM_bridge m c)),
      (hr Cert.KernelIdeal.main_v32 (Pipeline.mem_restRefs_of Cert.KernelIdeal.main_v32 (by decide) (by decide))).trans
        ((tail_locM m c).trans (locM_bridge m c)),
      (hr Cert.KernelIdeal.main_arg0 (Pipeline.mem_restRefs_of Cert.KernelIdeal.main_arg0 (by decide) (by decide))).trans
        (Cert.KernelIdeal.Gen.W_main_arg0 m (Cert.KernelIdeal.Gen.dats m) c),
      (hr Cert.KernelIdeal.main_arg1 (Pipeline.mem_restRefs_of Cert.KernelIdeal.main_arg1 (by decide) (by decide))).trans
        (Cert.KernelIdeal.Gen.W_main_arg1 m (Cert.KernelIdeal.Gen.dats m) c),
      ((h c).1 4).trans (((Cert.KernelIdeal.Gen.dats m 0 c).arrAt_in 4 rfl _).trans
        ((Cert.KernelIdeal.Gen.A_eq m c 4).trans (Cert.KernelIdeal.Gen.V_main_arg2 m c))),
      (hr Cert.KernelIdeal.main_arg3 (Pipeline.mem_restRefs_of Cert.KernelIdeal.main_arg3 (by decide) (by decide))).trans
        (Cert.KernelIdeal.Gen.W_main_arg3 m (Cert.KernelIdeal.Gen.dats m) c),
      (hr Cert.KernelIdeal.main_arg4 (Pipeline.mem_restRefs_of Cert.KernelIdeal.main_arg4 (by decide) (by decide))).trans
        (Cert.KernelIdeal.Gen.W_main_arg4 m (Cert.KernelIdeal.Gen.dats m) c),
      (hr Cert.KernelIdeal.main_arg5 (Pipeline.mem_restRefs_of Cert.KernelIdeal.main_arg5 (by decide) (by decide))).trans
        (Cert.KernelIdeal.Gen.W_main_arg5 m (Cert.KernelIdeal.Gen.dats m) c)⟩
  · -- the reference: its run, each result's term the stage, the arguments those of the kernel program's memory
    refine (θ_run Cert.ReferenceIdeal.defs _ _).mono (fun r h c => ?_) (Cert.ReferenceIdeal.ValueP.run (F := Ideal) m' ρ')
    obtain ⟨h68, h58, h60, h62, ha0, ha1, ha2, ha3, ha4, ha5⟩ := h c
    obtain ⟨e0, e1, e2, e3, e4, e5⟩ := hagree c
    refine ⟨h68.trans ((Cert.ReferenceIdeal.ReadP.val_main_v68_eq m' c).trans ?_),
      h58.trans ((Cert.ReferenceIdeal.ReadP.val_main_v58_eq m' c).trans ?_),
      h60.trans ((Cert.ReferenceIdeal.ReadP.val_main_v60_eq m' c).trans ?_),
      h62.trans ((Cert.ReferenceIdeal.ReadP.val_main_v62_eq m' c).trans ?_), ha0, ha1, ha2, ha3, ha4, ha5⟩
    · rw [e0, e1, e2, e3, e4, e5]
    · rw [e0, e4]
    · rw [e0, e3]
    · rw [e1, e2, e3, e5]

/-- Everything the certificate claims. -/
theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
